-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S100000 : Shape := ⟨1, ![100000]⟩
abbrev S2048 : Shape := ⟨1, ![2048]⟩
abbrev S12x16 : Shape := ⟨2, ![12, 16]⟩
abbrev S23x16 : Shape := ⟨2, ![23, 16]⟩
abbrev S4x16 : Shape := ⟨2, ![4, 16]⟩
abbrev S16x16 : Shape := ⟨2, ![16, 16]⟩
abbrev S6x64 : Shape := ⟨2, ![6, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S12x16 : S_.BroadcastsInDim S12x16 (![] : Fin 0 → Fin S12x16.rank)
  reducesTo_S12x16_S_d0_1 : S12x16.ReducesTo [0, 1] S_
  bcast_S_S23x16 : S_.BroadcastsInDim S23x16 (![] : Fin 0 → Fin S23x16.rank)
  reducesTo_S23x16_S_d0_1 : S23x16.ReducesTo [0, 1] S_
  bcast_S_S4x16 : S_.BroadcastsInDim S4x16 (![] : Fin 0 → Fin S4x16.rank)
  reducesTo_S4x16_S_d0_1 : S4x16.ReducesTo [0, 1] S_
  bcast_S_S16x16 : S_.BroadcastsInDim S16x16 (![] : Fin 0 → Fin S16x16.rank)
  reducesTo_S16x16_S_d0_1 : S16x16.ReducesTo [0, 1] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg4 : IVec S2048 32) (main_arg5 : IVec S2048 32) (main_arg6 : IVec S2048 32) (main_v67 : IVec S_ 1) : IVec S_ 1 :=
  let main_c_26 : IVec S_ 32 := constantI S_ 32 0#32
  let main_v68 : IVec S2048 32 := broadcastInDim S2048 ![] bcast_S_S2048 main_c_26
  let main_v69 : IVec S2048 1 := cmpi .sge main_arg4 main_v68
  let main_c_27 : IVec S_ 1 := constantI S_ 1 1#1
  let main_v70 : IVec S_ 1 := (fun x v => Host.reduce IntOp.andi x v reducesTo_S2048_S_d0 h_S_) main_v69 main_c_27
  let main_v71 : IVec S_ 1 := andi main_v67 main_v70
  let main_c_28 : IVec S_ 32 := constantI S_ 32 0#32
  let main_v72 : IVec S2048 32 := broadcastInDim S2048 ![] bcast_S_S2048 main_c_28
  let main_v73 : IVec S2048 1 := cmpi .sge main_arg5 main_v72
  let main_c_29 : IVec S_ 1 := constantI S_ 1 1#1
  let main_v74 : IVec S_ 1 := (fun x v => Host.reduce IntOp.andi x v reducesTo_S2048_S_d0 h_S_) main_v73 main_c_29
  let main_v75 : IVec S_ 1 := andi main_v71 main_v74
  let main_c_30 : IVec S_ 32 := constantI S_ 32 0#32
  let main_v76 : IVec S2048 32 := broadcastInDim S2048 ![] bcast_S_S2048 main_c_30
  let main_v77 : IVec S2048 1 := cmpi .sge main_arg6 main_v76
  let main_c_31 : IVec S_ 1 := constantI S_ 1 1#1
  let main_v78 : IVec S_ 1 := (fun x v => Host.reduce IntOp.andi x v reducesTo_S2048_S_d0 h_S_) main_v77 main_c_31
  let main_v79 : IVec S_ 1 := andi main_v75 main_v78
  main_v79

def fn_part3 {F : FTy → Type} [FloatOps F] (main_arg3 : IVec S2048 32) (main_arg4 : IVec S2048 32) (main_arg5 : IVec S2048 32) (main_arg6 : IVec S2048 32) (main_arg17 : FVec F S64x1 .f32) (main_arg18 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg17
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg18
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 0#32
  let main_v64 : IVec S2048 32 := broadcastInDim S2048 ![] bcast_S_S2048 main_c_24
  let main_v65 : IVec S2048 1 := cmpi .sge main_arg3 main_v64
  let main_c_25 : IVec S_ 1 := constantI S_ 1 1#1
  let main_v66 : IVec S_ 1 := (fun x v => Host.reduce IntOp.andi x v reducesTo_S2048_S_d0 h_S_) main_v65 main_c_25
  let main_v67 : IVec S_ 1 := andi main_v63 main_v66
  fn_part4 (F := F) main_arg4 main_arg5 main_arg6 main_v67

def fn_part2 {F : FTy → Type} [FloatOps F] (main_arg3 : IVec S2048 32) (main_arg4 : IVec S2048 32) (main_arg5 : IVec S2048 32) (main_arg6 : IVec S2048 32) (main_arg13 : FVec F S64x64 .f32) (main_arg14 : FVec F S64 .f32) (main_arg15 : FVec F S128x64 .f32) (main_arg16 : FVec F S64 .f32) (main_arg17 : FVec F S64x1 .f32) (main_arg18 : FVec F S1 .f32) (main_v33 : IVec S_ 1) : IVec S_ 1 :=
  let main_v34 : FVec F S64x64 .f32 := Host.absf main_arg13
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg14
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg15
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg16
  let main_cst_18 : FVec F S_ .f32 := constant S_ .f32 0x7F800000#32
  let main_v50 : FVec F S64 .f32 := broadcastInDim S64 ![] bcast_S_S64 main_cst_18
  fn_part3 (F := F) main_arg3 main_arg4 main_arg5 main_arg6 main_arg17 main_arg18 main_v48 main_v49 main_v50

def fn_part1 {F : FTy → Type} [FloatOps F] (main_arg3 : IVec S2048 32) (main_arg4 : IVec S2048 32) (main_arg5 : IVec S2048 32) (main_arg6 : IVec S2048 32) (main_arg10 : FVec F S16x16 .f32) (main_arg11 : FVec F S6x64 .f32) (main_arg12 : FVec F S64 .f32) (main_arg13 : FVec F S64x64 .f32) (main_arg14 : FVec F S64 .f32) (main_arg15 : FVec F S128x64 .f32) (main_arg16 : FVec F S64 .f32) (main_arg17 : FVec F S64x1 .f32) (main_arg18 : FVec F S1 .f32) (main_v13 : IVec S_ 1) (main_v16 : IVec S4x16 1) : IVec S_ 1 :=
  let main_c_5 : IVec S_ 1 := constantI S_ 1 1#1
  let main_v17 : IVec S_ 1 := (fun x v => Host.reduce IntOp.andi x v reducesTo_S4x16_S_d0_1 h_S_) main_v16 main_c_5
  let main_v18 : IVec S_ 1 := andi main_v13 main_v17
  let main_v19 : FVec F S16x16 .f32 := Host.absf main_arg10
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S6x64 .f32 := Host.absf main_arg11
  let main_cst_8 : FVec F S_ .f32 := constant S_ .f32 0x7F800000#32
  let main_v25 : FVec F S6x64 .f32 := broadcastInDim S6x64 ![] bcast_S_S6x64 main_cst_8
  let main_v26 : IVec S6x64 1 := cmpf .olt main_v24 main_v25
  let main_c_9 : IVec S_ 1 := constantI S_ 1 1#1
  let main_v27 : IVec S_ 1 := (fun x v => Host.reduce IntOp.andi x v reducesTo_S6x64_S_d0_1 h_S_) main_v26 main_c_9
  let main_v28 : IVec S_ 1 := andi main_v23 main_v27
  let main_v29 : FVec F S64 .f32 := Host.absf main_arg12
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg4 main_arg5 main_arg6 main_arg13 main_arg14 main_arg15 main_arg16 main_arg17 main_arg18 main_v33

def fn {F : FTy → Type} [FloatOps F] (main_arg0 : FVec F S100000x6 .f32) (main_arg1 : IVec S2x1600000 32) (main_arg2 : IVec S100000 32) (main_arg3 : IVec S2048 32) (main_arg4 : IVec S2048 32) (main_arg5 : IVec S2048 32) (main_arg6 : IVec S2048 32) (main_arg7 : FVec F S12x16 .f32) (main_arg8 : FVec F S23x16 .f32) (main_arg9 : FVec F S4x16 .f32) (main_arg10 : FVec F S16x16 .f32) (main_arg11 : FVec F S6x64 .f32) (main_arg12 : FVec F S64 .f32) (main_arg13 : FVec F S64x64 .f32) (main_arg14 : FVec F S64 .f32) (main_arg15 : FVec F S128x64 .f32) (main_arg16 : FVec F S64 .f32) (main_arg17 : FVec F S64x1 .f32) (main_arg18 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S12x16 .f32 := Host.absf main_arg7
  let main_cst_0 : FVec F S_ .f32 := constant S_ .f32 0x7F800000#32
  let main_v5 : FVec F S12x16 .f32 := broadcastInDim S12x16 ![] bcast_S_S12x16 main_cst_0
  let main_v6 : IVec S12x16 1 := cmpf .olt main_v4 main_v5
  let main_c_1 : IVec S_ 1 := constantI S_ 1 1#1
  let main_v7 : IVec S_ 1 := (fun x v => Host.reduce IntOp.andi x v reducesTo_S12x16_S_d0_1 h_S_) main_v6 main_c_1
  let main_v8 : IVec S_ 1 := andi main_v3 main_v7
  let main_v9 : FVec F S23x16 .f32 := Host.absf main_arg8
  let main_cst_2 : FVec F S_ .f32 := constant S_ .f32 0x7F800000#32
  let main_v10 : FVec F S23x16 .f32 := broadcastInDim S23x16 ![] bcast_S_S23x16 main_cst_2
  let main_v11 : IVec S23x16 1 := cmpf .olt main_v9 main_v10
  let main_c_3 : IVec S_ 1 := constantI S_ 1 1#1
  let main_v12 : IVec S_ 1 := (fun x v => Host.reduce IntOp.andi x v reducesTo_S23x16_S_d0_1 h_S_) main_v11 main_c_3
  let main_v13 : IVec S_ 1 := andi main_v8 main_v12
  let main_v14 : FVec F S4x16 .f32 := Host.absf main_arg9
  let main_cst_4 : FVec F S_ .f32 := constant S_ .f32 0x7F800000#32
  let main_v15 : FVec F S4x16 .f32 := broadcastInDim S4x16 ![] bcast_S_S4x16 main_cst_4
  let main_v16 : IVec S4x16 1 := cmpf .olt main_v14 main_v15
  fn_part1 (F := F) main_arg3 main_arg4 main_arg5 main_arg6 main_arg10 main_arg11 main_arg12 main_arg13 main_arg14 main_arg15 main_arg16 main_arg17 main_arg18 main_v13 main_v16
-- ==== Kernel.lean ====
abbrev S100000x6 : Shape := ⟨2, ![100000, 6]⟩
abbrev S2x1600000 : Shape := ⟨2, ![2, 1600000]⟩
abbrev S100000 : Shape := ⟨1, ![100000]⟩
abbrev S2048 : Shape := ⟨1, ![2048]⟩
abbrev S12x16 : Shape := ⟨2, ![12, 16]⟩
abbrev S23x16 : Shape := ⟨2, ![23, 16]⟩
abbrev S4x16 : Shape := ⟨2, ![4, 16]⟩
abbrev S16x16 : Shape := ⟨2, ![16, 16]⟩
abbrev S6x64 : Shape := ⟨2, ![6, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x6 : Shape := ⟨2, ![10000, 6]⟩
abbrev S10000x64 : Shape := ⟨2, ![10000, 64]⟩
abbrev S1700000x64 : Shape := ⟨2, ![1700000, 64]⟩
abbrev S1x64 : Shape := ⟨2, ![1, 64]⟩
abbrev S5000x64 : Shape := ⟨2, ![5000, 64]⟩
abbrev S2048x64 : Shape := ⟨2, ![2048, 64]⟩
abbrev S100000x1 : Shape := ⟨2, ![100000, 1]⟩
abbrev S2048x1 : Shape := ⟨2, ![2048, 1]⟩
abbrev S1x12 : Shape := ⟨2, ![1, 12]⟩
abbrev S2048x12 : Shape := ⟨2, ![2048, 12]⟩
abbrev S1x23 : Shape := ⟨2, ![1, 23]⟩
abbrev S2048x23 : Shape := ⟨2, ![2048, 23]⟩
abbrev S1x4 : Shape := ⟨2, ![1, 4]⟩
abbrev S2048x4 : Shape := ⟨2, ![2048, 4]⟩
abbrev S1x16 : Shape := ⟨2, ![1, 16]⟩
abbrev S2048x16 : Shape := ⟨2, ![2048, 16]⟩
abbrev S1x1 : Shape := ⟨2, ![1, 1]⟩
abbrev S2048x128 : Shape := ⟨2, ![2048, 128]⟩

abbrev nBuf : Space → Nat
  | .hbm => 166
  | .vmem => 30
  | .smem => 0
  | _ => 0

abbrev hbmTy0_0 (i : Nat) : BufTy := match i % 128 with
  | 0 => ⟨S100000x6, .f32⟩
  | 1 => ⟨S2x1600000, .i32⟩
  | 2 => ⟨S100000, .i32⟩
  | 3 => ⟨S2048, .i32⟩
  | 4 => ⟨S2048, .i32⟩
  | 5 => ⟨S2048, .i32⟩
  | 6 => ⟨S2048, .i32⟩
  | 7 => ⟨S12x16, .f32⟩
  | 8 => ⟨S23x16, .f32⟩
  | 9 => ⟨S4x16, .f32⟩
  | 10 => ⟨S16x16, .f32⟩
  | 11 => ⟨S6x64, .f32⟩
  | 12 => ⟨S64, .f32⟩
  | 13 => ⟨S64x64, .f32⟩
  | 14 => ⟨S64, .f32⟩
  | 15 => ⟨S128x64, .f32⟩
  | 16 => ⟨S64, .f32⟩
  | 17 => ⟨S64x1, .f32⟩
  | 18 => ⟨S1, .f32⟩
  | 19 => ⟨S1x1600000, .i32⟩
  | 20 => ⟨S1600000, .i32⟩
  | 21 => ⟨S1x1600000, .i32⟩
  | 22 => ⟨S1600000, .i32⟩
  | 23 => ⟨S100000, .i32⟩
  | 24 => ⟨S1700000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S100000x64, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x64, .f32⟩
  | 84 => ⟨S1700000x64, .f32⟩
  | 85 => ⟨S_, .f32⟩
  | 86 => ⟨S100000x64, .f32⟩
  | 87 => ⟨S1700000x1, .i32⟩
  | 88 => ⟨S100000x64, .f32⟩
  | 89 => ⟨S1x64, .f32⟩
  | 90 => ⟨S100000x64, .f32⟩
  | 91 => ⟨S_, .f32⟩
  | 92 => ⟨S2048x64, .f32⟩
  | 93 => ⟨S100000x1, .i32⟩
  | 94 => ⟨S2048x64, .f32⟩
  | 95 => ⟨S_, .f32⟩
  | 96 => ⟨S100000, .f32⟩
  | 97 => ⟨S_, .f32⟩
  | 98 => ⟨S2048, .f32⟩
  | 99 => ⟨S100000x1, .i32⟩
  | 100 => ⟨S2048, .f32⟩
  | 101 => ⟨S_, .f32⟩
  | 102 => ⟨S2048, .f32⟩
  | 103 => ⟨S2048, .f32⟩
  | 104 => ⟨S2048x1, .f32⟩
  | 105 => ⟨S2048x64, .f32⟩
  | 106 => ⟨S2048x64, .f32⟩
  | 107 => ⟨S_, .i32⟩
  | 108 => ⟨S_, .i32⟩
  | 109 => ⟨S_, .i32⟩
  | 110 => ⟨S2048, .i32⟩
  | 111 => ⟨S2048, .i32⟩
  | 112 => ⟨S_, .i32⟩
  | 113 => ⟨S2048, .i32⟩
  | 114 => ⟨S2048, .i32⟩
  | 115 => ⟨S_, .i32⟩
  | 116 => ⟨S_, .i32⟩
  | 117 => ⟨S_, .i32⟩
  | 118 => ⟨S2048, .i32⟩
  | 119 => ⟨S2048, .i32⟩
  | 120 => ⟨S_, .i32⟩
  | 121 => ⟨S2048, .i32⟩
  | 122 => ⟨S2048, .i32⟩
  | 123 => ⟨S_, .i32⟩
  | 124 => ⟨S_, .i32⟩
  | 125 => ⟨S_, .i32⟩
  | 126 => ⟨S2048, .i32⟩
  | 127 => ⟨S2048, .i32⟩
  | _ => ⟨S100000x6, .f32⟩

abbrev hbmTy0_1 (i : Nat) : BufTy := match i % 128 with
  | 0 => ⟨S_, .i32⟩
  | 1 => ⟨S2048, .i32⟩
  | 2 => ⟨S2048, .i32⟩
  | 3 => ⟨S_, .i32⟩
  | 4 => ⟨S_, .i32⟩
  | 5 => ⟨S_, .i32⟩
  | 6 => ⟨S2048, .i32⟩
  | 7 => ⟨S2048, .i32⟩
  | 8 => ⟨S_, .i32⟩
  | 9 => ⟨S2048, .i32⟩
  | 10 => ⟨S2048, .i32⟩
  | 11 => ⟨S2048x1, .i32⟩
  | 12 => ⟨S1x12, .i32⟩
  | 13 => ⟨S2048x12, .i32⟩
  | 14 => ⟨S2048x12, .i32⟩
  | 15 => ⟨S2048x12, .i1⟩
  | 16 => ⟨S2048x12, .f32⟩
  | 17 => ⟨S2048x1, .i32⟩
  | 18 => ⟨S1x23, .i32⟩
  | 19 => ⟨S2048x23, .i32⟩
  | 20 => ⟨S2048x23, .i32⟩
  | 21 => ⟨S2048x23, .i1⟩
  | 22 => ⟨S2048x23, .f32⟩
  | 23 => ⟨S2048x1, .i32⟩
  | 24 => ⟨S1x4, .i32⟩
  | 25 => ⟨S2048x4, .i32⟩
  | 26 => ⟨S2048x4, .i32⟩
  | 27 => ⟨S2048x4, .i1⟩
  | 28 => ⟨S2048x4, .f32⟩
  | 29 => ⟨S2048x1, .i32⟩
  | 30 => ⟨S1x16, .i32⟩
  | 31 => ⟨S2048x16, .i32⟩
  | 32 => ⟨S2048x16, .i32⟩
  | 33 => ⟨S2048x16, .i1⟩
  | 34 => ⟨S2048x16, .f32⟩
  | 35 => ⟨S1x64, .f32⟩
  | 36 => ⟨S1x1, .f32⟩
  | 37 => ⟨S2048x1, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | .local _ .vmem, ⟨0, _⟩ => ⟨S10000x6, .f32⟩
  | .local _ .vmem, ⟨1, _⟩ => ⟨S10000x6, .f32⟩
  | .local _ .vmem, ⟨2, _⟩ => ⟨S6x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S2048x64, .f32⟩
  | .local _ .vmem, ⟨17, _⟩ => ⟨S2048x12, .f32⟩
  | .local _ .vmem, ⟨18, _⟩ => ⟨S2048x23, .f32⟩
  | .local _ .vmem, ⟨19, _⟩ => ⟨S2048x4, .f32⟩
  | .local _ .vmem, ⟨20, _⟩ => ⟨S2048x16, .f32⟩
  | .local _ .vmem, ⟨21, _⟩ => ⟨S12x16, .f32⟩
  | .local _ .vmem, ⟨22, _⟩ => ⟨S23x16, .f32⟩
  | .local _ .vmem, ⟨23, _⟩ => ⟨S4x16, .f32⟩
  | .local _ .vmem, ⟨24, _⟩ => ⟨S16x16, .f32⟩
  | .local _ .vmem, ⟨25, _⟩ => ⟨S128x64, .f32⟩
  | .local _ .vmem, ⟨26, _⟩ => ⟨S1x64, .f32⟩
  | .local _ .vmem, ⟨27, _⟩ => ⟨S64x1, .f32⟩
  | .local _ .vmem, ⟨28, _⟩ => ⟨S1x1, .f32⟩
  | .local _ .vmem, ⟨29, _⟩ => ⟨S2048x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_8 : Ref sig .tc := ⟨.hbm, 74, rfl⟩
abbrev main_v45 : Ref sig .tc := ⟨.hbm, 75, rfl⟩
abbrev main_v46 : Ref sig .tc := ⟨.hbm, 76, rfl⟩
abbrev main_c_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_15 : Ref sig .tc := ⟨.hbm, 107, rfl⟩
abbrev main_c_16 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_v71 : Ref sig .tc := ⟨.hbm, 114, rfl⟩
abbrev main_c_17 : Ref sig .tc := ⟨.hbm, 115, rfl⟩
abbrev main_c_18 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_v72 : Ref sig .tc := ⟨.hbm, 122, rfl⟩
abbrev main_c_19 : Ref sig .tc := ⟨.hbm, 123, rfl⟩
abbrev main_c_20 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_v73 : Ref sig .tc := ⟨.hbm, 130, rfl⟩
abbrev main_c_21 : Ref sig .tc := ⟨.hbm, 131, rfl⟩
abbrev main_c_22 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_v74 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_v75 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_v76 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_call6_v3 : Ref sig .tc := ⟨.hbm, 154, rfl⟩
abbrev main_call6_v4 : Ref sig .tc := ⟨.hbm, 155, rfl⟩
abbrev main_v77 : Ref sig .tc := ⟨.hbm, 156, rfl⟩
abbrev main_call7_v0 : Ref sig .tc := ⟨.hbm, 157, rfl⟩
abbrev main_call7_v1 : Ref sig .tc := ⟨.hbm, 158, rfl⟩
abbrev main_call7_v2 : Ref sig .tc := ⟨.hbm, 159, rfl⟩
abbrev main_call7_v3 : Ref sig .tc := ⟨.hbm, 160, rfl⟩
abbrev main_call7_v4 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg7_0 : Ref sig .tc := ⟨.vmem, 23, rfl⟩
abbrev cc3_stg8_0 : Ref sig .tc := ⟨.vmem, 24, rfl⟩
abbrev cc3_stg9_0 : Ref sig .tc := ⟨.vmem, 25, rfl⟩
abbrev cc3_stg10_0 : Ref sig .tc := ⟨.vmem, 26, rfl⟩
abbrev cc3_stg11_0 : Ref sig .tc := ⟨.vmem, 27, rfl⟩
abbrev cc3_stg12_0 : Ref sig .tc := ⟨.vmem, 28, rfl⟩
abbrev cc3_stg13_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem6_0 : DmaSem sig := 22
abbrev cc3_sem7_0 : DmaSem sig := 23
abbrev cc3_sem8_0 : DmaSem sig := 24
abbrev cc3_sem9_0 : DmaSem sig := 25
abbrev cc3_sem10_0 : DmaSem sig := 26
abbrev cc3_sem11_0 : DmaSem sig := 27
abbrev cc3_sem12_0 : DmaSem sig := 28
abbrev cc3_sem13_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S2048x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S2048x12 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S2048x23 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S2048x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S2048x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S12x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S23x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S4x16 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S16x16 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x1 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S2048x1 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S10000x64_S10000x64 : S10000x64.ShapeCasts S10000x64
  broadcasts_S1x64_S10000x64 : S1x64.Broadcasts S10000x64
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S2048x1_S2048x12_0_1 : S2048x1.BroadcastsInDim S2048x12 (![0, 1] : Fin 2 → Fin S2048x12.rank)
  bcast_S1x12_S2048x12_0_1 : S1x12.BroadcastsInDim S2048x12 (![0, 1] : Fin 2 → Fin S2048x12.rank)
  bcast_S2048x1_S2048x23_0_1 : S2048x1.BroadcastsInDim S2048x23 (![0, 1] : Fin 2 → Fin S2048x23.rank)
  bcast_S1x23_S2048x23_0_1 : S1x23.BroadcastsInDim S2048x23 (![0, 1] : Fin 2 → Fin S2048x23.rank)
  bcast_S2048x1_S2048x4_0_1 : S2048x1.BroadcastsInDim S2048x4 (![0, 1] : Fin 2 → Fin S2048x4.rank)
  bcast_S1x4_S2048x4_0_1 : S1x4.BroadcastsInDim S2048x4 (![0, 1] : Fin 2 → Fin S2048x4.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  shapeCasts_S1_S1x1 : S1.ShapeCasts S1x1
  inb_S2048x12_S2048x12_0_0 : ∀ a, (![0, 0] : Fin 2 → Nat) a + S2048x12.size a ≤ S2048x12.size a
  h_S2048x12 : 0 < S2048x12.numel
  shapeCasts_S2048x12_S2048x12 : S2048x12.ShapeCasts S2048x12
  inb_S12x16_S12x16_0_0 : ∀ a, (![0, 0] : Fin 2 → Nat) a + S12x16.size a ≤ S12x16.size a
  h_S12x16 : 0 < S12x16.numel
  inb_S2048x23_S2048x23_0_0 : ∀ a, (![0, 0] : Fin 2 → Nat) a + S2048x23.size a ≤ S2048x23.size a
  h_S2048x23 : 0 < S2048x23.numel
  shapeCasts_S2048x23_S2048x23 : S2048x23.ShapeCasts S2048x23
  inb_S23x16_S23x16_0_0 : ∀ a, (![0, 0] : Fin 2 → Nat) a + S23x16.size a ≤ S23x16.size a
  h_S23x16 : 0 < S23x16.numel
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S4x16_S4x16_0_0 : ∀ a, (![0, 0] : Fin 2 → Nat) a + S4x16.size a ≤ S4x16.size a
  h_S4x16 : 0 < S4x16.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x16_S16x16_0_0 : ∀ a, (![0, 0] : Fin 2 → Nat) a + S16x16.size a ≤ S16x16.size a
  h_S16x16 : 0 < S16x16.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  concatenates_S2048x64_S2048x16_S2048x16_S2048x16_S2048x16_S2048x128_d1 : Shape.Concatenates [S2048x64, S2048x16, S2048x16, S2048x16, S2048x16] S2048x128 1
  inb_S128x64_S128x64_0_0 : ∀ a, (![0, 0] : Fin 2 → Nat) a + S128x64.size a ≤ S128x64.size a
  h_S128x64 : 0 < S128x64.numel
  broadcasts_S1x64_S2048x64 : S1x64.Broadcasts S2048x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x6_S6x64_S10000x64_1_0_0_1_n_n_wf : DotDims.WF S10000x6 S6x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x12_S12x16_S2048x16_1_0_0_1_n_n_wf : DotDims.WF S2048x12 S12x16 S2048x16 [1] [0] [0] [1] [] []
  dot_S2048x23_S23x16_S2048x16_1_0_0_1_n_n_wf : DotDims.WF S2048x23 S23x16 S2048x16 [1] [0] [0] [1] [] []
  dot_S2048x4_S4x16_S2048x16_1_0_0_1_n_n_wf : DotDims.WF S2048x4 S4x16 S2048x16 [1] [0] [0] [1] [] []
  dot_S2048x16_S16x16_S2048x16_1_0_0_1_n_n_wf : DotDims.WF S2048x16 S16x16 S2048x16 [1] [0] [0] [1] [] []
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S2048x64.size a
  hwx3_0 : ∀ i : grid3.Coords, EltTy.bits .f32 = 32 ∨ (Rect.block (s := S2048x64) S2048x64.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S2048x12.size a ≤ S2048x12.size a
  hwx3_1 : ∀ i : grid3.Coords, EltTy.bits .f32 = 32 ∨ (Rect.block (s := S2048x12) S2048x12.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S2048x23.size a ≤ S2048x23.size a
  hwx3_2 : ∀ i : grid3.Coords, EltTy.bits .f32 = 32 ∨ (Rect.block (s := S2048x23) S2048x23.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S2048x4.size a ≤ S2048x4.size a
  hwx3_3 : ∀ i : grid3.Coords, EltTy.bits .f32 = 32 ∨ (Rect.block (s := S2048x4) S2048x4.size (cc3_transform_3 i) (hinb3_3 i)).WholeWords (EltTy.packing .f32)
  hstage3_4 : ∀ j, (stage3_4 j).IsWhole
  nbuf3_4 : grid3.bufCount reads3_4 false = 1
  hreads3_4 : ∀ i i' : grid3.Coords, (∀ a, reads3_4 a = true → i a = i' a) → cc3_transform_4 i = cc3_transform_4 i'
  hinb3_4 : ∀ (i : grid3.Coords) a, (cc3_transform_4 i a + 1) * S2048x16.size a ≤ S2048x16.size a
  hwx3_4 : ∀ i : grid3.Coords, EltTy.bits .f32 = 32 ∨ (Rect.block (s := S2048x16) S2048x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S12x16.size a ≤ S12x16.size a
  hwx3_5 : ∀ i : grid3.Coords, EltTy.bits .f32 = 32 ∨ (Rect.block (s := S12x16) S12x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S23x16.size a ≤ S23x16.size a
  hwx3_6 : ∀ i : grid3.Coords, EltTy.bits .f32 = 32 ∨ (Rect.block (s := S23x16) S23x16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S4x16.size a ≤ S4x16.size a
  hwx3_7 : ∀ i : grid3.Coords, EltTy.bits .f32 = 32 ∨ (Rect.block (s := S4x16) S4x16.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S16x16.size a ≤ S16x16.size a
  hwx3_8 : ∀ i : grid3.Coords, EltTy.bits .f32 = 32 ∨ (Rect.block (s := S16x16) S16x16.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x64.size a ≤ S128x64.size a
  hwx3_9 : ∀ i : grid3.Coords, EltTy.bits .f32 = 32 ∨ (Rect.block (s := S128x64) S128x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S64x1.size a ≤ S64x1.size a
  hwx3_11 : ∀ i : grid3.Coords, EltTy.bits .f32 = 32 ∨ (Rect.block (s := S64x1) S64x1.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x1.size a ≤ S1x1.size a
  hwx3_12 : ∀ i : grid3.Coords, EltTy.bits .f32 = 32 ∨ (Rect.block (s := S1x1) S1x1.size (cc3_transform_12 i) (hinb3_12 i)).WholeWords (EltTy.packing .f32)
  hstage3_13 : ∀ j, (stage3_13 j).IsWhole
  nbuf3_13 : grid3.bufCount reads3_13 false = 1
  hreads3_13 : ∀ i i' : grid3.Coords, (∀ a, reads3_13 a = true → i a = i' a) → cc3_transform_13 i = cc3_transform_13 i'
  hinb3_13 : ∀ (i : grid3.Coords) a, (cc3_transform_13 i a + 1) * S2048x1.size a ≤ S2048x1.size a
  hwx3_13 : ∀ i : grid3.Coords, EltTy.bits .f32 = 32 ∨ (Rect.block (s := S2048x1) S2048x1.size (cc3_transform_13 i) (hinb3_13 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x6_S6x64_S10000x64_1_0_0_1_n_n : DotDims S10000x6 S6x64 S10000x64 where
  lhsContracting := [1]
  rhsContracting := [0]
  lhsNonContracting := [0]
  rhsNonContracting := [1]
  lhsBatch := []
  rhsBatch := []
  wf := dot_S10000x6_S6x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x12_S12x16_S2048x16_1_0_0_1_n_n : DotDims S2048x12 S12x16 S2048x16 where
  lhsContracting := [1]
  rhsContracting := [0]
  lhsNonContracting := [0]
  rhsNonContracting := [1]
  lhsBatch := []
  rhsBatch := []
  wf := dot_S2048x12_S12x16_S2048x16_1_0_0_1_n_n_wf
def dot_S2048x23_S23x16_S2048x16_1_0_0_1_n_n : DotDims S2048x23 S23x16 S2048x16 where
  lhsContracting := [1]
  rhsContracting := [0]
  lhsNonContracting := [0]
  rhsNonContracting := [1]
  lhsBatch := []
  rhsBatch := []
  wf := dot_S2048x23_S23x16_S2048x16_1_0_0_1_n_n_wf
def dot_S2048x4_S4x16_S2048x16_1_0_0_1_n_n : DotDims S2048x4 S4x16 S2048x16 where
  lhsContracting := [1]
  rhsContracting := [0]
  lhsNonContracting := [0]
  rhsNonContracting := [1]
  lhsBatch := []
  rhsBatch := []
  wf := dot_S2048x4_S4x16_S2048x16_1_0_0_1_n_n_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S2048x64.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v75) S2048x12.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S2048x23.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S2048x4.size cc3_transform_3 reads3_3 false false 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S2048x16.size cc3_transform_4 reads3_4 false false 1 stage3_4 sem3_4
    hrank3 hreads3_4 hinb3_4 nbuf3_4 (Memref.isWhole_whole _) hwx3_4 hstage3_4

abbrev win3_5 : Pipeline.Window sig grid3 :=
  Pipeline.Window.ofSpec (Memref.whole main_arg7) S12x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg8) S23x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg9) S4x16.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg10) S16x16.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg15) S128x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v79) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg17) S64x1.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v80) S1x1.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v81) S2048x1.size cc3_transform_13 reads3_13 true false 1 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S100000 : Shape := ⟨1, ![100000]⟩
abbrev S2048 : Shape := ⟨1, ![2048]⟩
abbrev S12x16 : Shape := ⟨2, ![12, 16]⟩
abbrev S23x16 : Shape := ⟨2, ![23, 16]⟩
abbrev S4x16 : Shape := ⟨2, ![4, 16]⟩
abbrev S16x16 : Shape := ⟨2, ![16, 16]⟩
abbrev S6x64 : Shape := ⟨2, ![6, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S2048x64 : Shape := ⟨2, ![2048, 64]⟩
abbrev S100000x1 : Shape := ⟨2, ![100000, 1]⟩
abbrev S2048x1 : Shape := ⟨2, ![2048, 1]⟩
abbrev S2048x16 : Shape := ⟨2, ![2048, 16]⟩
abbrev S2048x128 : Shape := ⟨2, ![2048, 128]⟩
abbrev S1x1 : Shape := ⟨2, ![1, 1]⟩

abbrev nBuf : Space → Nat
  | .hbm => 197
  | .vmem => 0
  | .smem => 0
  | _ => 0

abbrev hbmTy0_0 (i : Nat) : BufTy := match i % 128 with
  | 0 => ⟨S100000x6, .f32⟩
  | 1 => ⟨S2x1600000, .i32⟩
  | 2 => ⟨S100000, .i32⟩
  | 3 => ⟨S2048, .i32⟩
  | 4 => ⟨S2048, .i32⟩
  | 5 => ⟨S2048, .i32⟩
  | 6 => ⟨S2048, .i32⟩
  | 7 => ⟨S12x16, .f32⟩
  | 8 => ⟨S23x16, .f32⟩
  | 9 => ⟨S4x16, .f32⟩
  | 10 => ⟨S16x16, .f32⟩
  | 11 => ⟨S6x64, .f32⟩
  | 12 => ⟨S64, .f32⟩
  | 13 => ⟨S64x64, .f32⟩
  | 14 => ⟨S64, .f32⟩
  | 15 => ⟨S128x64, .f32⟩
  | 16 => ⟨S64, .f32⟩
  | 17 => ⟨S64x1, .f32⟩
  | 18 => ⟨S1, .f32⟩
  | 19 => ⟨S1x1600000, .i32⟩
  | 20 => ⟨S1600000, .i32⟩
  | 21 => ⟨S1x1600000, .i32⟩
  | 22 => ⟨S1600000, .i32⟩
  | 23 => ⟨S100000x64, .f32⟩
  | 24 => ⟨S100000, .i32⟩
  | 25 => ⟨S1700000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S1700000x1, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S100000, .i32⟩
  | 80 => ⟨S1700000, .i32⟩
  | 81 => ⟨S1700000, .i32⟩
  | 82 => ⟨S_, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x6, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S_, .f32⟩
  | 6 => ⟨S2048x64, .f32⟩
  | 7 => ⟨S100000x1, .i32⟩
  | 8 => ⟨S2048x64, .f32⟩
  | 9 => ⟨S_, .f32⟩
  | 10 => ⟨S100000, .f32⟩
  | 11 => ⟨S_, .f32⟩
  | 12 => ⟨S2048, .f32⟩
  | 13 => ⟨S100000x1, .i32⟩
  | 14 => ⟨S2048, .f32⟩
  | 15 => ⟨S_, .f32⟩
  | 16 => ⟨S2048, .f32⟩
  | 17 => ⟨S2048, .f32⟩
  | 18 => ⟨S2048x1, .f32⟩
  | 19 => ⟨S2048x64, .f32⟩
  | 20 => ⟨S2048x64, .f32⟩
  | 21 => ⟨S_, .i32⟩
  | 22 => ⟨S2048, .i32⟩
  | 23 => ⟨S2048, .i1⟩
  | 24 => ⟨S_, .i32⟩
  | 25 => ⟨S2048, .i32⟩
  | 26 => ⟨S2048, .i32⟩
  | 27 => ⟨S2048, .i32⟩
  | 28 => ⟨S2048x1, .i32⟩
  | 29 => ⟨S2048x16, .f32⟩
  | 30 => ⟨S_, .i32⟩
  | 31 => ⟨S2048, .i32⟩
  | 32 => ⟨S2048, .i1⟩
  | 33 => ⟨S_, .i32⟩
  | 34 => ⟨S2048, .i32⟩
  | 35 => ⟨S2048, .i32⟩
  | 36 => ⟨S2048, .i32⟩
  | 37 => ⟨S2048x1, .i32⟩
  | 38 => ⟨S2048x16, .f32⟩
  | 39 => ⟨S_, .i32⟩
  | 40 => ⟨S2048, .i32⟩
  | 41 => ⟨S2048, .i1⟩
  | 42 => ⟨S_, .i32⟩
  | 43 => ⟨S2048, .i32⟩
  | 44 => ⟨S2048, .i32⟩
  | 45 => ⟨S2048, .i32⟩
  | 46 => ⟨S2048x1, .i32⟩
  | 47 => ⟨S2048x16, .f32⟩
  | 48 => ⟨S_, .i32⟩
  | 49 => ⟨S2048, .i32⟩
  | 50 => ⟨S2048, .i1⟩
  | 51 => ⟨S_, .i32⟩
  | 52 => ⟨S2048, .i32⟩
  | 53 => ⟨S2048, .i32⟩
  | 54 => ⟨S2048, .i32⟩
  | 55 => ⟨S2048x1, .i32⟩
  | 56 => ⟨S2048x16, .f32⟩
  | 57 => ⟨S2048x128, .f32⟩
  | 58 => ⟨S2048x64, .f32⟩
  | 59 => ⟨S1x64, .f32⟩
  | 60 => ⟨S2048x64, .f32⟩
  | 61 => ⟨S2048x64, .f32⟩
  | 62 => ⟨S_, .f32⟩
  | 63 => ⟨S2048x64, .f32⟩
  | 64 => ⟨S2048x64, .f32⟩
  | 65 => ⟨S2048x1, .f32⟩
  | 66 => ⟨S1x1, .f32⟩
  | 67 => ⟨S2048x1, .f32⟩
  | 68 => ⟨S2048x1, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_3 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call0_cst : Ref sig .tc := ⟨.hbm, 75, rfl⟩
abbrev main_call0_v0 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_c_12 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_13 : Ref sig .tc := ⟨.hbm, 101, rfl⟩
abbrev main_v65 : Ref sig .tc := ⟨.hbm, 102, rfl⟩
abbrev main_v66 : Ref sig .tc := ⟨.hbm, 103, rfl⟩
abbrev main_c_14 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_15 : Ref sig .tc := ⟨.hbm, 112, rfl⟩
abbrev main_v74 : Ref sig .tc := ⟨.hbm, 113, rfl⟩
abbrev main_v75 : Ref sig .tc := ⟨.hbm, 114, rfl⟩
abbrev main_c_16 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_call1_cst : Ref sig .tc := ⟨.hbm, 130, rfl⟩
abbrev main_call1_v0 : Ref sig .tc := ⟨.hbm, 131, rfl⟩
abbrev main_v89 : Ref sig .tc := ⟨.hbm, 132, rfl⟩
abbrev main_cst_18 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_19 : Ref sig .tc := ⟨.hbm, 137, rfl⟩
abbrev main_v93 : Ref sig .tc := ⟨.hbm, 138, rfl⟩
abbrev main_cst_20 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_21 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_22 : Ref sig .tc := ⟨.hbm, 149, rfl⟩
abbrev main_v102 : Ref sig .tc := ⟨.hbm, 150, rfl⟩
abbrev main_v103 : Ref sig .tc := ⟨.hbm, 151, rfl⟩
abbrev main_c_23 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_c_24 : Ref sig .tc := ⟨.hbm, 158, rfl⟩
abbrev main_v109 : Ref sig .tc := ⟨.hbm, 159, rfl⟩
abbrev main_v110 : Ref sig .tc := ⟨.hbm, 160, rfl⟩
abbrev main_c_25 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_26 : Ref sig .tc := ⟨.hbm, 167, rfl⟩
abbrev main_v116 : Ref sig .tc := ⟨.hbm, 168, rfl⟩
abbrev main_v117 : Ref sig .tc := ⟨.hbm, 169, rfl⟩
abbrev main_c_27 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_c_28 : Ref sig .tc := ⟨.hbm, 176, rfl⟩
abbrev main_v123 : Ref sig .tc := ⟨.hbm, 177, rfl⟩
abbrev main_v124 : Ref sig .tc := ⟨.hbm, 178, rfl⟩
abbrev main_c_29 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_call2_cst : Ref sig .tc := ⟨.hbm, 190, rfl⟩
abbrev main_call2_v0 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  concatenates_S2048x64_S2048x16_S2048x16_S2048x16_S2048x16_S2048x128_d1 : Shape.Concatenates [S2048x64, S2048x16, S2048x16, S2048x16, S2048x16] S2048x128 1
  bcast_S1x64_S2048x64_0_1 : S1x64.BroadcastsInDim S2048x64 (![0, 1] : Fin 2 → Fin S2048x64.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S100000x6_S6x64_S100000x64_1_0_0_1_n_n_wf : DotDims.WF S100000x6 S6x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  gather_S12x16_S2048x1_S2048x16_1_0_n_n_0_1_116_wf : GatherDims.WF S12x16 S2048x1 S2048x16 [1] [0] [] [0] [] 1 ![1, 16]
  gather_S23x16_S2048x1_S2048x16_1_0_n_n_0_1_116_wf : GatherDims.WF S23x16 S2048x1 S2048x16 [1] [0] [] [0] [] 1 ![1, 16]
  gather_S4x16_S2048x1_S2048x16_1_0_n_n_0_1_116_wf : GatherDims.WF S4x16 S2048x1 S2048x16 [1] [0] [] [0] [] 1 ![1, 16]
  gather_S16x16_S2048x1_S2048x16_1_0_n_n_0_1_116_wf : GatherDims.WF S16x16 S2048x1 S2048x16 [1] [0] [] [0] [] 1 ![1, 16]
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []

variable [Facts₀]

def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def gather_S12x16_S2048x1_S2048x16_1_0_n_n_0_1_116 : GatherDims S12x16 S2048x1 S2048x16 where
  offsetDims := [1]
  collapsedSliceDims := [0]
  operandBatchingDims := []
  startIndicesBatchingDims := []
  startIndexMap := [0]
  indexVectorDim := 1
  sliceSizes := ![1, 16]
  wf := gather_S12x16_S2048x1_S2048x16_1_0_n_n_0_1_116_wf
def gather_S23x16_S2048x1_S2048x16_1_0_n_n_0_1_116 : GatherDims S23x16 S2048x1 S2048x16 where
  offsetDims := [1]
  collapsedSliceDims := [0]
  operandBatchingDims := []
  startIndicesBatchingDims := []
  startIndexMap := [0]
  indexVectorDim := 1
  sliceSizes := ![1, 16]
  wf := gather_S23x16_S2048x1_S2048x16_1_0_n_n_0_1_116_wf
def gather_S4x16_S2048x1_S2048x16_1_0_n_n_0_1_116 : GatherDims S4x16 S2048x1 S2048x16 where
  offsetDims := [1]
  collapsedSliceDims := [0]
  operandBatchingDims := []
  startIndicesBatchingDims := []
  startIndexMap := [0]
  indexVectorDim := 1
  sliceSizes := ![1, 16]
  wf := gather_S4x16_S2048x1_S2048x16_1_0_n_n_0_1_116_wf
def gather_S16x16_S2048x1_S2048x16_1_0_n_n_0_1_116 : GatherDims S16x16 S2048x1 S2048x16 where
  offsetDims := [1]
  collapsedSliceDims := [0]
  operandBatchingDims := []
  startIndicesBatchingDims := []
  startIndexMap := [0]
  indexVectorDim := 1
  sliceSizes := ![1, 16]
  wf := gather_S16x16_S2048x1_S2048x16_1_0_n_n_0_1_116_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.SpecHost.lean ====
/-
  The two stretches of host arithmetic both programs apply unchanged, each named once as a function of the array it
  transforms and of the integer input that steers it:

  * `msg xw ei`  — one round of message passing: the rows of `xw` gathered at the edges' sources (self-loops
    appended), each scaled by the symmetric degree norm of its edge, and summed at the edges' destinations;
  * `pool h batch` — the mean of the rows of `h` over each graph: the rows summed per graph, divided by
    max(the graph's node count, 1).

  Neither is ever opened: the certificate only needs that both programs apply the same function to equal arrays.
-/
import proofs.«401907_j73160472920253_2_alg».proof.Proof.Gen.ReferenceIdeal.Read

set_option maxRecDepth 16384

noncomputable section

namespace Cert.Bridge.Spec

open Idealize.ShloMosaic Cert.ReferenceIdeal Cert.ReferenceIdeal.Facts₀ Cert.ReferenceIdeal.Facts Cert.ReferenceIdeal.Read

/-- One round of message passing over the edge list `ei`. -/
def msg (xw : FVec Ideal S100000x64 .f32) (ei : IVec S2x1600000 32) : FVec Ideal S100000x64 .f32 :=
  Host.scatterAdd scatter_S100000x64_S1700000x1_S1700000x64_1_0_0_1 (val_main_v40 (F := Ideal)) (val_main_v41 (F := Ideal) ei)
    (mulf (Host.gather gather_S100000x64_S1700000x1_S1700000x64_1_0_n_n_0_1_164 xw (val_main_v36 (F := Ideal) ei)) (val_main_v38 (F := Ideal) ei))

/-- The per-graph mean of the node features under the assignment `batch`. -/
def pool (h : FVec Ideal S100000x64 .f32) (batch : IVec S100000 32) : FVec Ideal S2048x64 .f32 :=
  Host.divf (Host.scatterAdd scatter_S2048x64_S100000x1_S100000x64_1_0_0_1 (val_main_v90 (F := Ideal)) (val_main_v91 (F := Ideal) batch) h)
    (val_main_v100 (F := Ideal) batch)

end Cert.Bridge.Spec

end
-- ==== Proof.HeadDefs.lean ====
/-
  The pieces of the last kernel's inputs that the host computes from the four table-index arrays, and the four small
  products the kernel forms from them, each named once.

  * `clipIdx hi idx`: every index clipped into `[0, hi]` (first the maximum with 0, then the minimum with `hi`).
  * `oneHotN c`: the `[2048, N]` array holding 1 at column `c g` of row `g` and 0 elsewhere (an integer compare with
    a column iota, widened to a float).
  * `ohmmN oh emb`: the product of a `[2048, N]` array with an `[N, 16]` table into a zero accumulator; with `oh` a
    one-hot array this is the row of the table each graph selects.
-/
import proofs.«401907_j73160472920253_2_alg».proof.Proof.Gen.KernelIdeal
import Idealize.ShloMosaic.PureOps.Ideal

set_option maxRecDepth 16384

noncomputable section

namespace Cert.Bridge

open Idealize.ShloMosaic Cert.KernelIdeal Cert.KernelIdeal.Facts₀ Cert.KernelIdeal.Facts

/-- Each index clipped into `[0, hi]`. -/
def clipIdx (hi : BitVec 32) (idx : IVec S2048 32) : IVec S2048 32 :=
  minsi (broadcastInDim S2048 ![] bcast_S_S2048 (constantI S_ 32 hi)) (maxsi (broadcastInDim S2048 ![] bcast_S_S2048 (constantI S_ 32 0#32)) idx)

/-- The one-hot rows of 12 columns. -/
def oneHot12 (c : IVec S2048 32) : FVec Ideal S2048x12 .f32 :=
  uitofp .f32 (cmpi .eq (broadcastInDim S2048x12 ![0, 1] bcast_S2048x1_S2048x12_0_1 (broadcastInDim S2048x1 ![0] bcast_S2048_S2048x1_0 c))
    (broadcastInDim S2048x12 ![0, 1] bcast_S1x12_S2048x12_0_1 (iotaInDim S1x12 32 1)))
/-- The one-hot rows of 23 columns. -/
def oneHot23 (c : IVec S2048 32) : FVec Ideal S2048x23 .f32 :=
  uitofp .f32 (cmpi .eq (broadcastInDim S2048x23 ![0, 1] bcast_S2048x1_S2048x23_0_1 (broadcastInDim S2048x1 ![0] bcast_S2048_S2048x1_0 c))
    (broadcastInDim S2048x23 ![0, 1] bcast_S1x23_S2048x23_0_1 (iotaInDim S1x23 32 1)))
/-- The one-hot rows of 4 columns. -/
def oneHot4 (c : IVec S2048 32) : FVec Ideal S2048x4 .f32 :=
  uitofp .f32 (cmpi .eq (broadcastInDim S2048x4 ![0, 1] bcast_S2048x1_S2048x4_0_1 (broadcastInDim S2048x1 ![0] bcast_S2048_S2048x1_0 c))
    (broadcastInDim S2048x4 ![0, 1] bcast_S1x4_S2048x4_0_1 (iotaInDim S1x4 32 1)))
/-- The one-hot rows of 16 columns. -/
def oneHot16 (c : IVec S2048 32) : FVec Ideal S2048x16 .f32 :=
  uitofp .f32 (cmpi .eq (broadcastInDim S2048x16 ![0, 1] bcast_S2048x1_S2048x16_0_1 (broadcastInDim S2048x1 ![0] bcast_S2048_S2048x1_0 c))
    (broadcastInDim S2048x16 ![0, 1] bcast_S1x16_S2048x16_0_1 (iotaInDim S1x16 32 1)))

/-- A `[2048, 12]` array times a `[12, 16]` table, into zeros. -/
def ohmm12 (oh : FVec Ideal S2048x12 .f32) (emb : FVec Ideal S12x16 .f32) : FVec Ideal S2048x16 .f32 :=
  matmul dot_S2048x12_S12x16_S2048x16_1_0_0_1_n_n none (truncf .bf16 oh bitsLt_bf16_f32) (truncf .bf16 emb bitsLt_bf16_f32) (constant S2048x16 .f32 0x00000000#32)
/-- A `[2048, 23]` array times a `[23, 16]` table, into zeros. -/
def ohmm23 (oh : FVec Ideal S2048x23 .f32) (emb : FVec Ideal S23x16 .f32) : FVec Ideal S2048x16 .f32 :=
  matmul dot_S2048x23_S23x16_S2048x16_1_0_0_1_n_n none (truncf .bf16 oh bitsLt_bf16_f32) (truncf .bf16 emb bitsLt_bf16_f32) (constant S2048x16 .f32 0x00000000#32)
/-- A `[2048, 4]` array times a `[4, 16]` table, into zeros. -/
def ohmm4 (oh : FVec Ideal S2048x4 .f32) (emb : FVec Ideal S4x16 .f32) : FVec Ideal S2048x16 .f32 :=
  matmul dot_S2048x4_S4x16_S2048x16_1_0_0_1_n_n none (truncf .bf16 oh bitsLt_bf16_f32) (truncf .bf16 emb bitsLt_bf16_f32) (constant S2048x16 .f32 0x00000000#32)
/-- A `[2048, 16]` array times a `[16, 16]` table, into zeros. -/
def ohmm16 (oh : FVec Ideal S2048x16 .f32) (emb : FVec Ideal S16x16 .f32) : FVec Ideal S2048x16 .f32 :=
  matmul dot_S2048x16_S16x16_S2048x16_1_0_0_1_n_n none (truncf .bf16 oh bitsLt_bf16_f32) (truncf .bf16 emb bitsLt_bf16_f32) (constant S2048x16 .f32 0x00000000#32)

end Cert.Bridge

end
-- ==== Proof.KHost.lean ====
/-
  The host arithmetic between the kernels, read as values. At each boundary of the kernel program the buffers hold a fold
  of the host operations over the launch memory; here each array a kernel is entered with is read back through that fold:

  * the edge list's sources and destinations (self-loops appended) and the edges' symmetric degree norm, computed
    once before the first kernel and read again before the second and the third;
  * the message array entering the second and the third kernel: one round of message passing (`Spec.msg`) over the
    previous kernel's output;
  * the pooled features, the four one-hot arrays and the reshaped biases entering the last kernel;
  * every argument array a kernel reads, unchanged since the launch.
-/
import proofs.«401907_j73160472920253_2_alg».proof.Proof.Gen.KernelIdeal.Frame
import proofs.«401907_j73160472920253_2_alg».proof.Proof.Gen.ReferenceIdeal.Read
import proofs.«401907_j73160472920253_2_alg».proof.Proof.SpecHost
import proofs.«401907_j73160472920253_2_alg».proof.Proof.HeadDefs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Bridge.KHost

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Before the first kernel -/

set_option maxHeartbeats 8000000 in
/-- The edges' sources with the self-loops appended. -/
theorem W1_src (c : Dev nD) : W1 m ρ c (Proc.devRef .tc main_v5)
    = Cert.ReferenceIdeal.Read.val_main_v6 (F := Ideal) (m ((c : Thread nD τ).loc main_arg1)) := by
  show StableHlo.after hostOps0 (W0 m ρ c) (Proc.devRef .tc main_v5) = _
  simp only [hostOps0]
  after_results_simp
  rfl

set_option maxHeartbeats 8000000 in
/-- The edges' destinations with the self-loops appended. -/
theorem W1_dst (c : Dev nD) : W1 m ρ c (Proc.devRef .tc main_v6)
    = Cert.ReferenceIdeal.Read.val_main_v7 (F := Ideal) (m ((c : Thread nD τ).loc main_arg1)) := by
  show StableHlo.after hostOps0 (W0 m ρ c) (Proc.devRef .tc main_v6) = _
  simp only [hostOps0]
  after_results_simp
  rfl

set_option maxHeartbeats 16000000 in
/-- The edges' symmetric degree norm, as a column. -/
theorem W1_norm (c : Dev nD) : W1 m ρ c (Proc.devRef .tc main_v29)
    = Cert.ReferenceIdeal.Read.val_main_v30 (F := Ideal) (m ((c : Thread nD τ).loc main_arg1)) := by
  show StableHlo.after hostOps0 (W0 m ρ c) (Proc.devRef .tc main_v29) = _
  simp only [hostOps0]
  after_results_simp
  rfl

/-- No host operation before the first kernel writes an argument: it is as launched. -/
macro "arg_at_W1" : tactic =>
  `(tactic| (show StableHlo.after hostOps0 (W0 _ _ _) _ = _
             simp only [hostOps0]
             after_results_simp
             try rfl))

set_option maxHeartbeats 8000000 in
theorem W1_arg0 (c : Dev nD) : W1 m ρ c (Proc.devRef .tc main_arg0) = m ((c : Thread nD τ).loc main_arg0) := by arg_at_W1
set_option maxHeartbeats 8000000 in
theorem W1_arg11 (c : Dev nD) : W1 m ρ c (Proc.devRef .tc main_arg11) = m ((c : Thread nD τ).loc main_arg11) := by arg_at_W1
set_option maxHeartbeats 8000000 in
theorem W1_arg12 (c : Dev nD) : W1 m ρ c (Proc.devRef .tc main_arg12) = m ((c : Thread nD τ).loc main_arg12) := by arg_at_W1
set_option maxHeartbeats 8000000 in
theorem W1_arg13 (c : Dev nD) : W1 m ρ c (Proc.devRef .tc main_arg13) = m ((c : Thread nD τ).loc main_arg13) := by arg_at_W1
set_option maxHeartbeats 8000000 in
theorem W1_arg14 (c : Dev nD) : W1 m ρ c (Proc.devRef .tc main_arg14) = m ((c : Thread nD τ).loc main_arg14) := by arg_at_W1

/-! ## Between the first and the second kernel -/

/-- The first kernel writes only its own output array. -/
theorem W2_src (c : Dev nD) : W2 m ρ c (Proc.devRef .tc main_v5)
    = Cert.ReferenceIdeal.Read.val_main_v6 (F := Ideal) (m ((c : Thread nD τ).loc main_arg1)) :=
  (W2_of_ne m ρ c main_v5 (by decide)).trans (W1_src m ρ c)
theorem W2_dst (c : Dev nD) : W2 m ρ c (Proc.devRef .tc main_v6)
    = Cert.ReferenceIdeal.Read.val_main_v7 (F := Ideal) (m ((c : Thread nD τ).loc main_arg1)) :=
  (W2_of_ne m ρ c main_v6 (by decide)).trans (W1_dst m ρ c)
theorem W2_norm (c : Dev nD) : W2 m ρ c (Proc.devRef .tc main_v29)
    = Cert.ReferenceIdeal.Read.val_main_v30 (F := Ideal) (m ((c : Thread nD τ).loc main_arg1)) :=
  (W2_of_ne m ρ c main_v29 (by decide)).trans (W1_norm m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)

set_option maxHeartbeats 8000000 in
/-- The message array the second kernel is entered with: one round of message passing over the first kernel's
    output. -/
theorem W3_msg (c : Dev nD) : W3 m ρ c (Proc.devRef .tc main_v42)
    = Spec.msg (W2 m ρ c (Proc.devRef .tc main_v30)) (m ((c : Thread nD τ).loc main_arg1)) := by
  show StableHlo.after hostOps1 (W2 m ρ c) (Proc.devRef .tc main_v42) = _
  simp only [hostOps1]
  after_results_simp
  rw [W2_src, W2_dst, W2_norm]
  rfl

set_option maxHeartbeats 8000000 in
theorem W3_arg13 (c : Dev nD) : W3 m ρ c (Proc.devRef .tc main_arg13) = m ((c : Thread nD τ).loc main_arg13) := by
  show StableHlo.after hostOps1 (W2 m ρ c) (Proc.devRef .tc main_arg13) = _
  simp only [hostOps1]
  after_results_simp
  exact W2_arg13 m ρ c

/-- A vector of 64 entries as a one-row matrix: the kernel program reshapes it, the reference broadcasts it along
    axis 1; entry (0, j) of either is entry j of the vector. -/
theorem row64 (x : FVec Ideal S64 .f32) :
    shapeCast S1x64 x Facts₀.shapeCasts_S64_S1x64 = Cert.ReferenceIdeal.Read.val_main_v43 (F := Ideal) x := by
  funext j
  rw [Cert.ReferenceIdeal.Read.val_main_v43_apply]
  refine shapeCast_apply x _ j _ ?_
  rw [Shape.rowMajor_val_one, Shape.rowMajor_val_two]
  have h0 : (j 0).val < 1 := (j 0).isLt
  show (j 1).val = (j 0).val * 64 + (j 1).val
  omega

/-- The same for the one-entry vector as a 1×1 matrix. -/
theorem row1 (x : FVec Ideal S1 .f32) :
    shapeCast S1x1 x Facts₀.shapeCasts_S1_S1x1 = Cert.ReferenceIdeal.Read.val_main_v137 (F := Ideal) x := by
  funext j
  rw [Cert.ReferenceIdeal.Read.val_main_v137_apply]
  refine shapeCast_apply x _ j _ ?_
  -- both shapes have one element, so both positions are 0
  have hl := (S1.rowMajor (Cert.ReferenceIdeal.Read.idx_main_v137 j)).isLt
  have hr := (S1x1.rowMajor j).isLt
  have e1 : S1.numel = 1 := rfl
  have e2 : S1x1.numel = 1 := rfl
  omega

set_option maxHeartbeats 8000000 in
/-- The first layer's bias as the one-row matrix the second kernel is entered with. -/
theorem W3_bias (c : Dev nD) : W3 m ρ c (Proc.devRef .tc main_v43)
    = Cert.ReferenceIdeal.Read.val_main_v43 (F := Ideal) (m ((c : Thread nD τ).loc main_arg12)) := by
  show StableHlo.after hostOps1 (W2 m ρ c) (Proc.devRef .tc main_v43) = _
  simp only [hostOps1]
  after_results_simp
  rw [W2_arg12]
  exact row64 _

/-! ## Between the second and the third kernel -/

set_option maxHeartbeats 8000000 in
theorem W3_src (c : Dev nD) : W3 m ρ c (Proc.devRef .tc main_v5)
    = Cert.ReferenceIdeal.Read.val_main_v6 (F := Ideal) (m ((c : Thread nD τ).loc main_arg1)) := by
  show StableHlo.after hostOps1 (W2 m ρ c) (Proc.devRef .tc main_v5) = _
  simp only [hostOps1]
  after_results_simp
  exact W2_src m ρ c
set_option maxHeartbeats 8000000 in
theorem W3_dst (c : Dev nD) : W3 m ρ c (Proc.devRef .tc main_v6)
    = Cert.ReferenceIdeal.Read.val_main_v7 (F := Ideal) (m ((c : Thread nD τ).loc main_arg1)) := by
  show StableHlo.after hostOps1 (W2 m ρ c) (Proc.devRef .tc main_v6) = _
  simp only [hostOps1]
  after_results_simp
  exact W2_dst m ρ c
set_option maxHeartbeats 8000000 in
theorem W3_norm (c : Dev nD) : W3 m ρ c (Proc.devRef .tc main_v29)
    = Cert.ReferenceIdeal.Read.val_main_v30 (F := Ideal) (m ((c : Thread nD τ).loc main_arg1)) := by
  show StableHlo.after hostOps1 (W2 m ρ c) (Proc.devRef .tc main_v29) = _
  simp only [hostOps1]
  after_results_simp
  exact W2_norm m ρ c
set_option maxHeartbeats 8000000 in
theorem W3_arg14 (c : Dev nD) : W3 m ρ c (Proc.devRef .tc main_arg14) = m ((c : Thread nD τ).loc main_arg14) := by
  show StableHlo.after hostOps1 (W2 m ρ c) (Proc.devRef .tc main_arg14) = _
  simp only [hostOps1]
  after_results_simp
  exact W2_arg14 m ρ c

/-- The second kernel writes only its own output array. -/
theorem W4_src (c : Dev nD) : W4 m ρ c (Proc.devRef .tc main_v5)
    = Cert.ReferenceIdeal.Read.val_main_v6 (F := Ideal) (m ((c : Thread nD τ).loc main_arg1)) :=
  (W4_of_ne m ρ c main_v5 (by decide)).trans (W3_src m ρ c)
theorem W4_dst (c : Dev nD) : W4 m ρ c (Proc.devRef .tc main_v6)
    = Cert.ReferenceIdeal.Read.val_main_v7 (F := Ideal) (m ((c : Thread nD τ).loc main_arg1)) :=
  (W4_of_ne m ρ c main_v6 (by decide)).trans (W3_dst m ρ c)
theorem W4_norm (c : Dev nD) : W4 m ρ c (Proc.devRef .tc main_v29)
    = Cert.ReferenceIdeal.Read.val_main_v30 (F := Ideal) (m ((c : Thread nD τ).loc main_arg1)) :=
  (W4_of_ne m ρ c main_v29 (by decide)).trans (W3_norm m ρ c)
theorem W4_arg14 (c : Dev nD) : W4 m ρ c (Proc.devRef .tc main_arg14) = m ((c : Thread nD τ).loc main_arg14) :=
  (W4_of_ne m ρ c main_arg14 (by decide)).trans (W3_arg14 m ρ c)

set_option maxHeartbeats 8000000 in
/-- The message array the third kernel is entered with: one round of message passing over the second kernel's
    output. -/
theorem W5_msg (c : Dev nD) : W5 m ρ c (Proc.devRef .tc main_v56)
    = Spec.msg (W4 m ρ c (Proc.devRef .tc main_v44)) (m ((c : Thread nD τ).loc main_arg1)) := by
  show StableHlo.after hostOps2 (W4 m ρ c) (Proc.devRef .tc main_v56) = _
  simp only [hostOps2]
  after_results_simp
  rw [W4_src, W4_dst, W4_norm]
  rfl

set_option maxHeartbeats 8000000 in
/-- The second layer's bias as the one-row matrix the third kernel is entered with. -/
theorem W5_bias (c : Dev nD) : W5 m ρ c (Proc.devRef .tc main_v57)
    = Cert.ReferenceIdeal.Read.val_main_v86 (F := Ideal) (m ((c : Thread nD τ).loc main_arg14)) := by
  show StableHlo.after hostOps2 (W4 m ρ c) (Proc.devRef .tc main_v57) = _
  simp only [hostOps2]
  after_results_simp
  rw [W4_arg14]
  exact row64 _

/-! ## Before the last kernel -/

/-- A buffer that neither a kernel nor a host operation has written by the third kernel's exit holds what it held at
    the launch: walk the fold back through the three kernels and the three stretches of host operations. -/
macro "as_launched_at_W6" b:ident : tactic => `(tactic| (
  rw [W6_of_ne _ _ _ $b (by decide)]
  show StableHlo.after hostOps2 (W4 _ _ _) (Proc.devRef .tc $b) = _
  simp only [hostOps2]
  after_results_simp
  rw [W4_of_ne _ _ _ $b (by decide)]
  show StableHlo.after hostOps1 (W2 _ _ _) (Proc.devRef .tc $b) = _
  simp only [hostOps1]
  after_results_simp
  rw [W2_of_ne _ _ _ $b (by decide)]
  show StableHlo.after hostOps0 (W0 _ _ _) (Proc.devRef .tc $b) = _
  simp only [hostOps0]
  after_results_simp
  try rfl))

set_option maxHeartbeats 16000000 in
theorem W6_arg2 (c : Dev nD) : W6 m ρ c (Proc.devRef .tc main_arg2) = m ((c : Thread nD τ).loc main_arg2) := by
  as_launched_at_W6 main_arg2
set_option maxHeartbeats 16000000 in
theorem W6_arg3 (c : Dev nD) : W6 m ρ c (Proc.devRef .tc main_arg3) = m ((c : Thread nD τ).loc main_arg3) := by
  as_launched_at_W6 main_arg3
set_option maxHeartbeats 16000000 in
theorem W6_arg4 (c : Dev nD) : W6 m ρ c (Proc.devRef .tc main_arg4) = m ((c : Thread nD τ).loc main_arg4) := by
  as_launched_at_W6 main_arg4
set_option maxHeartbeats 16000000 in
theorem W6_arg5 (c : Dev nD) : W6 m ρ c (Proc.devRef .tc main_arg5) = m ((c : Thread nD τ).loc main_arg5) := by
  as_launched_at_W6 main_arg5
set_option maxHeartbeats 16000000 in
theorem W6_arg6 (c : Dev nD) : W6 m ρ c (Proc.devRef .tc main_arg6) = m ((c : Thread nD τ).loc main_arg6) := by
  as_launched_at_W6 main_arg6
set_option maxHeartbeats 16000000 in
theorem W6_arg7 (c : Dev nD) : W6 m ρ c (Proc.devRef .tc main_arg7) = m ((c : Thread nD τ).loc main_arg7) := by
  as_launched_at_W6 main_arg7
set_option maxHeartbeats 16000000 in
theorem W6_arg8 (c : Dev nD) : W6 m ρ c (Proc.devRef .tc main_arg8) = m ((c : Thread nD τ).loc main_arg8) := by
  as_launched_at_W6 main_arg8
set_option maxHeartbeats 16000000 in
theorem W6_arg9 (c : Dev nD) : W6 m ρ c (Proc.devRef .tc main_arg9) = m ((c : Thread nD τ).loc main_arg9) := by
  as_launched_at_W6 main_arg9
set_option maxHeartbeats 16000000 in
theorem W6_arg10 (c : Dev nD) : W6 m ρ c (Proc.devRef .tc main_arg10) = m ((c : Thread nD τ).loc main_arg10) := by
  as_launched_at_W6 main_arg10
set_option maxHeartbeats 16000000 in
theorem W6_arg15 (c : Dev nD) : W6 m ρ c (Proc.devRef .tc main_arg15) = m ((c : Thread nD τ).loc main_arg15) := by
  as_launched_at_W6 main_arg15
set_option maxHeartbeats 16000000 in
theorem W6_arg16 (c : Dev nD) : W6 m ρ c (Proc.devRef .tc main_arg16) = m ((c : Thread nD τ).loc main_arg16) := by
  as_launched_at_W6 main_arg16
set_option maxHeartbeats 16000000 in
theorem W6_arg17 (c : Dev nD) : W6 m ρ c (Proc.devRef .tc main_arg17) = m ((c : Thread nD τ).loc main_arg17) := by
  as_launched_at_W6 main_arg17
set_option maxHeartbeats 16000000 in
theorem W6_arg18 (c : Dev nD) : W6 m ρ c (Proc.devRef .tc main_arg18) = m ((c : Thread nD τ).loc main_arg18) := by
  as_launched_at_W6 main_arg18

/-- The host operations between the third and the last kernel, read at one buffer: thirteen stretches (the pooling,
    then each clip and one-hot call with the constants between them, then the two reshapes), folded over the third
    kernel's exit contents. -/
macro "through_last_stretch" : tactic => `(tactic| (
  show StableHlo.after hostOps3_12 (StableHlo.after hostOps3_11 (StableHlo.after hostOps3_10 (StableHlo.after hostOps3_9
    (StableHlo.after hostOps3_8 (StableHlo.after hostOps3_7 (StableHlo.after hostOps3_6 (StableHlo.after hostOps3_5
    (StableHlo.after hostOps3_4 (StableHlo.after hostOps3_3 (StableHlo.after hostOps3_2 (StableHlo.after hostOps3_1
    (StableHlo.after hostOps3 (W6 _ _ _))))))))))))) _ = _
  simp only [hostOps3, hostOps3_1, hostOps3_2, hostOps3_3, hostOps3_4, hostOps3_5, hostOps3_6, hostOps3_7, hostOps3_8,
    hostOps3_9, hostOps3_10, hostOps3_11, hostOps3_12]
  after_results_simp))

set_option maxHeartbeats 32000000 in
/-- The pooled features the last kernel is entered with: the per-graph mean of the third kernel's output. -/
theorem W19_pool (c : Dev nD) : W19 m ρ c (Proc.devRef .tc main_v70)
    = Spec.pool (W6 m ρ c (Proc.devRef .tc main_v58)) (m ((c : Thread nD τ).loc main_arg2)) := by
  through_last_stretch
  rw [W6_arg2]
  rfl

set_option maxHeartbeats 32000000 in
/-- The one-hot array of 12 columns the last kernel is entered with: the clipped index array 3's. -/
theorem W19_oh12 (c : Dev nD) : W19 m ρ c (Proc.devRef .tc main_v75)
    = oneHot12 (clipIdx 11#32 (m ((c : Thread nD τ).loc main_arg3))) := by
  through_last_stretch
  rw [W6_arg3]
  rfl
set_option maxHeartbeats 32000000 in
/-- The one-hot array of 23 columns the last kernel is entered with: the clipped index array 4's. -/
theorem W19_oh23 (c : Dev nD) : W19 m ρ c (Proc.devRef .tc main_v76)
    = oneHot23 (clipIdx 22#32 (m ((c : Thread nD τ).loc main_arg4))) := by
  through_last_stretch
  rw [W6_arg4]
  rfl
set_option maxHeartbeats 32000000 in
/-- The one-hot array of 4 columns the last kernel is entered with: the clipped index array 5's. -/
theorem W19_oh4 (c : Dev nD) : W19 m ρ c (Proc.devRef .tc main_v77)
    = oneHot4 (clipIdx 3#32 (m ((c : Thread nD τ).loc main_arg5))) := by
  through_last_stretch
  rw [W6_arg5]
  rfl
set_option maxHeartbeats 32000000 in
/-- The one-hot array of 16 columns the last kernel is entered with: the clipped index array 6's. -/
theorem W19_oh16 (c : Dev nD) : W19 m ρ c (Proc.devRef .tc main_v78)
    = oneHot16 (clipIdx 15#32 (m ((c : Thread nD τ).loc main_arg6))) := by
  through_last_stretch
  rw [W6_arg6]
  rfl

set_option maxHeartbeats 32000000 in
/-- The head's first bias as the one-row matrix the last kernel is entered with. -/
theorem W19_bias1 (c : Dev nD) : W19 m ρ c (Proc.devRef .tc main_v79)
    = Cert.ReferenceIdeal.Read.val_main_v132 (F := Ideal) (m ((c : Thread nD τ).loc main_arg16)) := by
  through_last_stretch
  rw [W6_arg16]
  exact row64 _

set_option maxHeartbeats 32000000 in
/-- The head's second bias as the 1×1 matrix the last kernel is entered with. -/
theorem W19_bias2 (c : Dev nD) : W19 m ρ c (Proc.devRef .tc main_v80)
    = Cert.ReferenceIdeal.Read.val_main_v137 (F := Ideal) (m ((c : Thread nD τ).loc main_arg18)) := by
  through_last_stretch
  rw [W6_arg18]
  exact row1 _

set_option maxHeartbeats 32000000 in
theorem W19_arg7 (c : Dev nD) : W19 m ρ c (Proc.devRef .tc main_arg7) = m ((c : Thread nD τ).loc main_arg7) := by
  through_last_stretch
  exact W6_arg7 m ρ c
set_option maxHeartbeats 32000000 in
theorem W19_arg8 (c : Dev nD) : W19 m ρ c (Proc.devRef .tc main_arg8) = m ((c : Thread nD τ).loc main_arg8) := by
  through_last_stretch
  exact W6_arg8 m ρ c
set_option maxHeartbeats 32000000 in
theorem W19_arg9 (c : Dev nD) : W19 m ρ c (Proc.devRef .tc main_arg9) = m ((c : Thread nD τ).loc main_arg9) := by
  through_last_stretch
  exact W6_arg9 m ρ c
set_option maxHeartbeats 32000000 in
theorem W19_arg10 (c : Dev nD) : W19 m ρ c (Proc.devRef .tc main_arg10) = m ((c : Thread nD τ).loc main_arg10) := by
  through_last_stretch
  exact W6_arg10 m ρ c
set_option maxHeartbeats 32000000 in
theorem W19_arg15 (c : Dev nD) : W19 m ρ c (Proc.devRef .tc main_arg15) = m ((c : Thread nD τ).loc main_arg15) := by
  through_last_stretch
  exact W6_arg15 m ρ c
set_option maxHeartbeats 32000000 in
theorem W19_arg17 (c : Dev nD) : W19 m ρ c (Proc.devRef .tc main_arg17) = m ((c : Thread nD τ).loc main_arg17) := by
  through_last_stretch
  exact W6_arg17 m ρ c

end Cert.Bridge.KHost

end
-- ==== Proof.Spec.lean ====
/-
  What each of the four kernels computes, as a function of whole arrays, written with the reference's own operations so
  that the two programs meet term by term:

  * `proj x w`            — the product of the node features with the first weight;
  * `biasReluProj msg b w` — max(msg + b, 0) times the second weight, the bias row `b : [1, 64]` added to every row;
  * `biasRelu msg b`       — max(msg + b, 0);
  * `head pooled eL eA eB eR w1 b1 w2 b2` — the two-layer head over the concatenation `[pooled | eL | eA | eB | eR]`:
    max(cat · w1 + b1, 0) · w2 + b2, with `b1 : [1, 64]` and `b2 : [1, 1]` added to every row.
-/
import proofs.«401907_j73160472920253_2_alg».proof.Proof.Gen.ReferenceIdeal.Read

set_option maxRecDepth 16384

noncomputable section

namespace Cert.Bridge.Spec

open Idealize.ShloMosaic Cert.ReferenceIdeal Cert.ReferenceIdeal.Facts₀ Cert.ReferenceIdeal.Facts

/-- The node features times the first weight. -/
def proj (x : FVec Ideal S100000x6 .f32) (w : FVec Ideal S6x64 .f32) : FVec Ideal S100000x64 .f32 :=
  Host.dotGeneral dot_S100000x6_S6x64_S100000x64_1_0_0_1_n_n none x w

/-- The zero array a rectifier compares with, over the node features. -/
def zeroN : FVec Ideal S100000x64 .f32 :=
  broadcastInDim S100000x64 ![] bcast_S_S100000x64 (constant S_ .f32 0x00000000#32)

/-- The zero array a rectifier compares with, over the graphs' hidden features. -/
def zeroG : FVec Ideal S2048x64 .f32 :=
  broadcastInDim S2048x64 ![] bcast_S_S2048x64 (constant S_ .f32 0x00000000#32)

/-- max(msg + b, 0), the bias row added to every row. -/
def biasRelu (msg : FVec Ideal S100000x64 .f32) (b : FVec Ideal S1x64 .f32) : FVec Ideal S100000x64 .f32 :=
  maximumf (addf msg (broadcastInDim S100000x64 ![0, 1] bcast_S1x64_S100000x64_0_1 b)) zeroN

/-- max(msg + b, 0) times the second weight. -/
def biasReluProj (msg : FVec Ideal S100000x64 .f32) (b : FVec Ideal S1x64 .f32) (w : FVec Ideal S64x64 .f32) :
    FVec Ideal S100000x64 .f32 :=
  Host.dotGeneral dot_S100000x64_S64x64_S100000x64_1_0_0_1_n_n none (biasRelu msg b) w

/-- The two-layer head over the concatenation of the pooled features with the four embedding pieces. -/
def head (pooled : FVec Ideal S2048x64 .f32) (eL eA eB eR : FVec Ideal S2048x16 .f32)
    (w1 : FVec Ideal S128x64 .f32) (b1 : FVec Ideal S1x64 .f32) (w2 : FVec Ideal S64x1 .f32) (b2 : FVec Ideal S1x1 .f32) :
    FVec Ideal S2048x1 .f32 :=
  addf (Host.dotGeneral dot_S2048x64_S64x1_S2048x1_1_0_0_1_n_n none
      (maximumf (addf (Host.dotGeneral dot_S2048x128_S128x64_S2048x64_1_0_0_1_n_n none
            (concatenate S2048x128 1 [⟨S2048x64, pooled⟩, ⟨S2048x16, eL⟩, ⟨S2048x16, eA⟩, ⟨S2048x16, eB⟩, ⟨S2048x16, eR⟩]
              concatenates_S2048x64_S2048x16_S2048x16_S2048x16_S2048x16_S2048x128_d1)
            w1)
          (broadcastInDim S2048x64 ![0, 1] bcast_S1x64_S2048x64_0_1 b1))
        zeroG)
      w2)
    (broadcastInDim S2048x1 ![0, 1] bcast_S1x1_S2048x1_0_1 b2)

end Cert.Bridge.Spec

end
-- ==== Proof.Reg0.lean ====
/-
  The first kernel's output array after its ten grid points: block t holds rows 10000·t … 10000·t + 9999 of the product of the [100000, 6] input with the [6, 64] weight, each entry the exact sum over the six columns.
-/
import proofs.«401907_j73160472920253_2_alg».proof.Proof.Gen.KernelIdeal.Frame
import proofs.«401907_j73160472920253_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Reg0

open Idealize.ShloMosaic Idealize.ShloMosaic.TcCoe Idealize.SL.Sem
open Idealize.ShloMosaic.Pipeline (Dat Cfg Window)
open Cert.KernelIdeal Cert.KernelIdeal.Gen

-- the contents of the TensorCore's buffers when the region is entered: a parameter
variable (V : (c : Dev nD) → (b : Ref sig .tc) → Buf (Elt Ideal) ((c : Thread nD τ).loc b))

/-! ## One entry of a block's product -/

/-- The block's contraction record, left operand, row axis: the output's row. -/
theorem lhs_blk_0 (j : S10000x64.Idx) (q : dot_S10000x6_S6x64_S10000x64_1_0_0_1_n_n.contr.Idx) :
    (dot_S10000x6_S6x64_S10000x64_1_0_0_1_n_n.lhsIdx j q 0).val = (j 0).val := by
  unfold DotDims.lhsIdx
  rw [dif_neg (show ¬(0 : Fin S10000x6.rank) ∈ dot_S10000x6_S6x64_S10000x64_1_0_0_1_n_n.lhsBatch by decide), dif_pos (show (0 : Fin S10000x6.rank) ∈ dot_S10000x6_S6x64_S10000x64_1_0_0_1_n_n.lhsNonContracting by decide)]
  rfl
/-- Left operand, column axis: the contracted coordinate. -/
theorem lhs_blk_1 (j : S10000x64.Idx) (q : dot_S10000x6_S6x64_S10000x64_1_0_0_1_n_n.contr.Idx) :
    (dot_S10000x6_S6x64_S10000x64_1_0_0_1_n_n.lhsIdx j q 1).val = (q ⟨0, by decide⟩).val :=
  dot_S10000x6_S6x64_S10000x64_1_0_0_1_n_n.lhsIdx_val_of_single rfl j q
/-- Right operand, row axis: the contracted coordinate. -/
theorem rhs_blk_0 (j : S10000x64.Idx) (q : dot_S10000x6_S6x64_S10000x64_1_0_0_1_n_n.contr.Idx) :
    (dot_S10000x6_S6x64_S10000x64_1_0_0_1_n_n.rhsIdx j q 0).val = (q ⟨0, by decide⟩).val :=
  dot_S10000x6_S6x64_S10000x64_1_0_0_1_n_n.rhsIdx_val_of_single rfl j q
/-- Right operand, column axis: the output's column. -/
theorem rhs_blk_1 (j : S10000x64.Idx) (q : dot_S10000x6_S6x64_S10000x64_1_0_0_1_n_n.contr.Idx) :
    (dot_S10000x6_S6x64_S10000x64_1_0_0_1_n_n.rhsIdx j q 1).val = (j 1).val := by
  unfold DotDims.rhsIdx
  rw [dif_neg (show ¬(1 : Fin S6x64.rank) ∈ dot_S10000x6_S6x64_S10000x64_1_0_0_1_n_n.rhsBatch by decide), dif_pos (show (1 : Fin S6x64.rank) ∈ dot_S10000x6_S6x64_S10000x64_1_0_0_1_n_n.rhsNonContracting by decide)]
  rfl

/-- Entry (row of j, k) of a block of the features. -/
abbrev lrow (j : S10000x64.Idx) (k : Fin 6) : S10000x6.Idx := fun a => match a with
  | ⟨0, _⟩ => ⟨(j 0).val, (j 0).isLt⟩
  | ⟨1, _⟩ => ⟨k.val, k.isLt⟩
/-- Entry (k, column of j) of the weight. -/
abbrev rcol (j : S10000x64.Idx) (k : Fin 6) : S6x64.Idx := fun a => match a with
  | ⟨0, _⟩ => ⟨k.val, k.isLt⟩
  | ⟨1, _⟩ => ⟨(j 1).val, (j 1).isLt⟩

/-- What the body stores, entry by entry: the sum over the six columns of the features' block times the weight (the
    narrowing of the operands is the identity on exact values, and the accumulator is the zero array). -/
theorem pay_apply (x : FVec Ideal S10000x6 .f32) (w : FVec Ideal S6x64 .f32) (j : S10000x64.Idx) :
    k0_pay1 (F := Ideal) x w j = ∑ k : Fin 6, x (lrow j k) * w (rcol j k) := by
  unfold k0_pay1
  simp only [matmul]
  rw [Ideal.matmul_constant_zero_apply, ← Equiv.sum_comp (ValueIdx.contrEquiv1 dot_S10000x6_S6x64_S10000x64_1_0_0_1_n_n 6 rfl rfl).symm]
  refine Finset.sum_congr rfl fun k _ => ?_
  have hk := ValueIdx.contrEquiv1_symm_val dot_S10000x6_S6x64_S10000x64_1_0_0_1_n_n 6 rfl rfl k
  have el : dot_S10000x6_S6x64_S10000x64_1_0_0_1_n_n.lhsIdx j ((ValueIdx.contrEquiv1 dot_S10000x6_S6x64_S10000x64_1_0_0_1_n_n 6 rfl rfl).symm k) = lrow j k := funext fun a => Fin.ext (by
    match a with
    | ⟨0, _⟩ => exact lhs_blk_0 _ _
    | ⟨1, _⟩ => exact (lhs_blk_1 _ _).trans hk)
  have er : dot_S10000x6_S6x64_S10000x64_1_0_0_1_n_n.rhsIdx j ((ValueIdx.contrEquiv1 dot_S10000x6_S6x64_S10000x64_1_0_0_1_n_n 6 rfl rfl).symm k) = rcol j k := funext fun a => Fin.ext (by
    match a with
    | ⟨0, _⟩ => exact (rhs_blk_0 _ _).trans hk
    | ⟨1, _⟩ => exact rhs_blk_1 _ _)
  rw [ValueIdx.truncf_apply, ValueIdx.truncf_apply, el, er]

/-- The whole product, entry by entry: the same sum over the whole arrays. -/
theorem proj_apply (A : FVec Ideal Cert.ReferenceIdeal.S100000x6 .f32) (W : FVec Ideal Cert.ReferenceIdeal.S6x64 .f32)
    (i : Cert.ReferenceIdeal.S100000x64.Idx) :
    Spec.proj A W i = ∑ k : Fin 6, A (Cert.ReferenceIdeal.Read.lidx_main_v4 i k) * W (Cert.ReferenceIdeal.Read.ridx_main_v4 i k) :=
  Cert.ReferenceIdeal.Read.val_main_v4_apply A W i

/-! ## From the blocks to the array -/

theorem zero_off : (![0, 0] : Fin 2 → Nat) = fun _ => 0 := funext fun a => by fin_cases a <;> rfl

/-- The index maps over the ten grid points: the features' and the output's blocks are block t of their rows, all six
    (all sixty-four) columns; the weight is one block. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What grid point t writes back is block t of the whole product of the arrays the region found. -/
theorem flushed_eq (c : Dev nD) (t : Fin cfg0.N) :
    (dat0 (F := Ideal) V c).flushed 2 t
      = ((cfg0.win 2).blk t).view.read (Elt Ideal) (Spec.proj (V c main_arg0) (V c main_arg11)) := by
  show (cfg0.win 2).cut (grid0.coords t) ((dat0 V c).after 2 t) = _
  rw [after0_2]
  unfold out0_2
  rw [View.canon_unit_zero zero_off]
  simp only [View.ld_unit_zero (S := S10000x6) zero_off, View.ld_unit_zero (S := S6x64) zero_off]
  obtain ⟨e0, e1, e2, e3, e4, e5⟩ := index_facts t
  funext j
  refine (pay_apply (iblk0 V c 0 t) (iblk0 V c 1 t) _).trans ?_
  refine Eq.trans ?_ (proj_apply _ _ _).symm
  refine Finset.sum_congr rfl fun k _ => ?_
  have h0 : iblk0 V c 0 t (lrow ((win0 2).xinj (grid0.coords t) j) k)
      = V c main_arg0 (ReferenceIdeal.Read.lidx_main_v4 (((cfg0.win 2).blk t).view.emb j) k) := by
    show V c main_arg0 (((cfg0.win 0).blk t).view.emb (lrow ((win0 2).xinj (grid0.coords t) j) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 6 + 1 * k.val = k.val; omega
  have h1 : iblk0 V c 1 t (rcol ((win0 2).xinj (grid0.coords t) j) k)
      = V c main_arg11 (ReferenceIdeal.Read.ridx_main_v4 (((cfg0.win 2).blk t).view.emb j) k) := by
    show V c main_arg11 (((cfg0.win 1).blk t).view.emb (rcol ((win0 2).xinj (grid0.coords t) j) k)) = _
    refine congrArg (V c main_arg11) (funext fun a => Fin.ext ?_)
    match a with
    | ⟨0, _⟩ => show win0_1.index t (0 : Fin 2) * 6 + 1 * k.val = k.val; omega
    | ⟨1, _⟩ => show win0_1.index t (1 : Fin 2) * 64 + 1 * (j 1).val = win0_2.index t (1 : Fin 2) * 64 + 1 * (j 1).val; omega
  exact congrArg₂ (· * ·) h0 h1

/-- An index of the output array is in grid point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every index of the output array is in some grid point's block: row r is in block r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 10000 < cfg0.N := by
    show (i 0).val / 10000 < grid0.N
    rw [N_0]; omega
  obtain ⟨t, htv⟩ : ∃ t : Fin cfg0.N, t.val = (i 0).val / 10000 := ⟨⟨_, ht⟩, rfl⟩
  refine ⟨t, flush0_2 t, ?_⟩
  rw [mem_blk]
  obtain ⟨e0, e1, e2, e3, e4, e5⟩ := index_facts t
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the run of the region, its output array is the whole product of its two input arrays as the region found
    them. -/
theorem final0 (c : Dev nD) :
    (dat0 (F := Ideal) V c).arrAt 2 cfg0.N = Spec.proj (V c main_arg0) (V c main_arg11) :=
  (dat0 (F := Ideal) V c).arrAt_eq_of_cover 2 (Spec.proj (V c main_arg0) (V c main_arg11))
    (fun t _ => flushed_eq V c t) cover

end Cert.Bridge.Reg0

end
-- ==== Proof.Reg1.lean ====
/-
  The second kernel's output array after its twenty grid points: block t holds rows 5000·t … 5000·t + 4999 of max(msg + b, 0) times the [64, 64] weight, the bias row added to every row of msg.
-/
import proofs.«401907_j73160472920253_2_alg».proof.Proof.Gen.KernelIdeal.Frame
import proofs.«401907_j73160472920253_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Reg1

open Idealize.ShloMosaic Idealize.ShloMosaic.TcCoe Idealize.SL.Sem
open Idealize.ShloMosaic.Pipeline (Dat Cfg Window)
open Cert.KernelIdeal Cert.KernelIdeal.Gen

-- the contents of the TensorCore's buffers when the region is entered: a parameter
variable (V : (c : Dev nD) → (b : Ref sig .tc) → Buf (Elt Ideal) ((c : Thread nD τ).loc b))

open Idealize.ShloMosaic.ValueIdx

/-! ## The kernel's product at an index -/

/-- The operand indices of the block's product, axis by axis: the left operand is read at (row of the output, contraction index),
    the right at (contraction index, column of the output). -/
theorem klhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem klhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem krhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem krhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The kernel's matrix product into the zero accumulator, at row p and column q: the sum over the 64 hidden features. -/
theorem kmatmul_apply (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact klhs_0 _ _
    | ⟨1, _⟩ => exact (klhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (krhs_0 _ _).trans hk
    | ⟨1, _⟩ => exact krhs_1 _ _)
  rw [el, er]

/-- The body's payload at row p and column q of its block: the rectified sum of the message row and the bias row, times the weight's column. -/
theorem pay_apply (x0 : FVec Ideal S5000x64 .f32) (x1 : FVec Ideal S1x64 .f32) (x2 : FVec Ideal S64x64 .f32) (p : Fin 5000) (q : Fin 64) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  refine (kmatmul_apply _ _ p q).trans ?_
  refine Finset.sum_congr rfl fun k _ => ?_
  rw [truncf_apply, truncf_apply, maximumf_apply, addf_apply, shapeCast_self, shapeCast_self, broadcastTo_1b_ab_apply]
  rfl

/-! ## The specification at an index -/

/-- The same four facts for the whole-array product of the specification. -/
theorem rlhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem rlhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rrhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rrhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The rectified sum of the message array and the bias row at row r and feature k. -/
theorem biasRelu_apply (msg : FVec Ideal Cert.ReferenceIdeal.S100000x64 .f32) (b : FVec Ideal Cert.ReferenceIdeal.S1x64 .f32) (r : Fin 100000) (k : Fin 64) :
    Spec.biasRelu msg b (ix2 r k) = max (msg (ix2 r k) + b (ix2 (0 : Fin 1) k)) (Ideal.ofBits .f32 0x00000000#32) := by
  unfold Spec.biasRelu Spec.zeroN
  rw [maximumf_apply, addf_apply,
    broadcastInDim_apply ![0, 1] Cert.ReferenceIdeal.Facts₀.bcast_S1x64_S100000x64_0_1 b (ix2 r k) (ix2 (0 : Fin 1) k) (fun a => by
      match a with
      | ⟨0, _⟩ => rfl
      | ⟨1, _⟩ => rfl),
    broadcastInDim_apply ![] Cert.ReferenceIdeal.Facts₀.bcast_S_S100000x64 _ (ix2 r k) ix0 (fun a => a.elim0)]
  rfl

/-- The specification at row r and column q: the sum over the 64 hidden features of the rectified sum times the weight. -/
theorem spec_apply (msg : FVec Ideal Cert.ReferenceIdeal.S100000x64 .f32) (b : FVec Ideal Cert.ReferenceIdeal.S1x64 .f32) (w : FVec Ideal Cert.ReferenceIdeal.S64x64 .f32) (r : Fin 100000) (q : Fin 64) :
    Spec.biasReluProj msg b w (ix2 r q)
      = ∑ k : Fin 64, max (msg (ix2 r k) + b (ix2 (0 : Fin 1) k)) (Ideal.ofBits .f32 0x00000000#32) * w (ix2 k q) := by
  unfold Spec.biasReluProj
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((ValueIdx.contrEquiv1 Cert.ReferenceIdeal.dot_S100000x64_S64x64_S100000x64_1_0_0_1_n_n 64 rfl rfl).symm k) = ix2 r k := funext fun a => Fin.ext (by
    match a with
    | ⟨0, _⟩ => exact rlhs_0 _ _
    | ⟨1, _⟩ => exact (rlhs_1 _ _).trans hk)
  have er : Cert.ReferenceIdeal.dot_S100000x64_S64x64_S100000x64_1_0_0_1_n_n.rhsIdx (ix2 r q) ((ValueIdx.contrEquiv1 Cert.ReferenceIdeal.dot_S100000x64_S64x64_S100000x64_1_0_0_1_n_n 64 rfl rfl).symm k) = ix2 k q := funext fun a => Fin.ext (by
    match a with
    | ⟨0, _⟩ => exact (rrhs_0 _ _).trans hk
    | ⟨1, _⟩ => exact rrhs_1 _ _)
  rw [el, er, biasRelu_apply]

/-! ## From blocks to the array -/

theorem zero_off : (![0, 0] : Fin 2 → Nat) = fun _ => 0 := funext fun a => by fin_cases a <;> rfl

/-- The printed index maps, decided over the twenty grid points: the message window and the output window sit at block row t,
    column block 0; the bias row and the weight are whole, at block 0 on both axes. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Row p of point t's block is row 5000·t + p of the array. -/
abbrev rowOf (t : Fin cfg1.N) (p : Fin 5000) : Fin 100000 := ⟨t.val * 5000 + p.val, by
  have ht : t.val < 20 := t.isLt
  have hp : p.val < 5000 := p.isLt
  omega⟩

/-- WHAT POINT t WRITES BACK is block t of the specification of the arrays as the region finds them. -/
theorem flushed_eq (c : Dev nD) (t : Fin cfg1.N) :
    (dat1 (F := Ideal) V c).flushed 3 t
      = ((cfg1.win 3).blk t).view.read (Elt Ideal) (Spec.biasReluProj (V c main_v42) (V c main_v43) (V c main_arg13)) := by
  show (cfg1.win 3).cut (grid1.coords t) ((dat1 V c).after 3 t) = _
  rw [after1_3]
  unfold out1_3
  rw [View.canon_unit_zero zero_off]
  simp only [View.ld_unit_zero (S := S5000x64) zero_off, View.ld_unit_zero (S := S1x64) zero_off, View.ld_unit_zero (S := S64x64) zero_off]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = Spec.biasReluProj (V c main_v42) (V c main_v43) (V c main_arg13) (((cfg1.win 3).blk t).view.emb (ix2 p q))
  have he : ((cfg1.win 3).blk t).view.emb (ix2 p q) = ix2 (rowOf t p) q := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  rw [he]
  refine (pay_apply (iblk1 V c 0 t) (iblk1 V c 1 t) (iblk1 V c 2 t) p q).trans ?_
  refine Eq.trans ?_ (spec_apply (V c main_v42) (V c main_v43) (V c main_arg13) (rowOf t p) q).symm
  refine Finset.sum_congr rfl fun k _ => ?_
  have h0 : iblk1 V c 0 t (ix2 p k) = V c main_v42 (ix2 (rowOf t p) k) := by
    show V c main_v42 (((cfg1.win 0).blk t).view.emb (ix2 p k)) = _
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  have h1 : iblk1 V c 1 t (ix2 (0 : Fin 1) k) = V c main_v43 (ix2 (0 : Fin 1) k) := by
    show V c main_v43 (((cfg1.win 1).blk t).view.emb (ix2 (0 : Fin 1) k)) = _
    refine congrArg _ ?_
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : iblk1 V c 2 t (ix2 k q) = V c main_arg13 (ix2 k q) := by
    show V c main_arg13 (((cfg1.win 2).blk t).view.emb (ix2 k q)) = _
    refine congrArg _ ?_
    funext a; apply Fin.ext
    match a with
    | ⟨0, _⟩ => show win1_2.index t (0 : Fin 2) * 64 + 1 * k.val = k.val; omega
    | ⟨1, _⟩ => show win1_2.index t (1 : Fin 2) * 64 + 1 * q.val = q.val; omega
  rw [h0, h1, h2]

/-- An index of the array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v44).slice (win1_3.rect t)).set ↔ _
  rw [View.set_slice_whole, Rect.mem_set_unit]
  exact Iff.rfl

/-- Every index of the array is in the block of the point that holds its row: row r is in block r / 5000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨e0, e1, e2, e3, e4, e5, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the run of the region, its output array is the product with the weight of the rectified sum of the message
    array and the bias row, all as the region found them. -/
theorem final1 (c : Dev nD) :
    (dat1 (F := Ideal) V c).arrAt 3 cfg1.N = Spec.biasReluProj (V c main_v42) (V c main_v43) (V c main_arg13) := by
  exact (dat1 (F := Ideal) V c).arrAt_eq_of_cover 3 (Spec.biasReluProj (V c main_v42) (V c main_v43) (V c main_arg13))
    (fun t _ => flushed_eq V c t) covered

end Cert.Bridge.Reg1

end
-- ==== Proof.Reg2.lean ====
/-
  The third kernel's output array after its ten grid points: block t holds rows 10000·t … 10000·t + 9999 of max(msg + b, 0), the bias row added to every row of msg.
-/
import proofs.«401907_j73160472920253_2_alg».proof.Proof.Gen.KernelIdeal.Frame
import proofs.«401907_j73160472920253_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Reg2

open Idealize.ShloMosaic Idealize.ShloMosaic.TcCoe Idealize.SL.Sem
open Idealize.ShloMosaic.Pipeline (Dat Cfg Window)
open Cert.KernelIdeal Cert.KernelIdeal.Gen

-- the contents of the TensorCore's buffers when the region is entered: a parameter
variable (V : (c : Dev nD) → (b : Ref sig .tc) → Buf (Elt Ideal) ((c : Thread nD τ).loc b))

open Idealize.ShloMosaic.ValueIdx

/-! ## The two sides at an index -/

/-- The body's loads and its store sit at offsets zero. -/
theorem off_zero : (![0, 0] : Fin 2 → Nat) = fun _ => 0 :=
  funext fun a => match a with | ⟨0, _⟩ => rfl | ⟨1, _⟩ => rfl

/-- max(msg + b, 0) at row `p`, column `q`: the bias row is read at its one row. -/
theorem biasRelu_apply (msg : FVec Ideal S100000x64 .f32) (b : FVec Ideal S1x64 .f32) (p : Fin 100000) (q : Fin 64) :
    Spec.biasRelu msg b (ix2 p q)
      = max (msg (ix2 p q) + b (ix2 (0 : Fin 1) q)) (Ideal.ofBits .f32 0x00000000#32) := by
  unfold Spec.biasRelu Spec.zeroN
  rw [maximumf_apply, addf_apply]
  rw [broadcastInDim_apply _ _ b (ix2 p q) (ix2 (0 : Fin 1) q) (fun a => match a with | ⟨0, _⟩ => rfl | ⟨1, _⟩ => rfl)]
  rw [broadcastInDim_apply _ _ _ (ix2 p q) ix0 (fun a => a.elim0)]
  rfl

/-- What the body stores, at row `p` of its block and column `q`: the same expression of the two loaded blocks. -/
theorem pay_apply (x0 : FVec Ideal S10000x64 .f32) (x1 : FVec Ideal S1x64 .f32) (p : Fin 10000) (q : Fin 64) :
    k2_pay1 x0 x1 (ix2 p q)
      = max (x0 (ix2 p q) + x1 (ix2 (0 : Fin 1) q)) (Ideal.ofBits .f32 0x00000000#32) := by
  unfold k2_pay1
  rw [maximumf_apply, addf_apply, shapeCast_self, shapeCast_self, broadcastTo_1b_ab_apply]
  rfl

/-! ## The windows' blocks -/

/-- The printed index maps over the ten points: the message window and the output window are at block row `t`, the
    bias window at its one block. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The ten points. -/
theorem point_lt (t : Fin cfg2.N) : t.val < 10 := lt_of_lt_of_eq t.isLt N_2

/-- WHAT POINT `t` WRITES BACK is block `t` of max(msg + b, 0) of the arrays as the region finds them. -/
theorem flushed_eq (c : Dev nD) (t : Fin cfg2.N) :
    (dat2 (F := Ideal) V c).flushed 2 t
      = ((cfg2.win 2).blk t).view.read (Elt Ideal) (Spec.biasRelu (V c main_v56) (V c main_v57)) := by
  show (cfg2.win 2).cut (grid2.coords t) ((dat2 V c).after 2 t) = _
  rw [after2_2]
  unfold out2_2
  rw [View.canon_unit_zero off_zero]
  simp only [View.ld_unit_zero (S := S10000x64) off_zero, View.ld_unit_zero (S := S1x64) off_zero]
  obtain ⟨e00, e01, e10, e11, e20, e21⟩ := index_facts t
  have ht := point_lt t
  funext j
  obtain ⟨p, q, rfl⟩ : ∃ (p : Fin 10000) (q : Fin 64), j = ix2 p q := ⟨j 0, j 1, eq_ix2 j⟩
  have hp := p.isLt
  have hq := q.isLt
  -- the place in the array of row `p` of block `t`
  have hout : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  have hmsg : ((cfg2.win 0).blk t).view.emb (ix2 p q) = ix2 (⟨t.val * 10000 + p.val, by omega⟩ : Fin 100000) q := by
    funext a; apply Fin.ext
    match a with
    | ⟨0, _⟩ => show win2_0.index t (0 : Fin 2) * 10000 + 1 * p.val = t.val * 10000 + p.val; omega
    | ⟨1, _⟩ => show win2_0.index t (1 : Fin 2) * 64 + 1 * q.val = q.val; omega
  have hbias : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 64 + 1 * q.val = q.val; omega
  show k2_pay1 (iblk2 V c 0 t) (iblk2 V c 1 t) (ix2 p q)
    = Spec.biasRelu (V c main_v56) (V c main_v57) (((cfg2.win 2).blk t).view.emb (ix2 p q))
  rw [hout, biasRelu_apply]
  refine (pay_apply (iblk2 V c 0 t) (iblk2 V c 1 t) p q).trans ?_
  have r0 : iblk2 V c 0 t (ix2 p q) = V c main_v56 (ix2 (⟨t.val * 10000 + p.val, by omega⟩ : Fin 100000) q) := by
    show V c main_v56 (((cfg2.win 0).blk t).view.emb (ix2 p q)) = _
    rw [hmsg]
  have r1 : iblk2 V c 1 t (ix2 (0 : Fin 1) q) = V c main_v57 (ix2 (0 : Fin 1) q) := by
    show V c main_v57 (((cfg2.win 1).blk t).view.emb (ix2 (0 : Fin 1) q)) = _
    rw [hbias]
  rw [r0, r1]

/-! ## The blocks cover the array -/

/-- An index of the array is in point `t`'s block iff each coordinate is in the block's range on its axis. -/
theorem mem_blk (t : Fin cfg2.N) (i : S100000x64.Idx) :
    i ∈ ((cfg2.win 2).blk t).view.set
      ↔ ∀ a : Fin 2, win2_2.index t a * S10000x64.size a ≤ (i a).val ∧ (i a).val < win2_2.index t a * S10000x64.size a + S10000x64.size a := by
  show i ∈ ((View.whole main_v58).slice (win2_2.rect t)).set ↔ _
  rw [View.set_slice_whole, Rect.mem_set_unit]
  exact Iff.rfl

/-- Row `r` of the array is in the block of point `r / 10000`: the ten blocks of 10000 rows tile the 100000 rows. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 10000 < cfg2.N := lt_of_lt_of_eq (by omega) N_2.symm
  refine ⟨⟨(i 0).val / 10000, hN⟩, flush2_2 _, ?_⟩
  obtain ⟨-, -, -, -, e20, e21⟩ := index_facts ⟨(i 0).val / 10000, hN⟩
  have e20' : win2_2.index ⟨(i 0).val / 10000, hN⟩ (0 : Fin 2) = (i 0).val / 10000 := e20
  rw [mem_blk]
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    omega
  | ⟨1, _⟩ =>
    show win2_2.index ⟨(i 0).val / 10000, hN⟩ (1 : Fin 2) * 64 ≤ (i 1).val
      ∧ (i 1).val < win2_2.index ⟨(i 0).val / 10000, hN⟩ (1 : Fin 2) * 64 + 64
    omega

/-- After the run of the region, its output array is the rectified sum of the message array and the bias row, as the
    region found them. -/
theorem final2 (c : Dev nD) :
    (dat2 (F := Ideal) V c).arrAt 2 cfg2.N = Spec.biasRelu (V c main_v56) (V c main_v57) :=
  (dat2 (F := Ideal) V c).arrAt_eq_of_cover 2 (Spec.biasRelu (V c main_v56) (V c main_v57))
    (fun t _ => flushed_eq V c t) covered

end Cert.Bridge.Reg2

end
-- ==== Proof.Reg3.lean ====
/-
  The last kernel's output array after its one grid point: per graph, the two-layer head over the concatenation of the pooled features with the four small products of a [2048, N] array and an [N, 16] table.

  The argument has three steps.
  * The body's arithmetic, over whole arrays: on the ideal values narrowing an operand to bf16 changes nothing, and a product accumulated
    into a zero array is the plain sum over the contracted axis, which is also the host's `dot_general`; a bias row cast to its own shape
    and broadcast down the rows is the host's broadcast in dimensions of the row; the splat of the zero word is the host's broadcast of
    the zero constant. So the body's value is `Spec.head` of the arrays it loads, with the four small products the named `ohmm` ones.
  * The grid has one point, and there every window's block index is zero on both axes while its block has the array's extents: each
    block the body loads is the whole array as the region found it, and the output's block is the whole output array.
  * Hence what the one point writes back is the head read through the output's block, that block covers every index, and the array
    after the run is the head.
-/
import proofs.«401907_j73160472920253_2_alg».proof.Proof.Gen.KernelIdeal.Frame
import proofs.«401907_j73160472920253_2_alg».proof.Proof.Spec
import proofs.«401907_j73160472920253_2_alg».proof.Proof.HeadDefs
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.Bridge.Reg3

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open Cert.Bridge

/-! ## The two spellings of each operation of the head meet -/

/-- On the ideal values narrowing an operand is the identity, and a product accumulated into zeros is the plain
    product: the sum over the contracted axis, which is also the host's `dot_general`. -/
theorem matmul_narrowed_zero_eq_dot {sl sr so : Shape} (d : DotDims sl sr so) (h : FTy.bits .bf16 < FTy.bits .f32)
    (x : FVec Ideal sl .f32) (w : FVec Ideal sr .f32) :
    matmul d none (truncf .bf16 x h) (truncf .bf16 w h) (constant (F := Ideal) so .f32 0x00000000#32)
      = Host.dotGeneral d none x w := by
  funext j
  show FloatOps.matmul d none (truncf .bf16 x h) (truncf .bf16 w h) (constant so .f32 0x00000000#32) j
      = FloatOps.dotGeneral d none _ x w j
  rw [Ideal.matmul_constant_zero_apply, Ideal.dotGeneral_apply]
  exact Finset.sum_congr rfl fun k _ => rfl

/-- The bias row laid along each of the 2048 rows: the kernel broadcasts it as a vector, the host in dimensions. -/
theorem biasRow_eq (b : FVec Ideal S1x64 .f32) :
    broadcastTo S2048x64 (shapeCast S1x64 b shapeCasts_S1x64_S1x64) broadcasts_S1x64_S2048x64
      = broadcastInDim Cert.ReferenceIdeal.S2048x64 ![0, 1] Cert.ReferenceIdeal.Facts₀.bcast_S1x64_S2048x64_0_1 b := by
  funext j
  obtain ⟨p, q, rfl⟩ : ∃ (p : Fin 2048) (q : Fin 64), j = ix2 p q := ⟨j 0, j 1, eq_ix2 j⟩
  rw [shapeCast_self]
  exact (broadcastTo_1b_ab_apply b broadcasts_S1x64_S2048x64 p q).trans
    (broadcastInDim_oneRow_apply Cert.ReferenceIdeal.Facts₀.bcast_S1x64_S2048x64_0_1 b p q).symm

/-- The one-entry bias laid along each of the 2048 rows of the one output column. -/
theorem biasOne_eq (b : FVec Ideal S1x1 .f32) :
    broadcastTo S2048x1 (shapeCast S1x1 b shapeCasts_S1x1_S1x1) broadcasts_S1x1_S2048x1
      = broadcastInDim Cert.ReferenceIdeal.S2048x1 ![0, 1] Cert.ReferenceIdeal.Facts₀.bcast_S1x1_S2048x1_0_1 b := by
  funext j
  obtain ⟨p, q, rfl⟩ : ∃ (p : Fin 2048) (q : Fin 1), j = ix2 p q := ⟨j 0, j 1, eq_ix2 j⟩
  rw [shapeCast_self]
  exact (broadcastTo_1b_ab_apply b broadcasts_S1x1_S2048x1 p q).trans
    (broadcastInDim_oneRow_apply Cert.ReferenceIdeal.Facts₀.bcast_S1x1_S2048x1_0_1 b p q).symm

/-- The zero array the rectifier compares with: the kernel's splat of the zero word is the host's broadcast of the
    zero constant. -/
theorem zeroSplat_eq :
    broadcast S2048x64 (Scalar.ofBits (F := Ideal) .f32 0x00000000#32) = Spec.zeroG := by
  unfold Spec.zeroG
  exact (broadcastInDim_constant (F := Ideal) (s := Cert.ReferenceIdeal.S_) (t := Cert.ReferenceIdeal.S2048x64) (φ := .f32)
    (![] : Fin 0 → Fin Cert.ReferenceIdeal.S2048x64.rank) Cert.ReferenceIdeal.Facts₀.bcast_S_S2048x64 0x00000000#32).symm

/-- The body's first part: the concatenation of the pooled features with the four small products, times the first
    weight. The small products are the four named ones; the casts to the same shape are the identity. -/
theorem hidden_eq (oh12 : FVec Ideal S2048x12 .f32) (e12 : FVec Ideal S12x16 .f32) (oh23 : FVec Ideal S2048x23 .f32) (e23 : FVec Ideal S23x16 .f32)
    (oh4 : FVec Ideal S2048x4 .f32) (e4 : FVec Ideal S4x16 .f32) (oh16 : FVec Ideal S2048x16 .f32) (e16 : FVec Ideal S16x16 .f32)
    (pooled : FVec Ideal S2048x64 .f32) (w1 : FVec Ideal S128x64 .f32) :
    k3_pay2 (F := Ideal) oh12 e12 oh23 e23 oh4 e4 oh16 e16 pooled w1
      = Host.dotGeneral Cert.ReferenceIdeal.dot_S2048x128_S128x64_S2048x64_1_0_0_1_n_n none
          (concatenate Cert.ReferenceIdeal.S2048x128 1
            [⟨Cert.ReferenceIdeal.S2048x64, pooled⟩, ⟨Cert.ReferenceIdeal.S2048x16, ohmm12 oh12 e12⟩,
              ⟨Cert.ReferenceIdeal.S2048x16, ohmm23 oh23 e23⟩, ⟨Cert.ReferenceIdeal.S2048x16, ohmm4 oh4 e4⟩,
              ⟨Cert.ReferenceIdeal.S2048x16, ohmm16 oh16 e16⟩]
            Cert.ReferenceIdeal.Facts₀.concatenates_S2048x64_S2048x16_S2048x16_S2048x16_S2048x16_S2048x128_d1)
          w1 := by
  unfold k3_pay2
  rw [shapeCast_self pooled, shapeCast_self oh12, shapeCast_self oh23, shapeCast_self oh4, shapeCast_self oh16]
  exact matmul_narrowed_zero_eq_dot _ _ _ _

/-- The whole body at the ideal values is the head of the reference, over the same pieces. -/
theorem payload_eq (oh12 : FVec Ideal S2048x12 .f32) (e12 : FVec Ideal S12x16 .f32) (oh23 : FVec Ideal S2048x23 .f32) (e23 : FVec Ideal S23x16 .f32)
    (oh4 : FVec Ideal S2048x4 .f32) (e4 : FVec Ideal S4x16 .f32) (oh16 : FVec Ideal S2048x16 .f32) (e16 : FVec Ideal S16x16 .f32)
    (pooled : FVec Ideal S2048x64 .f32) (w1 : FVec Ideal S128x64 .f32)
    (b1 : FVec Ideal S1x64 .f32) (w2 : FVec Ideal S64x1 .f32) (b2 : FVec Ideal S1x1 .f32) :
    k3_pay1 (F := Ideal) (k3_pay2 oh12 e12 oh23 e23 oh4 e4 oh16 e16 pooled w1) b1 w2 b2
      = Spec.head pooled (ohmm12 oh12 e12) (ohmm23 oh23 e23) (ohmm4 oh4 e4) (ohmm16 oh16 e16) w1 b1 w2 b2 := by
  rw [hidden_eq]
  unfold k3_pay1 Spec.head
  simp only [biasRow_eq, biasOne_eq, zeroSplat_eq, matmul_narrowed_zero_eq_dot]
  rfl

/-! ## The one grid point: every window's block is its whole array -/

-- the contents of the TensorCore's buffers when the region is entered: a parameter
variable (V : (c : Dev nD) → (b : Ref sig .tc) → Buf (Elt Ideal) ((c : Thread nD τ).loc b))

/-- The zero offsets of the body's whole-block accesses, as the constant function. -/
theorem zeroOffsets : (![0, 0] : Fin 2 → Nat) = fun _ => 0 := funext fun a => by fin_cases a <;> rfl

/-- The printed index maps, decided over the grid: at the one point every window's block index is zero on both axes. -/
theorem blockIndex_zero : ∀ t : Fin cfg3.N,
    (win3_0.index t (0 : Fin 2) = 0 ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = 0 ∧ win3_11.index t (1 : Fin 2) = 0)
    ∧ (win3_12.index t (0 : Fin 2) = 0 ∧ win3_12.index t (1 : Fin 2) = 0)
    ∧ (win3_13.index t (0 : Fin 2) = 0 ∧ win3_13.index t (1 : Fin 2) = 0) :=
  (by decide +kernel : ∀ t : Fin grid3.N, _)

/-- Window 0's block at the one point is its whole array. -/
theorem pooledBlock (c : Dev nD) (t : Fin cfg3.N) : iblk3 V c 0 t = (V c main_v70 : Vec Ideal S2048x64 .f32) := by
  obtain ⟨⟨e0, e1⟩, -, -, -, -, -, -, -, -, -, -, -, -, -⟩ := blockIndex_zero t
  funext j
  show V c main_v70 (((cfg3.win 0).blk t).view.emb j) = V c main_v70 j
  refine congrArg (V c main_v70) ?_
  funext a; apply Fin.ext
  match a with
  | ⟨0, _⟩ => show win3_0.index t (0 : Fin 2) * 2048 + 1 * (j 0).val = (j 0).val; omega
  | ⟨1, _⟩ => show win3_0.index t (1 : Fin 2) * 64 + 1 * (j 1).val = (j 1).val; omega

/-- Window 1's block at the one point is its whole array. -/
theorem hot12Block (c : Dev nD) (t : Fin cfg3.N) : iblk3 V c 1 t = (V c main_v75 : Vec Ideal S2048x12 .f32) := by
  obtain ⟨-, ⟨e0, e1⟩, -, -, -, -, -, -, -, -, -, -, -, -⟩ := blockIndex_zero t
  funext j
  show V c main_v75 (((cfg3.win 1).blk t).view.emb j) = V c main_v75 j
  refine congrArg (V c main_v75) ?_
  funext a; apply Fin.ext
  match a with
  | ⟨0, _⟩ => show win3_1.index t (0 : Fin 2) * 2048 + 1 * (j 0).val = (j 0).val; omega
  | ⟨1, _⟩ => show win3_1.index t (1 : Fin 2) * 12 + 1 * (j 1).val = (j 1).val; omega

/-- Window 2's block at the one point is its whole array. -/
theorem hot23Block (c : Dev nD) (t : Fin cfg3.N) : iblk3 V c 2 t = (V c main_v76 : Vec Ideal S2048x23 .f32) := by
  obtain ⟨-, -, ⟨e0, e1⟩, -, -, -, -, -, -, -, -, -, -, -⟩ := blockIndex_zero t
  funext j
  show V c main_v76 (((cfg3.win 2).blk t).view.emb j) = V c main_v76 j
  refine congrArg (V c main_v76) ?_
  funext a; apply Fin.ext
  match a with
  | ⟨0, _⟩ => show win3_2.index t (0 : Fin 2) * 2048 + 1 * (j 0).val = (j 0).val; omega
  | ⟨1, _⟩ => show win3_2.index t (1 : Fin 2) * 23 + 1 * (j 1).val = (j 1).val; omega

/-- Window 3's block at the one point is its whole array. -/
theorem hot4Block (c : Dev nD) (t : Fin cfg3.N) : iblk3 V c 3 t = (V c main_v77 : Vec Ideal S2048x4 .f32) := by
  obtain ⟨-, -, -, ⟨e0, e1⟩, -, -, -, -, -, -, -, -, -, -⟩ := blockIndex_zero t
  funext j
  show V c main_v77 (((cfg3.win 3).blk t).view.emb j) = V c main_v77 j
  refine congrArg (V c main_v77) ?_
  funext a; apply Fin.ext
  match a with
  | ⟨0, _⟩ => show win3_3.index t (0 : Fin 2) * 2048 + 1 * (j 0).val = (j 0).val; omega
  | ⟨1, _⟩ => show win3_3.index t (1 : Fin 2) * 4 + 1 * (j 1).val = (j 1).val; omega

/-- Window 4's block at the one point is its whole array. -/
theorem hot16Block (c : Dev nD) (t : Fin cfg3.N) : iblk3 V c 4 t = (V c main_v78 : Vec Ideal S2048x16 .f32) := by
  obtain ⟨-, -, -, -, ⟨e0, e1⟩, -, -, -, -, -, -, -, -, -⟩ := blockIndex_zero t
  funext j
  show V c main_v78 (((cfg3.win 4).blk t).view.emb j) = V c main_v78 j
  refine congrArg (V c main_v78) ?_
  funext a; apply Fin.ext
  match a with
  | ⟨0, _⟩ => show win3_4.index t (0 : Fin 2) * 2048 + 1 * (j 0).val = (j 0).val; omega
  | ⟨1, _⟩ => show win3_4.index t (1 : Fin 2) * 16 + 1 * (j 1).val = (j 1).val; omega

/-- Window 5's block at the one point is its whole array. -/
theorem table12Block (c : Dev nD) (t : Fin cfg3.N) : iblk3 V c 5 t = (V c main_arg7 : Vec Ideal S12x16 .f32) := by
  obtain ⟨-, -, -, -, -, ⟨e0, e1⟩, -, -, -, -, -, -, -, -⟩ := blockIndex_zero t
  funext j
  show V c main_arg7 (((cfg3.win 5).blk t).view.emb j) = V c main_arg7 j
  refine congrArg (V c main_arg7) ?_
  funext a; apply Fin.ext
  match a with
  | ⟨0, _⟩ => show win3_5.index t (0 : Fin 2) * 12 + 1 * (j 0).val = (j 0).val; omega
  | ⟨1, _⟩ => show win3_5.index t (1 : Fin 2) * 16 + 1 * (j 1).val = (j 1).val; omega

/-- Window 6's block at the one point is its whole array. -/
theorem table23Block (c : Dev nD) (t : Fin cfg3.N) : iblk3 V c 6 t = (V c main_arg8 : Vec Ideal S23x16 .f32) := by
  obtain ⟨-, -, -, -, -, -, ⟨e0, e1⟩, -, -, -, -, -, -, -⟩ := blockIndex_zero t
  funext j
  show V c main_arg8 (((cfg3.win 6).blk t).view.emb j) = V c main_arg8 j
  refine congrArg (V c main_arg8) ?_
  funext a; apply Fin.ext
  match a with
  | ⟨0, _⟩ => show win3_6.index t (0 : Fin 2) * 23 + 1 * (j 0).val = (j 0).val; omega
  | ⟨1, _⟩ => show win3_6.index t (1 : Fin 2) * 16 + 1 * (j 1).val = (j 1).val; omega

/-- Window 7's block at the one point is its whole array. -/
theorem table4Block (c : Dev nD) (t : Fin cfg3.N) : iblk3 V c 7 t = (V c main_arg9 : Vec Ideal S4x16 .f32) := by
  obtain ⟨-, -, -, -, -, -, -, ⟨e0, e1⟩, -, -, -, -, -, -⟩ := blockIndex_zero t
  funext j
  show V c main_arg9 (((cfg3.win 7).blk t).view.emb j) = V c main_arg9 j
  refine congrArg (V c main_arg9) ?_
  funext a; apply Fin.ext
  match a with
  | ⟨0, _⟩ => show win3_7.index t (0 : Fin 2) * 4 + 1 * (j 0).val = (j 0).val; omega
  | ⟨1, _⟩ => show win3_7.index t (1 : Fin 2) * 16 + 1 * (j 1).val = (j 1).val; omega

/-- Window 8's block at the one point is its whole array. -/
theorem table16Block (c : Dev nD) (t : Fin cfg3.N) : iblk3 V c 8 t = (V c main_arg10 : Vec Ideal S16x16 .f32) := by
  obtain ⟨-, -, -, -, -, -, -, -, ⟨e0, e1⟩, -, -, -, -, -⟩ := blockIndex_zero t
  funext j
  show V c main_arg10 (((cfg3.win 8).blk t).view.emb j) = V c main_arg10 j
  refine congrArg (V c main_arg10) ?_
  funext a; apply Fin.ext
  match a with
  | ⟨0, _⟩ => show win3_8.index t (0 : Fin 2) * 16 + 1 * (j 0).val = (j 0).val; omega
  | ⟨1, _⟩ => show win3_8.index t (1 : Fin 2) * 16 + 1 * (j 1).val = (j 1).val; omega

/-- Window 9's block at the one point is its whole array. -/
theorem weight1Block (c : Dev nD) (t : Fin cfg3.N) : iblk3 V c 9 t = (V c main_arg15 : Vec Ideal S128x64 .f32) := by
  obtain ⟨-, -, -, -, -, -, -, -, -, ⟨e0, e1⟩, -, -, -, -⟩ := blockIndex_zero t
  funext j
  show V c main_arg15 (((cfg3.win 9).blk t).view.emb j) = V c main_arg15 j
  refine congrArg (V c main_arg15) ?_
  funext a; apply Fin.ext
  match a with
  | ⟨0, _⟩ => show win3_9.index t (0 : Fin 2) * 128 + 1 * (j 0).val = (j 0).val; omega
  | ⟨1, _⟩ => show win3_9.index t (1 : Fin 2) * 64 + 1 * (j 1).val = (j 1).val; omega

/-- Window 10's block at the one point is its whole array. -/
theorem bias1Block (c : Dev nD) (t : Fin cfg3.N) : iblk3 V c 10 t = (V c main_v79 : Vec Ideal S1x64 .f32) := by
  obtain ⟨-, -, -, -, -, -, -, -, -, -, ⟨e0, e1⟩, -, -, -⟩ := blockIndex_zero t
  funext j
  show V c main_v79 (((cfg3.win 10).blk t).view.emb j) = V c main_v79 j
  refine congrArg (V c main_v79) ?_
  funext a; apply Fin.ext
  match a with
  | ⟨0, _⟩ => show win3_10.index t (0 : Fin 2) * 1 + 1 * (j 0).val = (j 0).val; omega
  | ⟨1, _⟩ => show win3_10.index t (1 : Fin 2) * 64 + 1 * (j 1).val = (j 1).val; omega

/-- Window 11's block at the one point is its whole array. -/
theorem weight2Block (c : Dev nD) (t : Fin cfg3.N) : iblk3 V c 11 t = (V c main_arg17 : Vec Ideal S64x1 .f32) := by
  obtain ⟨-, -, -, -, -, -, -, -, -, -, -, ⟨e0, e1⟩, -, -⟩ := blockIndex_zero t
  funext j
  show V c main_arg17 (((cfg3.win 11).blk t).view.emb j) = V c main_arg17 j
  refine congrArg (V c main_arg17) ?_
  funext a; apply Fin.ext
  match a with
  | ⟨0, _⟩ => show win3_11.index t (0 : Fin 2) * 64 + 1 * (j 0).val = (j 0).val; omega
  | ⟨1, _⟩ => show win3_11.index t (1 : Fin 2) * 1 + 1 * (j 1).val = (j 1).val; omega

/-- Window 12's block at the one point is its whole array. -/
theorem bias2Block (c : Dev nD) (t : Fin cfg3.N) : iblk3 V c 12 t = (V c main_v80 : Vec Ideal S1x1 .f32) := by
  obtain ⟨-, -, -, -, -, -, -, -, -, -, -, -, ⟨e0, e1⟩, -⟩ := blockIndex_zero t
  funext j
  show V c main_v80 (((cfg3.win 12).blk t).view.emb j) = V c main_v80 j
  refine congrArg (V c main_v80) ?_
  funext a; apply Fin.ext
  match a with
  | ⟨0, _⟩ => show win3_12.index t (0 : Fin 2) * 1 + 1 * (j 0).val = (j 0).val; omega
  | ⟨1, _⟩ => show win3_12.index t (1 : Fin 2) * 1 + 1 * (j 1).val = (j 1).val; omega

/-- The output window's block at the one point is the whole output array: read through it, an array is itself. -/
theorem outBlock_read (t : Fin cfg3.N) (G : FVec Ideal S2048x1 .f32) :
    ((cfg3.win 13).blk t).view.read (Elt Ideal) G = G := by
  obtain ⟨-, -, -, -, -, -, -, -, -, -, -, -, -, ⟨e0, e1⟩⟩ := blockIndex_zero t
  funext j
  show G (((cfg3.win 13).blk t).view.emb j) = G j
  refine congrArg G ?_
  funext a; apply Fin.ext
  match a with
  | ⟨0, _⟩ => show win3_13.index t (0 : Fin 2) * 2048 + 1 * (j 0).val = (j 0).val; omega
  | ⟨1, _⟩ => show win3_13.index t (1 : Fin 2) * 1 + 1 * (j 1).val = (j 1).val; omega

/-! ## What the one point writes back, and the array after the run -/

/-- What the point writes back is the head of the arrays as the region found them, read through the output's block. -/
theorem written_eq (c : Dev nD) (t : Fin cfg3.N) :
    (dat3 (F := Ideal) V c).flushed 13 t
      = ((cfg3.win 13).blk t).view.read (Elt Ideal) (Spec.head (V c main_v70)
          (ohmm12 (V c main_v75) (V c main_arg7)) (ohmm23 (V c main_v76) (V c main_arg8))
          (ohmm4 (V c main_v77) (V c main_arg9)) (ohmm16 (V c main_v78) (V c main_arg10))
          (V c main_arg15) (V c main_v79) (V c main_arg17) (V c main_v80)) := by
  show (cfg3.win 13).cut (grid3.coords t) ((dat3 (F := Ideal) V c).after 13 t) = _
  rw [after3_13]
  unfold out3_13
  rw [View.canon_unit_zero zeroOffsets]
  simp only [View.ld_unit_zero (S := S2048x64) zeroOffsets,
    View.ld_unit_zero (S := S2048x12) zeroOffsets,
    View.ld_unit_zero (S := S2048x23) zeroOffsets,
    View.ld_unit_zero (S := S2048x4) zeroOffsets,
    View.ld_unit_zero (S := S2048x16) zeroOffsets,
    View.ld_unit_zero (S := S12x16) zeroOffsets,
    View.ld_unit_zero (S := S23x16) zeroOffsets,
    View.ld_unit_zero (S := S4x16) zeroOffsets,
    View.ld_unit_zero (S := S16x16) zeroOffsets,
    View.ld_unit_zero (S := S128x64) zeroOffsets,
    View.ld_unit_zero (S := S1x64) zeroOffsets,
    View.ld_unit_zero (S := S64x1) zeroOffsets,
    View.ld_unit_zero (S := S1x1) zeroOffsets,
    View.ld_unit_zero (S := S2048x1) zeroOffsets]
  rw [outBlock_read]
  rw [pooledBlock V c t, hot12Block V c t, hot23Block V c t, hot4Block V c t, hot16Block V c t, table12Block V c t, table23Block V c t, table4Block V c t, table16Block V c t, weight1Block V c t, bias1Block V c t, weight2Block V c t, bias2Block V c t]
  exact payload_eq (V c main_v75) (V c main_arg7) (V c main_v76) (V c main_arg8) (V c main_v77) (V c main_arg9)
    (V c main_v78) (V c main_arg10) (V c main_v70) (V c main_arg15) (V c main_v79) (V c main_arg17) (V c main_v80)

/-- Every index of the output array is in the one point's block: on each axis the block starts at zero and has the
    array's extent. -/
theorem mem_outBlock (t : Fin cfg3.N) (i : S2048x1.Idx) : i ∈ ((cfg3.win 13).blk t).view.set := by
  obtain ⟨-, -, -, -, -, -, -, -, -, -, -, -, -, ⟨e0, e1⟩⟩ := blockIndex_zero t
  show i ∈ ((View.whole main_v81).slice (win3_13.rect t)).set
  rw [View.set_slice_whole, Rect.mem_set_unit]
  intro a
  match a with
  | ⟨0, _⟩ =>
    show win3_13.index t (0 : Fin 2) * 2048 ≤ (i 0).val ∧ (i 0).val < win3_13.index t (0 : Fin 2) * 2048 + 2048
    have h : (i 0).val < 2048 := (i 0).isLt
    omega
  | ⟨1, _⟩ =>
    show win3_13.index t (1 : Fin 2) * 1 ≤ (i 1).val ∧ (i 1).val < win3_13.index t (1 : Fin 2) * 1 + 1
    have h : (i 1).val < 1 := (i 1).isLt
    omega

/-- After the run of the region, its output array is the head of the pooled features and the four products the kernel
    forms from its one-hot inputs and the embedding tables, all as the region found them. -/
theorem final3 (c : Dev nD) :
    (dat3 (F := Ideal) V c).arrAt 13 cfg3.N
      = Spec.head (V c main_v70)
          (ohmm12 (V c main_v75) (V c main_arg7)) (ohmm23 (V c main_v76) (V c main_arg8))
          (ohmm4 (V c main_v77) (V c main_arg9)) (ohmm16 (V c main_v78) (V c main_arg10))
          (V c main_arg15) (V c main_v79) (V c main_arg17) (V c main_v80) :=
  (dat3 (F := Ideal) V c).arrAt_eq_of_cover 13 _ (fun t _ => written_eq V c t)
    (fun i => ⟨t3_0, flush3_13 t3_0, mem_outBlock t3_0 i⟩)

end Cert.Bridge.Reg3

end
-- ==== Proof.OneHot.lean ====
/-
  A one-hot row times a table is the table's row: for a non-negative index `i`, the row `g` of
  `oneHotN (clipIdx (N-1) idx)` has its single 1 at column min(i, N-1), so its product with an `[N, 16]` table is the table's
  row min(i, N-1) — which is what the reference's gather reads, since a non-negative index is not wrapped and the gather
  clamps it into `[0, N-1]`.

  The file goes: the facts about 32-bit words (a non-negative word clipped into `[0, hi]`, the wrap that leaves it alone,
  the equality bit widened to a float); the sum of an indicator row against a column; then, for each of the four tables,
  the product read at an index as a sum over the table's rows, the one-hot entry, the gather's operand index on each of
  the table's two axes, and the equation of the two sides at every `(g, c)`.
-/
import proofs.«401907_j73160472920253_2_alg».proof.Proof.HeadDefs
import proofs.«401907_j73160472920253_2_alg».proof.Proof.Gen.ReferenceIdeal.Read
import Idealize.ShloMosaic.Lib.ValueIdx
import Idealize.ShloMosaic.Lib.ValueLayout
import Idealize.ShloMosaic.PureOps.Ideal.Laws

set_option maxRecDepth 16384

noncomputable section

namespace Cert.Bridge.OneHot

open Idealize.ShloMosaic Cert.Bridge
open Idealize.ShloMosaic.ValueIdx
open Cert.KernelIdeal Cert.KernelIdeal.Facts₀ Cert.KernelIdeal.Facts
open scoped BigOperators

/-! ## Words -/

/-- A word whose signed value is not negative has that value as its unsigned one, below 2³¹. -/
theorem toInt_nonneg_facts (w : BitVec 32) (hw : 0 ≤ w.toInt) : w.toInt = (w.toNat : Int) ∧ w.toNat < 2 ^ 31 := by
  have h1 := BitVec.toInt_eq_toNat_cond w
  have h2 := w.isLt
  split at h1 <;> omega

/-- A non-negative word is not below zero as a signed word. -/
theorem slt_zero_of_nonneg (w : BitVec 32) (hw : 0 ≤ w.toInt) : w.slt 0#32 = false := by
  rw [BitVec.slt_eq_decide]
  exact decide_eq_false (by simpa using hw)

/-- A non-negative word clipped into `[0, hi]` is the word of the smaller of its value and `hi`. -/
theorem clip_word (w : BitVec 32) (hi : Nat) (hhi : hi < 2 ^ 31) (hw : 0 ≤ w.toInt) :
    IntOp.minsi (BitVec.ofNat 32 hi) (IntOp.maxsi 0#32 w) = BitVec.ofNat 32 (min w.toInt.toNat hi) := by
  obtain ⟨e, hlt⟩ := toInt_nonneg_facts w hw
  unfold IntOp.minsi IntOp.maxsi
  rw [slt_zero_of_nonneg w hw]
  simp only [Bool.false_eq_true, if_false]
  have hhiI : (BitVec.ofNat 32 hi).toInt = (hi : Int) := by
    have h1 := BitVec.toInt_eq_toNat_cond (BitVec.ofNat 32 hi)
    rw [BitVec.toNat_ofNat] at h1
    have h3 : hi % 2 ^ 32 = hi := Nat.mod_eq_of_lt (by omega)
    rw [h3] at h1
    split at h1 <;> omega
  rw [BitVec.slt_eq_decide, hhiI, e]
  by_cases hc : (hi : Int) < (w.toNat : Int)
  · rw [decide_eq_true hc, if_pos rfl]
    congr 1
    omega
  · rw [decide_eq_false hc, if_neg (by decide)]
    apply BitVec.eq_of_toNat_eq
    rw [BitVec.toNat_ofNat]
    omega

/-- The wrap of a negative index leaves a non-negative one alone. -/
theorem wrap_word (w n : BitVec 32) (hw : 0 ≤ w.toInt) :
    Scalar.select (IntOp.cmpi .slt w 0#32) (IntOp.addi w n) w = w := by
  have : IntOp.cmpi .slt w 0#32 = 0#1 := by
    show BitVec.ofBool (w.slt 0#32) = 0#1
    rw [slt_zero_of_nonneg w hw]; rfl
  rw [this]
  exact select_zero _ _

/-- The one-bit equality test widened to a float is 1 where the words agree and 0 elsewhere. -/
theorem uitofp_cmpi_eq (a b : BitVec 32) :
    (FloatOps.uitofp (F := Ideal) .f32 (IntOp.cmpi .eq a b)) = if a = b then (1 : EReal) else 0 := by
  show (((IntOp.cmpi .eq a b).toNat : ℝ) : EReal) = _
  by_cases h : a = b
  · rw [if_pos h]
    have : IntOp.cmpi .eq a b = 1#1 := by
      show BitVec.ofBool (a == b) = 1#1
      rw [beq_iff_eq.mpr h]; rfl
    rw [this]
    show (((1 : Nat) : ℝ) : EReal) = 1
    rw [Nat.cast_one, EReal.coe_one]
  · rw [if_neg h]
    have : IntOp.cmpi .eq a b = 0#1 := by
      show BitVec.ofBool (a == b) = 0#1
      have : (a == b) = false := by simpa using h
      rw [this]; rfl
    rw [this]
    show (((0 : Nat) : ℝ) : EReal) = 0
    rw [Nat.cast_zero, EReal.coe_zero]

/-! ## A one-hot row against a column -/

/-- A sum against an indicator keeps the one term it marks: if `w` is the word of `m < N`, the sum over `l < N` of
    `[w = word of l] · f l` is `f m` (on the extended reals `0 · x = 0` and `1 · x = x`). -/
theorem sum_onehot {N : Nat} (hN : N ≤ 2 ^ 32) (m : Nat) (hm : m < N) (w : BitVec 32) (hw : w = BitVec.ofNat 32 m)
    (f : Fin N → EReal) :
    ∑ l : Fin N, (if w = BitVec.ofNat 32 l.val then (1 : EReal) else 0) * f l = f ⟨m, hm⟩ := by
  rw [Finset.sum_eq_single (⟨m, hm⟩ : Fin N)]
  · rw [if_pos hw, one_mul]
  · intro l _ hl
    rw [if_neg, zero_mul]
    intro e
    apply hl
    apply Fin.ext
    have h1 := congrArg BitVec.toNat (hw.symm.trans e)
    have h2 := l.isLt
    simp only [BitVec.toNat_ofNat] at h1
    show l.val = m
    omega
  · intro hn
    exact absurd (Finset.mem_univ _) hn

/-- The clipped index at row `g`, for a non-negative index: the word of the smaller of the index and `hi`. -/
theorem clipIdx_apply (hi : Nat) (hhi : hi < 2 ^ 31) (idx : IVec S2048 32) (g : Fin 2048) (hg : 0 ≤ (idx (ix1 g)).toInt) :
    clipIdx (BitVec.ofNat 32 hi) idx (ix1 g) = BitVec.ofNat 32 (min (idx (ix1 g)).toInt.toNat hi) := by
  show IntOp.minsi (BitVec.ofNat 32 hi) (IntOp.maxsi 0#32 (idx (ix1 g))) = _
  exact clip_word _ hi hhi hg

/-! ## The 12-row table -/

/-- The left operand's index at output `i` and contraction position `q`: its row is `i`'s row … -/
theorem lhs12_0 (i : S2048x16.Idx) (q : dot_S2048x12_S12x16_S2048x16_1_0_0_1_n_n.contr.Idx) :
    (dot_S2048x12_S12x16_S2048x16_1_0_0_1_n_n.lhsIdx i q 0).val = (i 0).val := by
  unfold DotDims.lhsIdx
  rw [dif_neg (show ¬(0 : Fin S2048x12.rank) ∈ dot_S2048x12_S12x16_S2048x16_1_0_0_1_n_n.lhsBatch by decide), dif_pos (show (0 : Fin S2048x12.rank) ∈ dot_S2048x12_S12x16_S2048x16_1_0_0_1_n_n.lhsNonContracting by decide)]
  rfl
/-- … and its column the contraction position. -/
theorem lhs12_1 (i : S2048x16.Idx) (q : dot_S2048x12_S12x16_S2048x16_1_0_0_1_n_n.contr.Idx) :
    (dot_S2048x12_S12x16_S2048x16_1_0_0_1_n_n.lhsIdx i q 1).val = (q ⟨0, by decide⟩).val :=
  dot_S2048x12_S12x16_S2048x16_1_0_0_1_n_n.lhsIdx_val_of_single rfl i q
/-- The right operand's index: its row is the contraction position … -/
theorem rhs12_0 (i : S2048x16.Idx) (q : dot_S2048x12_S12x16_S2048x16_1_0_0_1_n_n.contr.Idx) :
    (dot_S2048x12_S12x16_S2048x16_1_0_0_1_n_n.rhsIdx i q 0).val = (q ⟨0, by decide⟩).val :=
  dot_S2048x12_S12x16_S2048x16_1_0_0_1_n_n.rhsIdx_val_of_single rfl i q
/-- … and its column `i`'s column. -/
theorem rhs12_1 (i : S2048x16.Idx) (q : dot_S2048x12_S12x16_S2048x16_1_0_0_1_n_n.contr.Idx) :
    (dot_S2048x12_S12x16_S2048x16_1_0_0_1_n_n.rhsIdx i q 1).val = (i 1).val := by
  unfold DotDims.rhsIdx
  rw [dif_neg (show ¬(1 : Fin S12x16.rank) ∈ dot_S2048x12_S12x16_S2048x16_1_0_0_1_n_n.rhsBatch by decide), dif_pos (show (1 : Fin S12x16.rank) ∈ dot_S2048x12_S12x16_S2048x16_1_0_0_1_n_n.rhsNonContracting by decide)]
  rfl

/-- The product read at `(g, c)`: the sum over the table's rows `l` of the left entry `(g, l)` times the table's `(l, c)`. -/
theorem ohmm12_apply (oh : FVec Ideal S2048x12 .f32) (emb : FVec Ideal S12x16 .f32) (g : Fin 2048) (c : Fin 16) :
    ohmm12 oh emb (ix2 g c) = ∑ l : Fin 12, oh (ix2 g l) * emb (ix2 l c) := by
  unfold ohmm12
  simp only [matmul]
  rw [Ideal.matmul_constant_zero_apply, ← Equiv.sum_comp (ValueIdx.contrEquiv1 dot_S2048x12_S12x16_S2048x16_1_0_0_1_n_n 12 rfl rfl).symm]
  refine Finset.sum_congr rfl fun k _ => ?_
  have hk := ValueIdx.contrEquiv1_symm_val dot_S2048x12_S12x16_S2048x16_1_0_0_1_n_n 12 rfl rfl k
  have el : dot_S2048x12_S12x16_S2048x16_1_0_0_1_n_n.lhsIdx (ix2 g c) ((ValueIdx.contrEquiv1 dot_S2048x12_S12x16_S2048x16_1_0_0_1_n_n 12 rfl rfl).symm k) = ix2 g k := funext fun a => Fin.ext (by
    match a with
    | ⟨0, _⟩ => exact lhs12_0 _ _
    | ⟨1, _⟩ => exact (lhs12_1 _ _).trans hk)
  have er : dot_S2048x12_S12x16_S2048x16_1_0_0_1_n_n.rhsIdx (ix2 g c) ((ValueIdx.contrEquiv1 dot_S2048x12_S12x16_S2048x16_1_0_0_1_n_n 12 rfl rfl).symm k) = ix2 k c := funext fun a => Fin.ext (by
    match a with
    | ⟨0, _⟩ => exact (rhs12_0 _ _).trans hk
    | ⟨1, _⟩ => exact rhs12_1 _ _)
  rw [truncf_apply, truncf_apply, el, er]

/-- The one-hot entry `(g, l)`: 1 where the word of row `g` is the word of `l`, else 0. -/
theorem oneHot12_apply (cw : IVec S2048 32) (g : Fin 2048) (l : Fin 12) :
    oneHot12 cw (ix2 g l) = if cw (ix1 g) = BitVec.ofNat 32 l.val then (1 : EReal) else 0 := by
  unfold oneHot12
  show FloatOps.uitofp (F := Ideal) .f32 (IntOp.cmpi .eq _ _) = _
  rw [uitofp_cmpi_eq]
  have e1 : broadcastInDim S2048x12 ![0, 1] bcast_S2048x1_S2048x12_0_1 (broadcastInDim S2048x1 ![0] bcast_S2048_S2048x1_0 cw) (ix2 g l) = cw (ix1 g) := by
    rw [broadcastInDim_apply _ bcast_S2048x1_S2048x12_0_1 _ (ix2 g l) (ix2 g (0 : Fin 1)) (fun a => match a with
      | ⟨0, _⟩ => by show g.val = if (2048 : Nat) = 1 then 0 else g.val; rw [if_neg (by decide)]
      | ⟨1, _⟩ => by show (0 : Nat) = if (1 : Nat) = 1 then 0 else l.val; rw [if_pos rfl])]
    exact broadcastInDim_apply _ bcast_S2048_S2048x1_0 cw (ix2 g (0 : Fin 1)) (ix1 g) (fun a => match a with
      | ⟨0, _⟩ => by show g.val = if (2048 : Nat) = 1 then 0 else g.val; rw [if_neg (by decide)])
  have e2 : broadcastInDim S2048x12 ![0, 1] bcast_S1x12_S2048x12_0_1 (iotaInDim S1x12 32 1) (ix2 g l) = BitVec.ofNat 32 l.val := by
    rw [broadcastInDim_apply _ bcast_S1x12_S2048x12_0_1 _ (ix2 g l) (ix2 (0 : Fin 1) l) (fun a => match a with
      | ⟨0, _⟩ => by show (0 : Nat) = if (1 : Nat) = 1 then 0 else g.val; rw [if_pos rfl]
      | ⟨1, _⟩ => by show l.val = if (12 : Nat) = 1 then 0 else l.val; rw [if_neg (by decide)])]
    rfl
  rw [e1, e2]

/-! ### The reference's gather from the 12-row table -/

/-- On the table's row axis the gather's operand index is the start index of the result's row, read signed and clamped
    so that the one-row slice fits: the axis is collapsed (no offset) and there is no batching axis. -/
theorem gidx12_0 (si : IVec S2048x1 32) (j : S2048x16.Idx) :
    (Cert.ReferenceIdeal.gather_S12x16_S2048x1_S2048x16_1_0_n_n_0_1_116.operandIdx j si 0).val
      = min (si (ix2 (j 0) (0 : Fin 1))).toInt.toNat (12 - 1) := by
  show Cert.ReferenceIdeal.gather_S12x16_S2048x1_S2048x16_1_0_n_n_0_1_116.start j si 0
    + Cert.ReferenceIdeal.gather_S12x16_S2048x1_S2048x16_1_0_n_n_0_1_116.batchCoord j 0
    + Cert.ReferenceIdeal.gather_S12x16_S2048x1_S2048x16_1_0_n_n_0_1_116.offCoord j 0 = _
  rw [GatherDims.batchCoord_eq_zero Cert.ReferenceIdeal.gather_S12x16_S2048x1_S2048x16_1_0_n_n_0_1_116 _ _ List.not_mem_nil,
    GatherDims.offCoord_eq_zero Cert.ReferenceIdeal.gather_S12x16_S2048x1_S2048x16_1_0_n_n_0_1_116 _ _ (by decide)]
  simp only [Nat.add_zero]
  unfold GatherDims.start
  rw [dif_pos (show (0 : Fin Cert.ReferenceIdeal.S12x16.rank) ∈ Cert.ReferenceIdeal.gather_S12x16_S2048x1_S2048x16_1_0_n_n_0_1_116.startIndexMap from List.mem_singleton.mpr rfl)]
  have hsi : Cert.ReferenceIdeal.gather_S12x16_S2048x1_S2048x16_1_0_n_n_0_1_116.siIdx j
      ⟨List.idxOf (0 : Fin Cert.ReferenceIdeal.S12x16.rank) Cert.ReferenceIdeal.gather_S12x16_S2048x1_S2048x16_1_0_n_n_0_1_116.startIndexMap,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the start is 0 (the start index names the row axis only) and the offset is the result's
    column. -/
theorem gidx12_1 (si : IVec S2048x1 32) (j : S2048x16.Idx) :
    (Cert.ReferenceIdeal.gather_S12x16_S2048x1_S2048x16_1_0_n_n_0_1_116.operandIdx j si 1).val = (j 1).val := by
  show Cert.ReferenceIdeal.gather_S12x16_S2048x1_S2048x16_1_0_n_n_0_1_116.start j si 1
    + Cert.ReferenceIdeal.gather_S12x16_S2048x1_S2048x16_1_0_n_n_0_1_116.batchCoord j 1
    + Cert.ReferenceIdeal.gather_S12x16_S2048x1_S2048x16_1_0_n_n_0_1_116.offCoord j 1 = _
  rw [GatherDims.batchCoord_eq_zero Cert.ReferenceIdeal.gather_S12x16_S2048x1_S2048x16_1_0_n_n_0_1_116 _ _ List.not_mem_nil]
  unfold GatherDims.start
  rw [dif_neg (show ¬(1 : Fin Cert.ReferenceIdeal.S12x16.rank) ∈ Cert.ReferenceIdeal.gather_S12x16_S2048x1_S2048x16_1_0_n_n_0_1_116.startIndexMap by decide)]
  unfold GatherDims.offCoord
  rw [dif_pos (show (1 : Fin Cert.ReferenceIdeal.S12x16.rank) ∈ Cert.ReferenceIdeal.gather_S12x16_S2048x1_S2048x16_1_0_n_n_0_1_116.sKept by decide)]
  simp only [Nat.add_zero, Nat.zero_add]
  rfl

/-- The gather read at `(g, c)`: the table's row at the start index of row `g`, read signed and clamped into the table,
    at column `c`. -/
theorem gather12_apply (x : FVec Ideal S12x16 .f32) (si : IVec S2048x1 32) (g : Fin 2048) (c : Fin 16) :
    Host.gather Cert.ReferenceIdeal.gather_S12x16_S2048x1_S2048x16_1_0_n_n_0_1_116 x si (ix2 g c)
      = x (ix2 (⟨min (si (ix2 g (0 : Fin 1))).toInt.toNat (12 - 1), by omega⟩ : Fin 12) c) := by
  unfold Host.gather
  refine congrArg x (funext fun a => Fin.ext ?_)
  match a with
  | ⟨0, _⟩ => exact gidx12_0 si (ix2 g c)
  | ⟨1, _⟩ => exact gidx12_1 si (ix2 g c)

/-- The reference's wrapped index at row `g` is the index itself when that is not negative. -/
theorem wrapped12_apply (idx : IVec S2048 32) (g : Fin 2048) (hg : 0 ≤ (idx (ix1 g)).toInt) :
    Cert.ReferenceIdeal.Read.val_main_v107 (F := Ideal) idx (ix2 g (0 : Fin 1)) = idx (ix1 g) := by
  rw [Cert.ReferenceIdeal.Read.val_main_v107_apply]
  have e : Cert.ReferenceIdeal.Read.idx_main_v107 (ix2 g (0 : Fin 1)) = ix1 g := by
    funext a; match a with | ⟨0, _⟩ => rfl
  rw [e, Cert.ReferenceIdeal.Read.val_main_v106_apply]
  show Scalar.select (IntOp.cmpi .slt (idx (ix1 g)) 0#32) (IntOp.addi (idx (ix1 g)) 12#32) (idx (ix1 g)) = _
  exact wrap_word _ _ hg

/-- The ligand table (12 rows). -/
theorem ohmm12_eq (idx : IVec Cert.KernelIdeal.S2048 32) (emb : FVec Ideal Cert.KernelIdeal.S12x16 .f32)
    (h : ∀ g : Cert.KernelIdeal.S2048.Idx, 0 ≤ (idx g).toInt) :
    ohmm12 (oneHot12 (clipIdx 11#32 idx)) emb = Cert.ReferenceIdeal.Read.val_main_v108 (F := Ideal) idx emb := by
  funext j
  obtain ⟨g, c, rfl⟩ : ∃ (g : Fin 2048) (c : Fin 16), j = ix2 g c := ⟨j 0, j 1, eq_ix2 j⟩
  have hg : 0 ≤ (idx (ix1 g)).toInt := h (ix1 g)
  have hm : min (idx (ix1 g)).toInt.toNat 11 < 12 := by omega
  -- the kernel's side: the one-hot row keeps the table's row min(i, 11)
  have hl : ohmm12 (oneHot12 (clipIdx 11#32 idx)) emb (ix2 g c)
      = emb (ix2 (⟨min (idx (ix1 g)).toInt.toNat 11, hm⟩ : Fin 12) c) := by
    rw [ohmm12_apply]
    rw [Finset.sum_congr rfl (fun l _ => by rw [oneHot12_apply])]
    exact sum_onehot (by norm_num) _ hm _ (clipIdx_apply 11 (by norm_num) idx g hg) (fun l => emb (ix2 l c))
  -- the reference's side: the gather clamps the unwrapped index into the table
  have hr : Cert.ReferenceIdeal.Read.val_main_v108 (F := Ideal) idx emb (ix2 g c)
      = emb (ix2 (⟨min (idx (ix1 g)).toInt.toNat 11, hm⟩ : Fin 12) c) := by
    unfold Cert.ReferenceIdeal.Read.val_main_v108
    rw [gather12_apply]
    refine congrArg emb (congrArg (fun r : Fin 12 => ix2 r c) (Fin.ext ?_))
    show min (Cert.ReferenceIdeal.Read.val_main_v107 (F := Ideal) idx (ix2 g (0 : Fin 1))).toInt.toNat (12 - 1) = min (idx (ix1 g)).toInt.toNat 11
    rw [wrapped12_apply idx g hg]
  rw [hl, hr]

/-! ## The 23-row table -/

/-- The left operand's index at output `i` and contraction position `q`: its row is `i`'s row … -/
theorem lhs23_0 (i : S2048x16.Idx) (q : dot_S2048x23_S23x16_S2048x16_1_0_0_1_n_n.contr.Idx) :
    (dot_S2048x23_S23x16_S2048x16_1_0_0_1_n_n.lhsIdx i q 0).val = (i 0).val := by
  unfold DotDims.lhsIdx
  rw [dif_neg (show ¬(0 : Fin S2048x23.rank) ∈ dot_S2048x23_S23x16_S2048x16_1_0_0_1_n_n.lhsBatch by decide), dif_pos (show (0 : Fin S2048x23.rank) ∈ dot_S2048x23_S23x16_S2048x16_1_0_0_1_n_n.lhsNonContracting by decide)]
  rfl
/-- … and its column the contraction position. -/
theorem lhs23_1 (i : S2048x16.Idx) (q : dot_S2048x23_S23x16_S2048x16_1_0_0_1_n_n.contr.Idx) :
    (dot_S2048x23_S23x16_S2048x16_1_0_0_1_n_n.lhsIdx i q 1).val = (q ⟨0, by decide⟩).val :=
  dot_S2048x23_S23x16_S2048x16_1_0_0_1_n_n.lhsIdx_val_of_single rfl i q
/-- The right operand's index: its row is the contraction position … -/
theorem rhs23_0 (i : S2048x16.Idx) (q : dot_S2048x23_S23x16_S2048x16_1_0_0_1_n_n.contr.Idx) :
    (dot_S2048x23_S23x16_S2048x16_1_0_0_1_n_n.rhsIdx i q 0).val = (q ⟨0, by decide⟩).val :=
  dot_S2048x23_S23x16_S2048x16_1_0_0_1_n_n.rhsIdx_val_of_single rfl i q
/-- … and its column `i`'s column. -/
theorem rhs23_1 (i : S2048x16.Idx) (q : dot_S2048x23_S23x16_S2048x16_1_0_0_1_n_n.contr.Idx) :
    (dot_S2048x23_S23x16_S2048x16_1_0_0_1_n_n.rhsIdx i q 1).val = (i 1).val := by
  unfold DotDims.rhsIdx
  rw [dif_neg (show ¬(1 : Fin S23x16.rank) ∈ dot_S2048x23_S23x16_S2048x16_1_0_0_1_n_n.rhsBatch by decide), dif_pos (show (1 : Fin S23x16.rank) ∈ dot_S2048x23_S23x16_S2048x16_1_0_0_1_n_n.rhsNonContracting by decide)]
  rfl

/-- The product read at `(g, c)`: the sum over the table's rows `l` of the left entry `(g, l)` times the table's `(l, c)`. -/
theorem ohmm23_apply (oh : FVec Ideal S2048x23 .f32) (emb : FVec Ideal S23x16 .f32) (g : Fin 2048) (c : Fin 16) :
    ohmm23 oh emb (ix2 g c) = ∑ l : Fin 23, oh (ix2 g l) * emb (ix2 l c) := by
  unfold ohmm23
  simp only [matmul]
  rw [Ideal.matmul_constant_zero_apply, ← Equiv.sum_comp (ValueIdx.contrEquiv1 dot_S2048x23_S23x16_S2048x16_1_0_0_1_n_n 23 rfl rfl).symm]
  refine Finset.sum_congr rfl fun k _ => ?_
  have hk := ValueIdx.contrEquiv1_symm_val dot_S2048x23_S23x16_S2048x16_1_0_0_1_n_n 23 rfl rfl k
  have el : dot_S2048x23_S23x16_S2048x16_1_0_0_1_n_n.lhsIdx (ix2 g c) ((ValueIdx.contrEquiv1 dot_S2048x23_S23x16_S2048x16_1_0_0_1_n_n 23 rfl rfl).symm k) = ix2 g k := funext fun a => Fin.ext (by
    match a with
    | ⟨0, _⟩ => exact lhs23_0 _ _
    | ⟨1, _⟩ => exact (lhs23_1 _ _).trans hk)
  have er : dot_S2048x23_S23x16_S2048x16_1_0_0_1_n_n.rhsIdx (ix2 g c) ((ValueIdx.contrEquiv1 dot_S2048x23_S23x16_S2048x16_1_0_0_1_n_n 23 rfl rfl).symm k) = ix2 k c := funext fun a => Fin.ext (by
    match a with
    | ⟨0, _⟩ => exact (rhs23_0 _ _).trans hk
    | ⟨1, _⟩ => exact rhs23_1 _ _)
  rw [truncf_apply, truncf_apply, el, er]

/-- The one-hot entry `(g, l)`: 1 where the word of row `g` is the word of `l`, else 0. -/
theorem oneHot23_apply (cw : IVec S2048 32) (g : Fin 2048) (l : Fin 23) :
    oneHot23 cw (ix2 g l) = if cw (ix1 g) = BitVec.ofNat 32 l.val then (1 : EReal) else 0 := by
  unfold oneHot23
  show FloatOps.uitofp (F := Ideal) .f32 (IntOp.cmpi .eq _ _) = _
  rw [uitofp_cmpi_eq]
  have e1 : broadcastInDim S2048x23 ![0, 1] bcast_S2048x1_S2048x23_0_1 (broadcastInDim S2048x1 ![0] bcast_S2048_S2048x1_0 cw) (ix2 g l) = cw (ix1 g) := by
    rw [broadcastInDim_apply _ bcast_S2048x1_S2048x23_0_1 _ (ix2 g l) (ix2 g (0 : Fin 1)) (fun a => match a with
      | ⟨0, _⟩ => by show g.val = if (2048 : Nat) = 1 then 0 else g.val; rw [if_neg (by decide)]
      | ⟨1, _⟩ => by show (0 : Nat) = if (1 : Nat) = 1 then 0 else l.val; rw [if_pos rfl])]
    exact broadcastInDim_apply _ bcast_S2048_S2048x1_0 cw (ix2 g (0 : Fin 1)) (ix1 g) (fun a => match a with
      | ⟨0, _⟩ => by show g.val = if (2048 : Nat) = 1 then 0 else g.val; rw [if_neg (by decide)])
  have e2 : broadcastInDim S2048x23 ![0, 1] bcast_S1x23_S2048x23_0_1 (iotaInDim S1x23 32 1) (ix2 g l) = BitVec.ofNat 32 l.val := by
    rw [broadcastInDim_apply _ bcast_S1x23_S2048x23_0_1 _ (ix2 g l) (ix2 (0 : Fin 1) l) (fun a => match a with
      | ⟨0, _⟩ => by show (0 : Nat) = if (1 : Nat) = 1 then 0 else g.val; rw [if_pos rfl]
      | ⟨1, _⟩ => by show l.val = if (23 : Nat) = 1 then 0 else l.val; rw [if_neg (by decide)])]
    rfl
  rw [e1, e2]

/-! ### The reference's gather from the 23-row table -/

/-- On the table's row axis the gather's operand index is the start index of the result's row, read signed and clamped
    so that the one-row slice fits: the axis is collapsed (no offset) and there is no batching axis. -/
theorem gidx23_0 (si : IVec S2048x1 32) (j : S2048x16.Idx) :
    (Cert.ReferenceIdeal.gather_S23x16_S2048x1_S2048x16_1_0_n_n_0_1_116.operandIdx j si 0).val
      = min (si (ix2 (j 0) (0 : Fin 1))).toInt.toNat (23 - 1) := by
  show Cert.ReferenceIdeal.gather_S23x16_S2048x1_S2048x16_1_0_n_n_0_1_116.start j si 0
    + Cert.ReferenceIdeal.gather_S23x16_S2048x1_S2048x16_1_0_n_n_0_1_116.batchCoord j 0
    + Cert.ReferenceIdeal.gather_S23x16_S2048x1_S2048x16_1_0_n_n_0_1_116.offCoord j 0 = _
  rw [GatherDims.batchCoord_eq_zero Cert.ReferenceIdeal.gather_S23x16_S2048x1_S2048x16_1_0_n_n_0_1_116 _ _ List.not_mem_nil,
    GatherDims.offCoord_eq_zero Cert.ReferenceIdeal.gather_S23x16_S2048x1_S2048x16_1_0_n_n_0_1_116 _ _ (by decide)]
  simp only [Nat.add_zero]
  unfold GatherDims.start
  rw [dif_pos (show (0 : Fin Cert.ReferenceIdeal.S23x16.rank) ∈ Cert.ReferenceIdeal.gather_S23x16_S2048x1_S2048x16_1_0_n_n_0_1_116.startIndexMap from List.mem_singleton.mpr rfl)]
  have hsi : Cert.ReferenceIdeal.gather_S23x16_S2048x1_S2048x16_1_0_n_n_0_1_116.siIdx j
      ⟨List.idxOf (0 : Fin Cert.ReferenceIdeal.S23x16.rank) Cert.ReferenceIdeal.gather_S23x16_S2048x1_S2048x16_1_0_n_n_0_1_116.startIndexMap,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the start is 0 (the start index names the row axis only) and the offset is the result's
    column. -/
theorem gidx23_1 (si : IVec S2048x1 32) (j : S2048x16.Idx) :
    (Cert.ReferenceIdeal.gather_S23x16_S2048x1_S2048x16_1_0_n_n_0_1_116.operandIdx j si 1).val = (j 1).val := by
  show Cert.ReferenceIdeal.gather_S23x16_S2048x1_S2048x16_1_0_n_n_0_1_116.start j si 1
    + Cert.ReferenceIdeal.gather_S23x16_S2048x1_S2048x16_1_0_n_n_0_1_116.batchCoord j 1
    + Cert.ReferenceIdeal.gather_S23x16_S2048x1_S2048x16_1_0_n_n_0_1_116.offCoord j 1 = _
  rw [GatherDims.batchCoord_eq_zero Cert.ReferenceIdeal.gather_S23x16_S2048x1_S2048x16_1_0_n_n_0_1_116 _ _ List.not_mem_nil]
  unfold GatherDims.start
  rw [dif_neg (show ¬(1 : Fin Cert.ReferenceIdeal.S23x16.rank) ∈ Cert.ReferenceIdeal.gather_S23x16_S2048x1_S2048x16_1_0_n_n_0_1_116.startIndexMap by decide)]
  unfold GatherDims.offCoord
  rw [dif_pos (show (1 : Fin Cert.ReferenceIdeal.S23x16.rank) ∈ Cert.ReferenceIdeal.gather_S23x16_S2048x1_S2048x16_1_0_n_n_0_1_116.sKept by decide)]
  simp only [Nat.add_zero, Nat.zero_add]
  rfl

/-- The gather read at `(g, c)`: the table's row at the start index of row `g`, read signed and clamped into the table,
    at column `c`. -/
theorem gather23_apply (x : FVec Ideal S23x16 .f32) (si : IVec S2048x1 32) (g : Fin 2048) (c : Fin 16) :
    Host.gather Cert.ReferenceIdeal.gather_S23x16_S2048x1_S2048x16_1_0_n_n_0_1_116 x si (ix2 g c)
      = x (ix2 (⟨min (si (ix2 g (0 : Fin 1))).toInt.toNat (23 - 1), by omega⟩ : Fin 23) c) := by
  unfold Host.gather
  refine congrArg x (funext fun a => Fin.ext ?_)
  match a with
  | ⟨0, _⟩ => exact gidx23_0 si (ix2 g c)
  | ⟨1, _⟩ => exact gidx23_1 si (ix2 g c)

/-- The reference's wrapped index at row `g` is the index itself when that is not negative. -/
theorem wrapped23_apply (idx : IVec S2048 32) (g : Fin 2048) (hg : 0 ≤ (idx (ix1 g)).toInt) :
    Cert.ReferenceIdeal.Read.val_main_v114 (F := Ideal) idx (ix2 g (0 : Fin 1)) = idx (ix1 g) := by
  rw [Cert.ReferenceIdeal.Read.val_main_v114_apply]
  have e : Cert.ReferenceIdeal.Read.idx_main_v114 (ix2 g (0 : Fin 1)) = ix1 g := by
    funext a; match a with | ⟨0, _⟩ => rfl
  rw [e, Cert.ReferenceIdeal.Read.val_main_v113_apply]
  show Scalar.select (IntOp.cmpi .slt (idx (ix1 g)) 0#32) (IntOp.addi (idx (ix1 g)) 23#32) (idx (ix1 g)) = _
  exact wrap_word _ _ hg

/-- The additive table (23 rows). -/
theorem ohmm23_eq (idx : IVec Cert.KernelIdeal.S2048 32) (emb : FVec Ideal Cert.KernelIdeal.S23x16 .f32)
    (h : ∀ g : Cert.KernelIdeal.S2048.Idx, 0 ≤ (idx g).toInt) :
    ohmm23 (oneHot23 (clipIdx 22#32 idx)) emb = Cert.ReferenceIdeal.Read.val_main_v115 (F := Ideal) idx emb := by
  funext j
  obtain ⟨g, c, rfl⟩ : ∃ (g : Fin 2048) (c : Fin 16), j = ix2 g c := ⟨j 0, j 1, eq_ix2 j⟩
  have hg : 0 ≤ (idx (ix1 g)).toInt := h (ix1 g)
  have hm : min (idx (ix1 g)).toInt.toNat 22 < 23 := by omega
  -- the kernel's side: the one-hot row keeps the table's row min(i, 22)
  have hl : ohmm23 (oneHot23 (clipIdx 22#32 idx)) emb (ix2 g c)
      = emb (ix2 (⟨min (idx (ix1 g)).toInt.toNat 22, hm⟩ : Fin 23) c) := by
    rw [ohmm23_apply]
    rw [Finset.sum_congr rfl (fun l _ => by rw [oneHot23_apply])]
    exact sum_onehot (by norm_num) _ hm _ (clipIdx_apply 22 (by norm_num) idx g hg) (fun l => emb (ix2 l c))
  -- the reference's side: the gather clamps the unwrapped index into the table
  have hr : Cert.ReferenceIdeal.Read.val_main_v115 (F := Ideal) idx emb (ix2 g c)
      = emb (ix2 (⟨min (idx (ix1 g)).toInt.toNat 22, hm⟩ : Fin 23) c) := by
    unfold Cert.ReferenceIdeal.Read.val_main_v115
    rw [gather23_apply]
    refine congrArg emb (congrArg (fun r : Fin 23 => ix2 r c) (Fin.ext ?_))
    show min (Cert.ReferenceIdeal.Read.val_main_v114 (F := Ideal) idx (ix2 g (0 : Fin 1))).toInt.toNat (23 - 1) = min (idx (ix1 g)).toInt.toNat 22
    rw [wrapped23_apply idx g hg]
  rw [hl, hr]

/-! ## The 4-row table -/

/-- The left operand's index at output `i` and contraction position `q`: its row is `i`'s row … -/
theorem lhs4_0 (i : S2048x16.Idx) (q : dot_S2048x4_S4x16_S2048x16_1_0_0_1_n_n.contr.Idx) :
    (dot_S2048x4_S4x16_S2048x16_1_0_0_1_n_n.lhsIdx i q 0).val = (i 0).val := by
  unfold DotDims.lhsIdx
  rw [dif_neg (show ¬(0 : Fin S2048x4.rank) ∈ dot_S2048x4_S4x16_S2048x16_1_0_0_1_n_n.lhsBatch by decide), dif_pos (show (0 : Fin S2048x4.rank) ∈ dot_S2048x4_S4x16_S2048x16_1_0_0_1_n_n.lhsNonContracting by decide)]
  rfl
/-- … and its column the contraction position. -/
theorem lhs4_1 (i : S2048x16.Idx) (q : dot_S2048x4_S4x16_S2048x16_1_0_0_1_n_n.contr.Idx) :
    (dot_S2048x4_S4x16_S2048x16_1_0_0_1_n_n.lhsIdx i q 1).val = (q ⟨0, by decide⟩).val :=
  dot_S2048x4_S4x16_S2048x16_1_0_0_1_n_n.lhsIdx_val_of_single rfl i q
/-- The right operand's index: its row is the contraction position … -/
theorem rhs4_0 (i : S2048x16.Idx) (q : dot_S2048x4_S4x16_S2048x16_1_0_0_1_n_n.contr.Idx) :
    (dot_S2048x4_S4x16_S2048x16_1_0_0_1_n_n.rhsIdx i q 0).val = (q ⟨0, by decide⟩).val :=
  dot_S2048x4_S4x16_S2048x16_1_0_0_1_n_n.rhsIdx_val_of_single rfl i q
/-- … and its column `i`'s column. -/
theorem rhs4_1 (i : S2048x16.Idx) (q : dot_S2048x4_S4x16_S2048x16_1_0_0_1_n_n.contr.Idx) :
    (dot_S2048x4_S4x16_S2048x16_1_0_0_1_n_n.rhsIdx i q 1).val = (i 1).val := by
  unfold DotDims.rhsIdx
  rw [dif_neg (show ¬(1 : Fin S4x16.rank) ∈ dot_S2048x4_S4x16_S2048x16_1_0_0_1_n_n.rhsBatch by decide), dif_pos (show (1 : Fin S4x16.rank) ∈ dot_S2048x4_S4x16_S2048x16_1_0_0_1_n_n.rhsNonContracting by decide)]
  rfl

/-- The product read at `(g, c)`: the sum over the table's rows `l` of the left entry `(g, l)` times the table's `(l, c)`. -/
theorem ohmm4_apply (oh : FVec Ideal S2048x4 .f32) (emb : FVec Ideal S4x16 .f32) (g : Fin 2048) (c : Fin 16) :
    ohmm4 oh emb (ix2 g c) = ∑ l : Fin 4, oh (ix2 g l) * emb (ix2 l c) := by
  unfold ohmm4
  simp only [matmul]
  rw [Ideal.matmul_constant_zero_apply, ← Equiv.sum_comp (ValueIdx.contrEquiv1 dot_S2048x4_S4x16_S2048x16_1_0_0_1_n_n 4 rfl rfl).symm]
  refine Finset.sum_congr rfl fun k _ => ?_
  have hk := ValueIdx.contrEquiv1_symm_val dot_S2048x4_S4x16_S2048x16_1_0_0_1_n_n 4 rfl rfl k
  have el : dot_S2048x4_S4x16_S2048x16_1_0_0_1_n_n.lhsIdx (ix2 g c) ((ValueIdx.contrEquiv1 dot_S2048x4_S4x16_S2048x16_1_0_0_1_n_n 4 rfl rfl).symm k) = ix2 g k := funext fun a => Fin.ext (by
    match a with
    | ⟨0, _⟩ => exact lhs4_0 _ _
    | ⟨1, _⟩ => exact (lhs4_1 _ _).trans hk)
  have er : dot_S2048x4_S4x16_S2048x16_1_0_0_1_n_n.rhsIdx (ix2 g c) ((ValueIdx.contrEquiv1 dot_S2048x4_S4x16_S2048x16_1_0_0_1_n_n 4 rfl rfl).symm k) = ix2 k c := funext fun a => Fin.ext (by
    match a with
    | ⟨0, _⟩ => exact (rhs4_0 _ _).trans hk
    | ⟨1, _⟩ => exact rhs4_1 _ _)
  rw [truncf_apply, truncf_apply, el, er]

/-- The one-hot entry `(g, l)`: 1 where the word of row `g` is the word of `l`, else 0. -/
theorem oneHot4_apply (cw : IVec S2048 32) (g : Fin 2048) (l : Fin 4) :
    oneHot4 cw (ix2 g l) = if cw (ix1 g) = BitVec.ofNat 32 l.val then (1 : EReal) else 0 := by
  unfold oneHot4
  show FloatOps.uitofp (F := Ideal) .f32 (IntOp.cmpi .eq _ _) = _
  rw [uitofp_cmpi_eq]
  have e1 : broadcastInDim S2048x4 ![0, 1] bcast_S2048x1_S2048x4_0_1 (broadcastInDim S2048x1 ![0] bcast_S2048_S2048x1_0 cw) (ix2 g l) = cw (ix1 g) := by
    rw [broadcastInDim_apply _ bcast_S2048x1_S2048x4_0_1 _ (ix2 g l) (ix2 g (0 : Fin 1)) (fun a => match a with
      | ⟨0, _⟩ => by show g.val = if (2048 : Nat) = 1 then 0 else g.val; rw [if_neg (by decide)]
      | ⟨1, _⟩ => by show (0 : Nat) = if (1 : Nat) = 1 then 0 else l.val; rw [if_pos rfl])]
    exact broadcastInDim_apply _ bcast_S2048_S2048x1_0 cw (ix2 g (0 : Fin 1)) (ix1 g) (fun a => match a with
      | ⟨0, _⟩ => by show g.val = if (2048 : Nat) = 1 then 0 else g.val; rw [if_neg (by decide)])
  have e2 : broadcastInDim S2048x4 ![0, 1] bcast_S1x4_S2048x4_0_1 (iotaInDim S1x4 32 1) (ix2 g l) = BitVec.ofNat 32 l.val := by
    rw [broadcastInDim_apply _ bcast_S1x4_S2048x4_0_1 _ (ix2 g l) (ix2 (0 : Fin 1) l) (fun a => match a with
      | ⟨0, _⟩ => by show (0 : Nat) = if (1 : Nat) = 1 then 0 else g.val; rw [if_pos rfl]
      | ⟨1, _⟩ => by show l.val = if (4 : Nat) = 1 then 0 else l.val; rw [if_neg (by decide)])]
    rfl
  rw [e1, e2]

/-! ### The reference's gather from the 4-row table -/

/-- On the table's row axis the gather's operand index is the start index of the result's row, read signed and clamped
    so that the one-row slice fits: the axis is collapsed (no offset) and there is no batching axis. -/
theorem gidx4_0 (si : IVec S2048x1 32) (j : S2048x16.Idx) :
    (Cert.ReferenceIdeal.gather_S4x16_S2048x1_S2048x16_1_0_n_n_0_1_116.operandIdx j si 0).val
      = min (si (ix2 (j 0) (0 : Fin 1))).toInt.toNat (4 - 1) := by
  show Cert.ReferenceIdeal.gather_S4x16_S2048x1_S2048x16_1_0_n_n_0_1_116.start j si 0
    + Cert.ReferenceIdeal.gather_S4x16_S2048x1_S2048x16_1_0_n_n_0_1_116.batchCoord j 0
    + Cert.ReferenceIdeal.gather_S4x16_S2048x1_S2048x16_1_0_n_n_0_1_116.offCoord j 0 = _
  rw [GatherDims.batchCoord_eq_zero Cert.ReferenceIdeal.gather_S4x16_S2048x1_S2048x16_1_0_n_n_0_1_116 _ _ List.not_mem_nil,
    GatherDims.offCoord_eq_zero Cert.ReferenceIdeal.gather_S4x16_S2048x1_S2048x16_1_0_n_n_0_1_116 _ _ (by decide)]
  simp only [Nat.add_zero]
  unfold GatherDims.start
  rw [dif_pos (show (0 : Fin Cert.ReferenceIdeal.S4x16.rank) ∈ Cert.ReferenceIdeal.gather_S4x16_S2048x1_S2048x16_1_0_n_n_0_1_116.startIndexMap from List.mem_singleton.mpr rfl)]
  have hsi : Cert.ReferenceIdeal.gather_S4x16_S2048x1_S2048x16_1_0_n_n_0_1_116.siIdx j
      ⟨List.idxOf (0 : Fin Cert.ReferenceIdeal.S4x16.rank) Cert.ReferenceIdeal.gather_S4x16_S2048x1_S2048x16_1_0_n_n_0_1_116.startIndexMap,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the start is 0 (the start index names the row axis only) and the offset is the result's
    column. -/
theorem gidx4_1 (si : IVec S2048x1 32) (j : S2048x16.Idx) :
    (Cert.ReferenceIdeal.gather_S4x16_S2048x1_S2048x16_1_0_n_n_0_1_116.operandIdx j si 1).val = (j 1).val := by
  show Cert.ReferenceIdeal.gather_S4x16_S2048x1_S2048x16_1_0_n_n_0_1_116.start j si 1
    + Cert.ReferenceIdeal.gather_S4x16_S2048x1_S2048x16_1_0_n_n_0_1_116.batchCoord j 1
    + Cert.ReferenceIdeal.gather_S4x16_S2048x1_S2048x16_1_0_n_n_0_1_116.offCoord j 1 = _
  rw [GatherDims.batchCoord_eq_zero Cert.ReferenceIdeal.gather_S4x16_S2048x1_S2048x16_1_0_n_n_0_1_116 _ _ List.not_mem_nil]
  unfold GatherDims.start
  rw [dif_neg (show ¬(1 : Fin Cert.ReferenceIdeal.S4x16.rank) ∈ Cert.ReferenceIdeal.gather_S4x16_S2048x1_S2048x16_1_0_n_n_0_1_116.startIndexMap by decide)]
  unfold GatherDims.offCoord
  rw [dif_pos (show (1 : Fin Cert.ReferenceIdeal.S4x16.rank) ∈ Cert.ReferenceIdeal.gather_S4x16_S2048x1_S2048x16_1_0_n_n_0_1_116.sKept by decide)]
  simp only [Nat.add_zero, Nat.zero_add]
  rfl

/-- The gather read at `(g, c)`: the table's row at the start index of row `g`, read signed and clamped into the table,
    at column `c`. -/
theorem gather4_apply (x : FVec Ideal S4x16 .f32) (si : IVec S2048x1 32) (g : Fin 2048) (c : Fin 16) :
    Host.gather Cert.ReferenceIdeal.gather_S4x16_S2048x1_S2048x16_1_0_n_n_0_1_116 x si (ix2 g c)
      = x (ix2 (⟨min (si (ix2 g (0 : Fin 1))).toInt.toNat (4 - 1), by omega⟩ : Fin 4) c) := by
  unfold Host.gather
  refine congrArg x (funext fun a => Fin.ext ?_)
  match a with
  | ⟨0, _⟩ => exact gidx4_0 si (ix2 g c)
  | ⟨1, _⟩ => exact gidx4_1 si (ix2 g c)

/-- The reference's wrapped index at row `g` is the index itself when that is not negative. -/
theorem wrapped4_apply (idx : IVec S2048 32) (g : Fin 2048) (hg : 0 ≤ (idx (ix1 g)).toInt) :
    Cert.ReferenceIdeal.Read.val_main_v121 (F := Ideal) idx (ix2 g (0 : Fin 1)) = idx (ix1 g) := by
  rw [Cert.ReferenceIdeal.Read.val_main_v121_apply]
  have e : Cert.ReferenceIdeal.Read.idx_main_v121 (ix2 g (0 : Fin 1)) = ix1 g := by
    funext a; match a with | ⟨0, _⟩ => rfl
  rw [e, Cert.ReferenceIdeal.Read.val_main_v120_apply]
  show Scalar.select (IntOp.cmpi .slt (idx (ix1 g)) 0#32) (IntOp.addi (idx (ix1 g)) 4#32) (idx (ix1 g)) = _
  exact wrap_word _ _ hg

/-- The base table (4 rows). -/
theorem ohmm4_eq (idx : IVec Cert.KernelIdeal.S2048 32) (emb : FVec Ideal Cert.KernelIdeal.S4x16 .f32)
    (h : ∀ g : Cert.KernelIdeal.S2048.Idx, 0 ≤ (idx g).toInt) :
    ohmm4 (oneHot4 (clipIdx 3#32 idx)) emb = Cert.ReferenceIdeal.Read.val_main_v122 (F := Ideal) idx emb := by
  funext j
  obtain ⟨g, c, rfl⟩ : ∃ (g : Fin 2048) (c : Fin 16), j = ix2 g c := ⟨j 0, j 1, eq_ix2 j⟩
  have hg : 0 ≤ (idx (ix1 g)).toInt := h (ix1 g)
  have hm : min (idx (ix1 g)).toInt.toNat 3 < 4 := by omega
  -- the kernel's side: the one-hot row keeps the table's row min(i, 3)
  have hl : ohmm4 (oneHot4 (clipIdx 3#32 idx)) emb (ix2 g c)
      = emb (ix2 (⟨min (idx (ix1 g)).toInt.toNat 3, hm⟩ : Fin 4) c) := by
    rw [ohmm4_apply]
    rw [Finset.sum_congr rfl (fun l _ => by rw [oneHot4_apply])]
    exact sum_onehot (by norm_num) _ hm _ (clipIdx_apply 3 (by norm_num) idx g hg) (fun l => emb (ix2 l c))
  -- the reference's side: the gather clamps the unwrapped index into the table
  have hr : Cert.ReferenceIdeal.Read.val_main_v122 (F := Ideal) idx emb (ix2 g c)
      = emb (ix2 (⟨min (idx (ix1 g)).toInt.toNat 3, hm⟩ : Fin 4) c) := by
    unfold Cert.ReferenceIdeal.Read.val_main_v122
    rw [gather4_apply]
    refine congrArg emb (congrArg (fun r : Fin 4 => ix2 r c) (Fin.ext ?_))
    show min (Cert.ReferenceIdeal.Read.val_main_v121 (F := Ideal) idx (ix2 g (0 : Fin 1))).toInt.toNat (4 - 1) = min (idx (ix1 g)).toInt.toNat 3
    rw [wrapped4_apply idx g hg]
  rw [hl, hr]

/-! ## The 16-row table -/

/-- The left operand's index at output `i` and contraction position `q`: its row is `i`'s row … -/
theorem lhs16_0 (i : S2048x16.Idx) (q : dot_S2048x16_S16x16_S2048x16_1_0_0_1_n_n.contr.Idx) :
    (dot_S2048x16_S16x16_S2048x16_1_0_0_1_n_n.lhsIdx i q 0).val = (i 0).val := by
  unfold DotDims.lhsIdx
  rw [dif_neg (show ¬(0 : Fin S2048x16.rank) ∈ dot_S2048x16_S16x16_S2048x16_1_0_0_1_n_n.lhsBatch by decide), dif_pos (show (0 : Fin S2048x16.rank) ∈ dot_S2048x16_S16x16_S2048x16_1_0_0_1_n_n.lhsNonContracting by decide)]
  rfl
/-- … and its column the contraction position. -/
theorem lhs16_1 (i : S2048x16.Idx) (q : dot_S2048x16_S16x16_S2048x16_1_0_0_1_n_n.contr.Idx) :
    (dot_S2048x16_S16x16_S2048x16_1_0_0_1_n_n.lhsIdx i q 1).val = (q ⟨0, by decide⟩).val :=
  dot_S2048x16_S16x16_S2048x16_1_0_0_1_n_n.lhsIdx_val_of_single rfl i q
/-- The right operand's index: its row is the contraction position … -/
theorem rhs16_0 (i : S2048x16.Idx) (q : dot_S2048x16_S16x16_S2048x16_1_0_0_1_n_n.contr.Idx) :
    (dot_S2048x16_S16x16_S2048x16_1_0_0_1_n_n.rhsIdx i q 0).val = (q ⟨0, by decide⟩).val :=
  dot_S2048x16_S16x16_S2048x16_1_0_0_1_n_n.rhsIdx_val_of_single rfl i q
/-- … and its column `i`'s column. -/
theorem rhs16_1 (i : S2048x16.Idx) (q : dot_S2048x16_S16x16_S2048x16_1_0_0_1_n_n.contr.Idx) :
    (dot_S2048x16_S16x16_S2048x16_1_0_0_1_n_n.rhsIdx i q 1).val = (i 1).val := by
  unfold DotDims.rhsIdx
  rw [dif_neg (show ¬(1 : Fin S16x16.rank) ∈ dot_S2048x16_S16x16_S2048x16_1_0_0_1_n_n.rhsBatch by decide), dif_pos (show (1 : Fin S16x16.rank) ∈ dot_S2048x16_S16x16_S2048x16_1_0_0_1_n_n.rhsNonContracting by decide)]
  rfl

/-- The product read at `(g, c)`: the sum over the table's rows `l` of the left entry `(g, l)` times the table's `(l, c)`. -/
theorem ohmm16_apply (oh : FVec Ideal S2048x16 .f32) (emb : FVec Ideal S16x16 .f32) (g : Fin 2048) (c : Fin 16) :
    ohmm16 oh emb (ix2 g c) = ∑ l : Fin 16, oh (ix2 g l) * emb (ix2 l c) := by
  unfold ohmm16
  simp only [matmul]
  rw [Ideal.matmul_constant_zero_apply, ← Equiv.sum_comp (ValueIdx.contrEquiv1 dot_S2048x16_S16x16_S2048x16_1_0_0_1_n_n 16 rfl rfl).symm]
  refine Finset.sum_congr rfl fun k _ => ?_
  have hk := ValueIdx.contrEquiv1_symm_val dot_S2048x16_S16x16_S2048x16_1_0_0_1_n_n 16 rfl rfl k
  have el : dot_S2048x16_S16x16_S2048x16_1_0_0_1_n_n.lhsIdx (ix2 g c) ((ValueIdx.contrEquiv1 dot_S2048x16_S16x16_S2048x16_1_0_0_1_n_n 16 rfl rfl).symm k) = ix2 g k := funext fun a => Fin.ext (by
    match a with
    | ⟨0, _⟩ => exact lhs16_0 _ _
    | ⟨1, _⟩ => exact (lhs16_1 _ _).trans hk)
  have er : dot_S2048x16_S16x16_S2048x16_1_0_0_1_n_n.rhsIdx (ix2 g c) ((ValueIdx.contrEquiv1 dot_S2048x16_S16x16_S2048x16_1_0_0_1_n_n 16 rfl rfl).symm k) = ix2 k c := funext fun a => Fin.ext (by
    match a with
    | ⟨0, _⟩ => exact (rhs16_0 _ _).trans hk
    | ⟨1, _⟩ => exact rhs16_1 _ _)
  rw [truncf_apply, truncf_apply, el, er]

/-- The one-hot entry `(g, l)`: 1 where the word of row `g` is the word of `l`, else 0. -/
theorem oneHot16_apply (cw : IVec S2048 32) (g : Fin 2048) (l : Fin 16) :
    oneHot16 cw (ix2 g l) = if cw (ix1 g) = BitVec.ofNat 32 l.val then (1 : EReal) else 0 := by
  unfold oneHot16
  show FloatOps.uitofp (F := Ideal) .f32 (IntOp.cmpi .eq _ _) = _
  rw [uitofp_cmpi_eq]
  have e1 : broadcastInDim S2048x16 ![0, 1] bcast_S2048x1_S2048x16_0_1 (broadcastInDim S2048x1 ![0] bcast_S2048_S2048x1_0 cw) (ix2 g l) = cw (ix1 g) := by
    rw [broadcastInDim_apply _ bcast_S2048x1_S2048x16_0_1 _ (ix2 g l) (ix2 g (0 : Fin 1)) (fun a => match a with
      | ⟨0, _⟩ => by show g.val = if (2048 : Nat) = 1 then 0 else g.val; rw [if_neg (by decide)]
      | ⟨1, _⟩ => by show (0 : Nat) = if (1 : Nat) = 1 then 0 else l.val; rw [if_pos rfl])]
    exact broadcastInDim_apply _ bcast_S2048_S2048x1_0 cw (ix2 g (0 : Fin 1)) (ix1 g) (fun a => match a with
      | ⟨0, _⟩ => by show g.val = if (2048 : Nat) = 1 then 0 else g.val; rw [if_neg (by decide)])
  have e2 : broadcastInDim S2048x16 ![0, 1] bcast_S1x16_S2048x16_0_1 (iotaInDim S1x16 32 1) (ix2 g l) = BitVec.ofNat 32 l.val := by
    rw [broadcastInDim_apply _ bcast_S1x16_S2048x16_0_1 _ (ix2 g l) (ix2 (0 : Fin 1) l) (fun a => match a with
      | ⟨0, _⟩ => by show (0 : Nat) = if (1 : Nat) = 1 then 0 else g.val; rw [if_pos rfl]
      | ⟨1, _⟩ => by show l.val = if (16 : Nat) = 1 then 0 else l.val; rw [if_neg (by decide)])]
    rfl
  rw [e1, e2]

/-! ### The reference's gather from the 16-row table -/

/-- On the table's row axis the gather's operand index is the start index of the result's row, read signed and clamped
    so that the one-row slice fits: the axis is collapsed (no offset) and there is no batching axis. -/
theorem gidx16_0 (si : IVec S2048x1 32) (j : S2048x16.Idx) :
    (Cert.ReferenceIdeal.gather_S16x16_S2048x1_S2048x16_1_0_n_n_0_1_116.operandIdx j si 0).val
      = min (si (ix2 (j 0) (0 : Fin 1))).toInt.toNat (16 - 1) := by
  show Cert.ReferenceIdeal.gather_S16x16_S2048x1_S2048x16_1_0_n_n_0_1_116.start j si 0
    + Cert.ReferenceIdeal.gather_S16x16_S2048x1_S2048x16_1_0_n_n_0_1_116.batchCoord j 0
    + Cert.ReferenceIdeal.gather_S16x16_S2048x1_S2048x16_1_0_n_n_0_1_116.offCoord j 0 = _
  rw [GatherDims.batchCoord_eq_zero Cert.ReferenceIdeal.gather_S16x16_S2048x1_S2048x16_1_0_n_n_0_1_116 _ _ List.not_mem_nil,
    GatherDims.offCoord_eq_zero Cert.ReferenceIdeal.gather_S16x16_S2048x1_S2048x16_1_0_n_n_0_1_116 _ _ (by decide)]
  simp only [Nat.add_zero]
  unfold GatherDims.start
  rw [dif_pos (show (0 : Fin Cert.ReferenceIdeal.S16x16.rank) ∈ Cert.ReferenceIdeal.gather_S16x16_S2048x1_S2048x16_1_0_n_n_0_1_116.startIndexMap from List.mem_singleton.mpr rfl)]
  have hsi : Cert.ReferenceIdeal.gather_S16x16_S2048x1_S2048x16_1_0_n_n_0_1_116.siIdx j
      ⟨List.idxOf (0 : Fin Cert.ReferenceIdeal.S16x16.rank) Cert.ReferenceIdeal.gather_S16x16_S2048x1_S2048x16_1_0_n_n_0_1_116.startIndexMap,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the start is 0 (the start index names the row axis only) and the offset is the result's
    column. -/
theorem gidx16_1 (si : IVec S2048x1 32) (j : S2048x16.Idx) :
    (Cert.ReferenceIdeal.gather_S16x16_S2048x1_S2048x16_1_0_n_n_0_1_116.operandIdx j si 1).val = (j 1).val := by
  show Cert.ReferenceIdeal.gather_S16x16_S2048x1_S2048x16_1_0_n_n_0_1_116.start j si 1
    + Cert.ReferenceIdeal.gather_S16x16_S2048x1_S2048x16_1_0_n_n_0_1_116.batchCoord j 1
    + Cert.ReferenceIdeal.gather_S16x16_S2048x1_S2048x16_1_0_n_n_0_1_116.offCoord j 1 = _
  rw [GatherDims.batchCoord_eq_zero Cert.ReferenceIdeal.gather_S16x16_S2048x1_S2048x16_1_0_n_n_0_1_116 _ _ List.not_mem_nil]
  unfold GatherDims.start
  rw [dif_neg (show ¬(1 : Fin Cert.ReferenceIdeal.S16x16.rank) ∈ Cert.ReferenceIdeal.gather_S16x16_S2048x1_S2048x16_1_0_n_n_0_1_116.startIndexMap by decide)]
  unfold GatherDims.offCoord
  rw [dif_pos (show (1 : Fin Cert.ReferenceIdeal.S16x16.rank) ∈ Cert.ReferenceIdeal.gather_S16x16_S2048x1_S2048x16_1_0_n_n_0_1_116.sKept by decide)]
  simp only [Nat.add_zero, Nat.zero_add]
  rfl

/-- The gather read at `(g, c)`: the table's row at the start index of row `g`, read signed and clamped into the table,
    at column `c`. -/
theorem gather16_apply (x : FVec Ideal S16x16 .f32) (si : IVec S2048x1 32) (g : Fin 2048) (c : Fin 16) :
    Host.gather Cert.ReferenceIdeal.gather_S16x16_S2048x1_S2048x16_1_0_n_n_0_1_116 x si (ix2 g c)
      = x (ix2 (⟨min (si (ix2 g (0 : Fin 1))).toInt.toNat (16 - 1), by omega⟩ : Fin 16) c) := by
  unfold Host.gather
  refine congrArg x (funext fun a => Fin.ext ?_)
  match a with
  | ⟨0, _⟩ => exact gidx16_0 si (ix2 g c)
  | ⟨1, _⟩ => exact gidx16_1 si (ix2 g c)

/-- The reference's wrapped index at row `g` is the index itself when that is not negative. -/
theorem wrapped16_apply (idx : IVec S2048 32) (g : Fin 2048) (hg : 0 ≤ (idx (ix1 g)).toInt) :
    Cert.ReferenceIdeal.Read.val_main_v128 (F := Ideal) idx (ix2 g (0 : Fin 1)) = idx (ix1 g) := by
  rw [Cert.ReferenceIdeal.Read.val_main_v128_apply]
  have e : Cert.ReferenceIdeal.Read.idx_main_v128 (ix2 g (0 : Fin 1)) = ix1 g := by
    funext a; match a with | ⟨0, _⟩ => rfl
  rw [e, Cert.ReferenceIdeal.Read.val_main_v127_apply]
  show Scalar.select (IntOp.cmpi .slt (idx (ix1 g)) 0#32) (IntOp.addi (idx (ix1 g)) 16#32) (idx (ix1 g)) = _
  exact wrap_word _ _ hg

/-- The aryl table (16 rows). -/
theorem ohmm16_eq (idx : IVec Cert.KernelIdeal.S2048 32) (emb : FVec Ideal Cert.KernelIdeal.S16x16 .f32)
    (h : ∀ g : Cert.KernelIdeal.S2048.Idx, 0 ≤ (idx g).toInt) :
    ohmm16 (oneHot16 (clipIdx 15#32 idx)) emb = Cert.ReferenceIdeal.Read.val_main_v129 (F := Ideal) idx emb := by
  funext j
  obtain ⟨g, c, rfl⟩ : ∃ (g : Fin 2048) (c : Fin 16), j = ix2 g c := ⟨j 0, j 1, eq_ix2 j⟩
  have hg : 0 ≤ (idx (ix1 g)).toInt := h (ix1 g)
  have hm : min (idx (ix1 g)).toInt.toNat 15 < 16 := by omega
  -- the kernel's side: the one-hot row keeps the table's row min(i, 15)
  have hl : ohmm16 (oneHot16 (clipIdx 15#32 idx)) emb (ix2 g c)
      = emb (ix2 (⟨min (idx (ix1 g)).toInt.toNat 15, hm⟩ : Fin 16) c) := by
    rw [ohmm16_apply]
    rw [Finset.sum_congr rfl (fun l _ => by rw [oneHot16_apply])]
    exact sum_onehot (by norm_num) _ hm _ (clipIdx_apply 15 (by norm_num) idx g hg) (fun l => emb (ix2 l c))
  -- the reference's side: the gather clamps the unwrapped index into the table
  have hr : Cert.ReferenceIdeal.Read.val_main_v129 (F := Ideal) idx emb (ix2 g c)
      = emb (ix2 (⟨min (idx (ix1 g)).toInt.toNat 15, hm⟩ : Fin 16) c) := by
    unfold Cert.ReferenceIdeal.Read.val_main_v129
    rw [gather16_apply]
    refine congrArg emb (congrArg (fun r : Fin 16 => ix2 r c) (Fin.ext ?_))
    show min (Cert.ReferenceIdeal.Read.val_main_v128 (F := Ideal) idx (ix2 g (0 : Fin 1))).toInt.toNat (16 - 1) = min (idx (ix1 g)).toInt.toNat 15
    rw [wrapped16_apply idx g hg]
  rw [hl, hr]

end Cert.Bridge.OneHot

end
-- ==== Proof.PreIdx.lean ====
/-
  What the precondition says of the four table-index arrays: its last four conjuncts are, for each array, the
  conjunction over all 2048 entries of "the entry is at least 0" (a signed compare with a zero splat, reduced by
  and), so where the precondition holds every entry of each of the four arrays is non-negative as a signed integer.
-/
import proofs.«401907_j73160472920253_2_alg».proof.Pre_finite_inputs
import proofs.«401907_j73160472920253_2_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.Bridge.PreIdx

open Idealize.ShloMosaic Cert.Pre_finite_inputs

/-- The scalar shape has exactly one index. -/
instance subsingleton_scalar_idx : Subsingleton S_.Idx := ⟨fun a b => funext fun d => d.elim0⟩

/-- One conjunct read back: if the conjunction over all 2048 entries of "entry ≥ 0" (signed, against a zero splat)
    is 1, every entry is non-negative as a signed integer. -/
theorem nonneg_of_all (a : IVec S2048 32)
    (e : Host.reduce IntOp.andi (cmpi .sge a (broadcastInDim S2048 ![] Facts.bcast_S_S2048 (constantI S_ 32 0#32)))
        (constantI S_ 1 1#1) Facts.reducesTo_S2048_S_d0 Facts.h_S_ ValueIdx.ix0 = 1#1) :
    ∀ g : S2048.Idx, 0 ≤ (a g).toInt := by
  intro g
  -- the conjunction is 1, so the compare word at g is 1
  have h1 := Host.reduce_andi_all _ _ _ _ _ e g
  -- the splat reads 0 at every position
  have h2 : IntOp.cmpi .sge (a g) 0#32 = 1#1 := h1
  -- a signed "≥" word is 1 exactly when the signed values are so ordered
  have h3 : (0#32 : BitVec 32).toInt ≤ (a g).toInt := IntOp.cmpi_sge.1 h2
  exact h3

/-- The last part of the printed chain: where it is 1, the conjunction it was handed is 1 and the last three index
    arrays are entrywise non-negative. -/
theorem part4_one (a4 a5 a6 : IVec S2048 32) (v : IVec S_ 1)
    (h : fn_part4 (F := Ideal) a4 a5 a6 v = (fun _ => 1#1)) :
    v ValueIdx.ix0 = 1#1 ∧ (∀ g : S2048.Idx, 0 ≤ (a4 g).toInt) ∧ (∀ g : S2048.Idx, 0 ≤ (a5 g).toInt)
      ∧ (∀ g : S2048.Idx, 0 ≤ (a6 g).toInt) := by
  have h0 := congrFun h ValueIdx.ix0
  obtain ⟨h1, h6⟩ := IntOp.andi_eq_one.1 h0
  obtain ⟨h2, h5⟩ := IntOp.andi_eq_one.1 h1
  obtain ⟨h3, h4⟩ := IntOp.andi_eq_one.1 h2
  exact ⟨h3, nonneg_of_all a4 h4, nonneg_of_all a5 h5, nonneg_of_all a6 h6⟩

/-- The part before it: its last conjunct is the first index array's, and it ends in the call of the last part. The
    conjunction of the float conditions to its left is never opened. -/
theorem part3_one (a3 a4 a5 a6 : IVec S2048 32) (a17 : FVec Ideal S64x1 .f32) (a18 : FVec Ideal S1 .f32)
    (v48 : IVec S_ 1) (v49 v50 : FVec Ideal S64 .f32)
    (h : fn_part3 (F := Ideal) a3 a4 a5 a6 a17 a18 v48 v49 v50 = (fun _ => 1#1)) :
    (∀ g : S2048.Idx, 0 ≤ (a3 g).toInt) ∧ (∀ g : S2048.Idx, 0 ≤ (a4 g).toInt)
      ∧ (∀ g : S2048.Idx, 0 ≤ (a5 g).toInt) ∧ (∀ g : S2048.Idx, 0 ≤ (a6 g).toInt) := by
  obtain ⟨h67, h4, h5, h6⟩ := part4_one _ _ _ _ h
  obtain ⟨_, h3⟩ := IntOp.andi_eq_one.1 h67
  exact ⟨nonneg_of_all a3 h3, h4, h5, h6⟩

/-- Where the precondition holds, every entry of the ligand, additive, base and aryl index arrays is non-negative. -/
theorem idx_nonneg (main_arg0 : FVec Ideal S100000x6 .f32) (main_arg1 : IVec S2x1600000 32) (main_arg2 : IVec S100000 32) (main_arg3 : IVec S2048 32) (main_arg4 : IVec S2048 32) (main_arg5 : IVec S2048 32) (main_arg6 : IVec S2048 32) (main_arg7 : FVec Ideal S12x16 .f32) (main_arg8 : FVec Ideal S23x16 .f32) (main_arg9 : FVec Ideal S4x16 .f32) (main_arg10 : FVec Ideal S16x16 .f32) (main_arg11 : FVec Ideal S6x64 .f32) (main_arg12 : FVec Ideal S64 .f32) (main_arg13 : FVec Ideal S64x64 .f32) (main_arg14 : FVec Ideal S64 .f32) (main_arg15 : FVec Ideal S128x64 .f32) (main_arg16 : FVec Ideal S64 .f32) (main_arg17 : FVec Ideal S64x1 .f32) (main_arg18 : FVec Ideal S1 .f32)
    (h : Cert.Pre_finite_inputs.fn (F := Ideal) main_arg0 main_arg1 main_arg2 main_arg3 main_arg4 main_arg5 main_arg6 main_arg7 main_arg8 main_arg9 main_arg10 main_arg11 main_arg12 main_arg13 main_arg14 main_arg15 main_arg16 main_arg17 main_arg18 = (fun _ => 1#1)) :
    (∀ g : S2048.Idx, 0 ≤ (main_arg3 g).toInt) ∧ (∀ g : S2048.Idx, 0 ≤ (main_arg4 g).toInt)
      ∧ (∀ g : S2048.Idx, 0 ≤ (main_arg5 g).toInt) ∧ (∀ g : S2048.Idx, 0 ≤ (main_arg6 g).toInt) := by
  -- the printed function is its first 72 operations followed by the call of the part that holds the index conjuncts
  exact part3_one _ _ _ _ _ _ _ _ _ h

end Cert.Bridge.PreIdx

end
-- ==== Proof.Bridge.lean ====
/-
  The two programs meet. The kernel program's result buffer, read back through its four kernels and the host arithmetic
  between them, is
      head (pool (biasRelu (msg (biasReluProj (msg (proj x W1)) b1 W2)) b2)) (rows of the four tables) lin1 lin2,
  and the reference's staged result is the same composition by unfolding its stages. The one place the programs differ is
  how a table row is fetched: the kernel multiplies a one-hot row by the table, the reference gathers; for a non-negative
  index (the precondition's last four conjuncts) both read row min(i, N-1).
-/
import proofs.«401907_j73160472920253_2_alg».proof.Proof.KRun
import proofs.«401907_j73160472920253_2_alg».proof.Proof.KHost
import proofs.«401907_j73160472920253_2_alg».proof.Proof.Reg0
import proofs.«401907_j73160472920253_2_alg».proof.Proof.Reg1
import proofs.«401907_j73160472920253_2_alg».proof.Proof.Reg2
import proofs.«401907_j73160472920253_2_alg».proof.Proof.Reg3
import proofs.«401907_j73160472920253_2_alg».proof.Proof.OneHot
import proofs.«401907_j73160472920253_2_alg».proof.Proof.PreIdx

set_option maxRecDepth 16384

noncomputable section

namespace Cert.Bridge

open Idealize.ShloMosaic Idealize.ShloMosaic.TcCoe Idealize.SL.Sem Idealize.ShloMosaic.StableHlo

section Reference
open Cert.ReferenceIdeal Cert.ReferenceIdeal.Read

set_option maxHeartbeats 4000000 in
/-- The reference's result, stage by stage, is the composition of the four kernels' functions with the two shared
    stretches of host arithmetic; its second convolution recomputes the degree norm by the same operations, so the
    second `msg` is the first one's function. -/
theorem ref_eq (x0 : (⟨S100000x6, .f32⟩ : BufTy).Contents (Elt Ideal)) (x1 : (⟨S2x1600000, .i32⟩ : BufTy).Contents (Elt Ideal)) (x2 : (⟨S100000, .i32⟩ : BufTy).Contents (Elt Ideal)) (x3 : (⟨S2048, .i32⟩ : BufTy).Contents (Elt Ideal)) (x4 : (⟨S2048, .i32⟩ : BufTy).Contents (Elt Ideal)) (x5 : (⟨S2048, .i32⟩ : BufTy).Contents (Elt Ideal)) (x6 : (⟨S2048, .i32⟩ : BufTy).Contents (Elt Ideal)) (x7 : (⟨S12x16, .f32⟩ : BufTy).Contents (Elt Ideal)) (x8 : (⟨S23x16, .f32⟩ : BufTy).Contents (Elt Ideal)) (x9 : (⟨S4x16, .f32⟩ : BufTy).Contents (Elt Ideal)) (x10 : (⟨S16x16, .f32⟩ : BufTy).Contents (Elt Ideal)) (x11 : (⟨S6x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S128x64, .f32⟩ : BufTy).Contents (Elt Ideal)) (x16 : (⟨S64, .f32⟩ : BufTy).Contents (Elt Ideal)) (x17 : (⟨S64x1, .f32⟩ : BufTy).Contents (Elt Ideal)) (x18 : (⟨S1, .f32⟩ : BufTy).Contents (Elt Ideal)) :
    val_main_v139 (F := Ideal) x0 x1 x2 x3 x4 x5 x6 x7 x8 x9 x10 x11 x12 x13 x14 x15 x16 x17 x18
      = Spec.head
          (Spec.pool (Spec.biasRelu (Spec.msg (Spec.biasReluProj (Spec.msg (Spec.proj x0 x11) x1) (val_main_v43 (F := Ideal) x12) x13) x1)
              (val_main_v86 (F := Ideal) x14)) x2)
          (val_main_v108 (F := Ideal) x3 x7) (val_main_v115 (F := Ideal) x4 x8) (val_main_v122 (F := Ideal) x5 x9) (val_main_v129 (F := Ideal) x6 x10)
          x15 (val_main_v132 (F := Ideal) x16) x17 (val_main_v137 (F := Ideal) x18) := rfl

end Reference

open Cert.KernelIdeal Cert.KernelIdeal.Gen

variable (m : (ℓ : Loc nD τ sig) → Buf (Elt Ideal) ℓ) (ρ : Dev nD → PrngReg)

set_option maxHeartbeats 16000000 in
/-- The kernel program's result buffer at the last boundary, under non-negative table indices, is the reference's
    staged result of the launch contents of the arguments. -/
theorem kres (c : Dev nD)
    (h3 : ∀ g : S2048.Idx, 0 ≤ ((m ((c : Thread nD τ).loc main_arg3)) g).toInt) (h4 : ∀ g : S2048.Idx, 0 ≤ ((m ((c : Thread nD τ).loc main_arg4)) g).toInt)
    (h5 : ∀ g : S2048.Idx, 0 ≤ ((m ((c : Thread nD τ).loc main_arg5)) g).toInt) (h6 : ∀ g : S2048.Idx, 0 ≤ ((m ((c : Thread nD τ).loc main_arg6)) g).toInt) :
    W20 m ρ c (Proc.devRef .tc main_v81)
      = Cert.ReferenceIdeal.Read.val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  -- the last kernel's output array, as a function of what the kernel was entered with
  rw [show W20 m ρ c (Proc.devRef .tc main_v81) = (dat3 (V19 m ρ) c).arrAt 13 cfg3.N from W20_arr m ρ c 13]
  rw [Reg3.final3 (V19 m ρ) c]
  -- what it was entered with: the pooled features, the four one-hot arrays, the tables, the weights and the biases
  have e70 : V19 m ρ c main_v70 = Spec.pool (W6 m ρ c (Proc.devRef .tc main_v58)) (m ((c : Thread nD τ).loc main_arg2)) := KHost.W19_pool m ρ c
  have e75 : V19 m ρ c main_v75 = oneHot12 (clipIdx 11#32 (m ((c : Thread nD τ).loc main_arg3))) := KHost.W19_oh12 m ρ c
  have e76 : V19 m ρ c main_v76 = oneHot23 (clipIdx 22#32 (m ((c : Thread nD τ).loc main_arg4))) := KHost.W19_oh23 m ρ c
  have e77 : V19 m ρ c main_v77 = oneHot4 (clipIdx 3#32 (m ((c : Thread nD τ).loc main_arg5))) := KHost.W19_oh4 m ρ c
  have e78 : V19 m ρ c main_v78 = oneHot16 (clipIdx 15#32 (m ((c : Thread nD τ).loc main_arg6))) := KHost.W19_oh16 m ρ c
  have e7 : V19 m ρ c main_arg7 = m ((c : Thread nD τ).loc main_arg7) := KHost.W19_arg7 m ρ c
  have e8 : V19 m ρ c main_arg8 = m ((c : Thread nD τ).loc main_arg8) := KHost.W19_arg8 m ρ c
  have e9 : V19 m ρ c main_arg9 = m ((c : Thread nD τ).loc main_arg9) := KHost.W19_arg9 m ρ c
  have e10 : V19 m ρ c main_arg10 = m ((c : Thread nD τ).loc main_arg10) := KHost.W19_arg10 m ρ c
  have e15 : V19 m ρ c main_arg15 = m ((c : Thread nD τ).loc main_arg15) := KHost.W19_arg15 m ρ c
  have e17 : V19 m ρ c main_arg17 = m ((c : Thread nD τ).loc main_arg17) := KHost.W19_arg17 m ρ c
  have e79 : V19 m ρ c main_v79 = Cert.ReferenceIdeal.Read.val_main_v132 (F := Ideal) (m ((c : Thread nD τ).loc main_arg16)) := KHost.W19_bias1 m ρ c
  have e80 : V19 m ρ c main_v80 = Cert.ReferenceIdeal.Read.val_main_v137 (F := Ideal) (m ((c : Thread nD τ).loc main_arg18)) := KHost.W19_bias2 m ρ c
  rw [e70, e75, e76, e77, e78, e7, e8, e9, e10, e15, e17, e79, e80]
  -- a one-hot row times a table is the row the reference gathers
  rw [OneHot.ohmm12_eq _ _ h3, OneHot.ohmm23_eq _ _ h4, OneHot.ohmm4_eq _ _ h5, OneHot.ohmm16_eq _ _ h6]
  -- the third kernel's output array
  rw [show W6 m ρ c (Proc.devRef .tc main_v58) = (dat2 (V5 m ρ) c).arrAt 2 cfg2.N from W6_arr m ρ c 2]
  rw [Reg2.final2 (V5 m ρ) c]
  have e56 : V5 m ρ c main_v56 = Spec.msg (W4 m ρ c (Proc.devRef .tc main_v44)) (m ((c : Thread nD τ).loc main_arg1)) := KHost.W5_msg m ρ c
  have e57 : V5 m ρ c main_v57 = Cert.ReferenceIdeal.Read.val_main_v86 (F := Ideal) (m ((c : Thread nD τ).loc main_arg14)) := KHost.W5_bias m ρ c
  rw [e56, e57]
  -- the second kernel's output array
  rw [show W4 m ρ c (Proc.devRef .tc main_v44) = (dat1 (V3 m ρ) c).arrAt 3 cfg1.N from W4_arr m ρ c 3]
  rw [Reg1.final1 (V3 m ρ) c]
  have e42 : V3 m ρ c main_v42 = Spec.msg (W2 m ρ c (Proc.devRef .tc main_v30)) (m ((c : Thread nD τ).loc main_arg1)) := KHost.W3_msg m ρ c
  have e43 : V3 m ρ c main_v43 = Cert.ReferenceIdeal.Read.val_main_v43 (F := Ideal) (m ((c : Thread nD τ).loc main_arg12)) := KHost.W3_bias m ρ c
  have e13 : V3 m ρ c main_arg13 = m ((c : Thread nD τ).loc main_arg13) := KHost.W3_arg13 m ρ c
  rw [e42, e43, e13]
  -- the first kernel's output array
  rw [show W2 m ρ c (Proc.devRef .tc main_v30) = (dat0 (V1 m ρ) c).arrAt 2 cfg0.N from W2_arr m ρ c 2]
  rw [Reg0.final0 (V1 m ρ) c]
  have e0 : V1 m ρ c main_arg0 = m ((c : Thread nD τ).loc main_arg0) := KHost.W1_arg0 m ρ c
  have e11 : V1 m ρ c main_arg11 = m ((c : Thread nD τ).loc main_arg11) := KHost.W1_arg11 m ρ c
  rw [e0, e11]
  -- the reference's stages are the same composition
  exact (ref_eq _ _ _ _ _ _ _ _ _ _ _ _ _ _ _ _ _ _ _).symm

end Cert.Bridge

end
-- ==== Proof.lean ====
/-
  The certificate of a two-layer graph convolution with mean pooling and a small head, in four kernels, against its jnp
  reference, at the extended reals.

  The kernel program computes the edges' symmetric degree norm once on the host, then: a first kernel for x·W1 (ten row
  blocks); on the host a round of message passing (gather at the sources, scale, sum at the destinations); a second kernel
  for max(msg + b1, 0)·W2 (twenty row blocks); a second round of message passing; a third kernel for max(msg + b2, 0); the
  per-graph mean on the host; and a last kernel that forms each graph's row of the four embedding tables as a one-hot row
  times the table, concatenates them with the pooled features and applies the two-layer head. The reference does the same
  with jnp operations, fetching the table rows by a gather. At the extended reals a change of float format is the identity
  and a product into a zero accumulator is the plain sum, so each kernel's output array is the reference's operation of the
  kernel's input arrays (Proof/Reg0 … Reg3 over Proof/Spec); the host arithmetic between the kernels is the same
  operations on both sides (Proof/KHost over Proof/SpecHost); and a one-hot row times a table is the table's row the gather
  reads when the index is non-negative (Proof/OneHot) — which the precondition's last four conjuncts say (Proof/PreIdx):
  a negative index is wrapped by the reference and clipped to row 0 by the kernel, so there the two differ.

  The three frames are the generated ones (the reference's is its generated run with the result dropped); the ledger of
  the ideal pass is empty, so `preserves` is trivial; `algebraic` is Proof/Bridge's `kres` under the kernel program's
  run with its result buffer named (Proof/KRun) and the reference's generated run.
-/
import proofs.«401907_j73160472920253_2_alg».proof.Defs
import proofs.«401907_j73160472920253_2_alg».proof.Proof.Gen.Kernel
import proofs.«401907_j73160472920253_2_alg».proof.Proof.Gen.Kernel.Skeleton
import proofs.«401907_j73160472920253_2_alg».proof.Proof.Gen.Kernel.Launch
import proofs.«401907_j73160472920253_2_alg».proof.Proof.Gen.Kernel.Points
import proofs.«401907_j73160472920253_2_alg».proof.Proof.Gen.Kernel.Frame
import proofs.«401907_j73160472920253_2_alg».proof.Proof.Gen.KernelIdeal
import proofs.«401907_j73160472920253_2_alg».proof.Proof.Gen.KernelIdeal.Skeleton
import proofs.«401907_j73160472920253_2_alg».proof.Proof.Gen.KernelIdeal.Launch
import proofs.«401907_j73160472920253_2_alg».proof.Proof.Gen.KernelIdeal.Points
import proofs.«401907_j73160472920253_2_alg».proof.Proof.Gen.KernelIdeal.Frame
import proofs.«401907_j73160472920253_2_alg».proof.Proof.Gen.ReferenceIdeal
import proofs.«401907_j73160472920253_2_alg».proof.Proof.Gen.ReferenceIdeal.Run
import proofs.«401907_j73160472920253_2_alg».proof.Proof.Gen.ReferenceIdeal.Read
import proofs.«401907_j73160472920253_2_alg».proof.Proof.Gen.Pre_finite_inputs
import proofs.«401907_j73160472920253_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories agreeing on the arguments, end at the kernel program's last boundary contents of its
    result buffer: the kernel program by its run, the reference because its staged result is that array (`kres`), the
    table indices being non-negative where the precondition holds. -/
theorem algebraic : Cert.algebraic_KernelIdeal_ReferenceIdeal := by
  intro m ρ m' ρ' hpre hagree
  refine ⟨fun c => Cert.KernelIdeal.Gen.W20 m ρ c (Proc.devRef .tc Cert.KernelIdeal.main_v81), Cert.KernelIdeal.Gen.run_res m ρ, ?_⟩
  refine (θ_run Cert.ReferenceIdeal.defs _ _).mono (fun r h c => ⟨(h c).1.trans ?_, (h c).2⟩) (Cert.ReferenceIdeal.Value.run (F := Ideal) m' ρ')
  rw [Cert.ReferenceIdeal.Read.val_main_v139_eq]
  obtain ⟨a0, a1, a2, a3, a4, a5, a6, a7, a8, a9, a10, a11, a12, a13, a14, a15, a16, a17, a18⟩ := hagree c
  rw [a0, a1, a2, a3, a4, a5, a6, a7, a8, a9, a10, a11, a12, a13, a14, a15, a16, a17, a18]
  obtain ⟨h3, h4, h5, h6⟩ := Cert.Bridge.PreIdx.idx_nonneg _ _ _ _ _ _ _ _ _ _ _ _ _ _ _ _ _ _ _ (hpre c)
  exact (Cert.Bridge.kres m ρ c h3 h4 h5 h6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
